-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192 : Shape := ⟨1, ![8192]⟩
abbrev S6 : Shape := ⟨1, ![6]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192 : Shape := ⟨2, ![1, 8192]⟩
abbrev S1024x64 : Shape := ⟨2, ![1024, 64]⟩
abbrev S512x64 : Shape := ⟨2, ![512, 64]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 46
  | .vmem => 14
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S6, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x64, .f32⟩
  | .hbm, ⟨34, _⟩ => ⟨S8192x64, .f32⟩
  | .hbm, ⟨35, _⟩ => ⟨S8192x1, .i32⟩
  | .hbm, ⟨36, _⟩ => ⟨S1x8192, .i32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S512x64, .f32⟩
  | .local _ .vmem, ⟨3, _⟩ => ⟨S512x64, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_v0 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8_0 : Ref sig .tc := ⟨.hbm, 37, rfl⟩
abbrev main_v8_1 : Ref sig .tc := ⟨.hbm, 38, rfl⟩
abbrev main_cst_0 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_22 : BitVec 32 := 0#32
  let v51 : BitVec 1 := Scalar.cmpi .ne v50 c0_i32_22
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  reducesTo_S8192x64_S8192_d1 : S8192x64.ReducesTo [1] S8192
  bcast_S8192x1_S8192x64_0_1 : S8192x1.BroadcastsInDim S8192x64 (![0, 1] : Fin 2 → Fin S8192x64.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  natLt_1_32 : 1 < 32
  reducesTo_S8192x1_S_d0_1 : S8192x1.ReducesTo [0, 1] S_
  gather_S6_S8192x1_S8192_n_0_n_n_0_1_1_wf : GatherDims.WF S6 S8192x1 S8192 [] [0] [] [0] [] 1 ![1]
  dot_S1024x64_S512x64_S1024x512_1_1_0_0_n_n_wf : DotDims.WF S1024x64 S512x64 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def gather_S6_S8192x1_S8192_n_0_n_n_0_1_1 : GatherDims S6 S8192x1 S8192 where
  offsetDims := []
  collapsedSliceDims := [0]
  operandBatchingDims := []
  startIndicesBatchingDims := []
  startIndexMap := [0]
  indexVectorDim := 1
  sliceSizes := ![1]
  wf := gather_S6_S8192x1_S8192_n_0_n_n_0_1_1_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf

abbrev win0_0 : Pipeline.Window sig grid0 :=
  Pipeline.Window.ofSpec (Memref.whole main_v5) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S8192 : Shape := ⟨1, ![8192]⟩
abbrev S6 : Shape := ⟨1, ![6]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S64x8192 : Shape := ⟨2, ![64, 8192]⟩
abbrev S8192x8192 : Shape := ⟨2, ![8192, 8192]⟩
abbrev S1x8192 : Shape := ⟨2, ![1, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S6, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x64, .f32⟩
  | .hbm, ⟨34, _⟩ => ⟨S8192x64, .f32⟩
  | .hbm, ⟨35, _⟩ => ⟨S64x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x1, .i32⟩
  | .hbm, ⟨41, _⟩ => ⟨S1x8192, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i32⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S8192x8192, .i1⟩
  | .hbm, ⟨52, _⟩ => ⟨S8192x8192, .i1⟩
  | .hbm, ⟨53, _⟩ => ⟨S8192x1, .i32⟩
  | .hbm, ⟨54, _⟩ => ⟨S1x8192, .i32⟩
  | .hbm, ⟨55, _⟩ => ⟨S8192x8192, .i32⟩
  | .hbm, ⟨56, _⟩ => ⟨S8192x8192, .i32⟩
  | .hbm, ⟨57, _⟩ => ⟨S8192x8192, .i1⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S_, .i1⟩
  | .hbm, ⟨71, _⟩ => ⟨S8192, .i1⟩
  | .hbm, ⟨72, _⟩ => ⟨S_, .i1⟩
  | .hbm, ⟨73, _⟩ => ⟨S8192, .i1⟩
  | .hbm, ⟨74, _⟩ => ⟨S8192, .i1⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_v0 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_call2_v0 : Ref sig .tc := ⟨.hbm, 59, rfl⟩
abbrev main_call2_v1 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_cst_4 : Ref sig .tc := ⟨.hbm, 64, rfl⟩
abbrev main_call3_v0 : Ref sig .tc := ⟨.hbm, 65, rfl⟩
abbrev main_call3_v1 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_c_6 : Ref sig .tc := ⟨.hbm, 70, rfl⟩
abbrev main_v31 : Ref sig .tc := ⟨.hbm, 71, rfl⟩
abbrev main_c_7 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_8 : Ref sig .tc := ⟨.hbm, 76, rfl⟩
abbrev main_v35 : Ref sig .tc := ⟨.hbm, 77, rfl⟩
abbrev main_v36 : Ref sig .tc := ⟨.hbm, 78, rfl⟩
abbrev main_call4_cst : Ref sig .tc := ⟨.hbm, 79, rfl⟩
abbrev main_call4_v0 : Ref sig .tc := ⟨.hbm, 80, rfl⟩
abbrev main_v37 : Ref sig .tc := ⟨.hbm, 81, rfl⟩
abbrev main_cst_9 : Ref sig .tc := ⟨.hbm, 82, rfl⟩
abbrev main_call5_v0 : Ref sig .tc := ⟨.hbm, 83, rfl⟩
abbrev main_call5_v1 : Ref sig .tc := ⟨.hbm, 84, rfl⟩
abbrev main_v38 : Ref sig .tc := ⟨.hbm, 85, rfl⟩
abbrev main_v39 : Ref sig .tc := ⟨.hbm, 86, rfl⟩
abbrev main_cst_10 : Ref sig .tc := ⟨.hbm, 87, rfl⟩
abbrev main_v40 : Ref sig .tc := ⟨.hbm, 88, rfl⟩
abbrev main_cst_11 : Ref sig .tc := ⟨.hbm, 89, rfl⟩
abbrev main_v41 : Ref sig .tc := ⟨.hbm, 90, rfl⟩
abbrev main_cst_12 : Ref sig .tc := ⟨.hbm, 91, rfl⟩
abbrev main_v42 : Ref sig .tc := ⟨.hbm, 92, rfl⟩
abbrev main_v43 : Ref sig .tc := ⟨.hbm, 93, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  reducesTo_S8192x64_S8192_d1 : S8192x64.ReducesTo [1] S8192
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  gather_S6_S8192x1_S8192_n_0_n_n_0_1_1_wf : GatherDims.WF S6 S8192x1 S8192 [] [0] [] [0] [] 1 ![1]
  dot_S8192x64_S64x8192_S8192x8192_1_0_0_1_n_n_wf : DotDims.WF S8192x64 S64x8192 S8192x8192 [1] [0] [0] [1] [] []

variable [Facts₀]

def gather_S6_S8192x1_S8192_n_0_n_n_0_1_1 : GatherDims S6 S8192x1 S8192 where
  offsetDims := []
  collapsedSliceDims := [0]
  operandBatchingDims := []
  startIndicesBatchingDims := []
  startIndexMap := [0]
  indexVectorDim := 1
  sliceSizes := ![1]
  wf := gather_S6_S8192x1_S8192_n_0_n_n_0_1_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KBase.lean ====
/-
  The proof data of the kernel's one pipeline, stated over explicit values.

  The grid is 8 row blocks by 16 column blocks, visited row block by row block (point t = 16·ib + jb). At a point the
  body computes, for the 1024 rows of its row block against the 512 columns of its column block, the block maximum of
  the masked distances over the columns of the row's own family (the diagonal left out) and the block minimum over the
  columns of the other families; two scratch buffers carry the running maximum and minimum along jb: reset to the fill
  values at jb = 0, folded with the block's values at every jb; at jb = 15 the two outputs are stored from them.
  Here: the input blocks as read off the arrays the region finds (`iblk`), the closed forms of the two branch
  conditions, what the scratches hold after each point (`scAt`, by recursion on the point), what the outputs' staging
  buffers hold at the points that store them (`out4At`, `out5At`), the region invariant (`PhiS`) and the proof data
  (`dat0`). The two windows that read the normalised embeddings share one array: they hold it at the two halves of
  the full share.
-/
import proofs.«175049_j14310831030886_1_alg».proof.Proof.Gen.Kernel.Launch
import proofs.«175049_j14310831030886_1_alg».proof.Proof.Gen.Kernel.Skeleton
import proofs.«175049_j14310831030886_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- `V`: the contents of core `c`'s TensorCore buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's two branch conditions -/

/-- The reset branch is taken where the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The output branch is taken where the column-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the two outputs are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last column block they are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging and scratch memrefs -/

abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two scratch operands: the running maximum and the running minimum. -/
abbrev scM0 : Memref sig .tc .vmem S1024x1 .f32 := Memref.whole cc0_scratch0
abbrev scM1 : Memref sig .tc .vmem S1024x1 .f32 := Memref.whole cc0_scratch1

/-- The class invariant with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratches and the outputs hold -/

/-- The block maximum at point `t`: over the block's columns, of the distance where the column is of the row's family
    and off the diagonal, the low fill elsewhere. -/
def bmax (c : Dev nD) (t : Fin cfg0.N) : FVec F S1024x1 .f32 :=
  k0_pay11 (grid0.coords t) (iblk V c 0 t) (iblk V c 1 t) (iblk V c 2 t) (iblk V c 3 t)
/-- The block minimum at point `t`: over the block's columns, of the distance where the column is of another family,
    the high fill elsewhere. -/
def bmin (c : Dev nD) (t : Fin cfg0.N) : FVec F S1024 .f32 :=
  k0_pay12 (iblk V c 0 t) (iblk V c 1 t) (iblk V c 2 t) (iblk V c 3 t)

/-- What the two scratches hold after the body at position `n`: at the first column block of a row block the block's
    values folded into the fills, afterwards into what the point before left. -/
def scAt (c : Dev nD) : (n : ℕ) → n < cfg0.N → Vec F S1024x1 .f32 × Vec F S1024x1 .f32
  | 0, hn => (k0_pay1 (bmax V c ⟨0, hn⟩) (k0_pay6 (F := F)), k0_pay2 (bmin V c ⟨0, hn⟩) (k0_pay7 (F := F)))
  | n + 1, hn =>
    if (n + 1) % 16 = 0 then
      (k0_pay1 (bmax V c ⟨n + 1, hn⟩) (k0_pay6 (F := F)), k0_pay2 (bmin V c ⟨n + 1, hn⟩) (k0_pay7 (F := F)))
    else
      (k0_pay1 (bmax V c ⟨n + 1, hn⟩) (scAt c n (Nat.lt_of_succ_lt hn)).1, k0_pay2 (bmin V c ⟨n + 1, hn⟩) (scAt c n (Nat.lt_of_succ_lt hn)).2)

theorem scAt_reset (c : Dev nD) (t : Fin cfg0.N) (h0 : t.val % 16 = 0) :
    scAt V c t.val t.isLt = (k0_pay1 (bmax V c t) (k0_pay6 (F := F)), k0_pay2 (bmin V c t) (k0_pay7 (F := F))) := by
  obtain ⟨n, hn⟩ := t
  cases n with
  | zero => rfl
  | succ n => exact (if_pos h0).trans rfl

theorem scAt_acc (c : Dev nD) (t : Fin cfg0.N) (h0 : ¬t.val % 16 = 0) :
    scAt V c t.val t.isLt = (k0_pay1 (bmax V c t) (scAt V c (t.val - 1) (Nat.lt_of_le_of_lt (Nat.sub_le _ _) t.isLt)).1,
      k0_pay2 (bmin V c t) (scAt V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The per-row loss, from the two scratches after the point. -/
def out4At (c : Dev nD) (t : Fin cfg0.N) : FVec F S1024x1 .f32 :=
  k0_pay4 (scAt V c t.val t.isLt).1 (scAt V c t.val t.isLt).2
/-- The per-row validity (1 or 0), from the two scratches after the point. -/
def out5At (c : Dev nD) (t : Fin cfg0.N) : FVec F S1024x1 .f32 :=
  k0_pay5 (scAt V c t.val t.isLt).1 (scAt V c t.val t.isLt).2

/-! ## The region invariant -/

/-- Before the first point the class invariant (each scratch at anything); before position `n + 1` the two scratches at
    what position `n` left, and the generator register at some state. -/
def PhiS (c : Dev nD) : (n : ℕ) → n ≤ cfg0.N → sProp 𝕄
  | 0, _ => Pipeline.ΦA spec0 c
  | n + 1, hn => iprop(iprop(owns (c : Thread nD τ) scM0 fullShare ((scAt V c n hn).1) ∗ owns (c : Thread nD τ) scM1 fullShare ((scAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((scAt V c n hn).1) ∗ owns (c : Thread nD τ) scM1 fullShare ((scAt V c n hn).2)) ∗ (∃ r, prngReg c r)) := rfl

theorem PhiS_pos (c : Dev nD) (n : ℕ) (h : n ≤ cfg0.N) (hz : n ≠ 0) :
    PhiS V c n h = iprop(iprop(owns (c : Thread nD τ) scM0 fullShare ((scAt V c (n - 1) (by omega)).1) ∗ owns (c : Thread nD τ) scM1 fullShare ((scAt V c (n - 1) (by omega)).2)) ∗ (∃ r, prngReg c r)) := by
  cases n with
  | zero => exact absurd rfl hz
  | succ n => rfl

/-! ## The proof data -/

/-- The arrays as the region finds them; after the body each input's buffer at its block, the two outputs' at the
    loss and the validity of the scratches after the point; the invariant `PhiS`; nothing owed; the shared array at
    the two halves of the full share, the other inputs at the full share. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4At V c t
    | ⟨5, _⟩ => out5At V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = out4At V c t := by dsimp only [dat0]
theorem after0_5 (c : Dev nD) (t : Fin cfg0.N) : (dat0 V c).after 5 t = out5At V c t := by dsimp only [dat0]

end Cert.Kernel.Hand

end
-- ==== Proof.KVals.lean ====
/-
  The contents of a core's unscoped buffers at each boundary of the program: at launch, after each of the four host
  stretches before the pallas_call (the family table; the family lookup; the row norms; the normalised embeddings and
  the two reshapes of the families), after the pallas_call (its two result arrays at what the pipeline's write-backs
  leave, every other buffer as it was), and after the host stretch that follows (the two sums, the clamp of the count
  and the quotient).
-/
import proofs.«175049_j14310831030886_1_alg».proof.Proof.KBase

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ)

/-- At launch. -/
abbrev W0 (c : Dev nD) : Valuation τ sig (Elt F) := fun b => m (c, b)
/-- After the family table is written. -/
abbrev W1 (c : Dev nD) : Valuation τ sig (Elt F) := StableHlo.after hostOps0 (W0 m c)
/-- After the family lookup. -/
abbrev W2 (c : Dev nD) : Valuation τ sig (Elt F) := StableHlo.after hostOps0_1 (W1 m c)
/-- After the row norms. -/
abbrev W3 (c : Dev nD) : Valuation τ sig (Elt F) := StableHlo.after hostOps0_2 (W2 m c)
/-- After the normalisation and the two reshapes: what the pallas_call is entered from. -/
abbrev W4 (c : Dev nD) : Valuation τ sig (Elt F) := StableHlo.after hostOps0_3 (W3 m c)
/-- The same read at the TensorCore's references: the proof data's entry contents. -/
abbrev VE (c : Dev nD) (b : Ref sig .tc) : Buf (Elt F) ((c : Thread nD τ).loc b) := W4 m c b

/-- After the pallas_call: its two result arrays at the write-backs' fold, every other buffer as entered. -/
def W5 (c : Dev nD) : Valuation τ sig (Elt F) :=
  Function.update (Function.update (W4 m c) main_v8_0 ((dat0 (VE m) c).arrAt 4 cfg0.N)) main_v8_1 ((dat0 (VE m) c).arrAt 5 cfg0.N)
/-- After the host stretch that follows: the end of the program. -/
abbrev W6 (c : Dev nD) : Valuation τ sig (Elt F) := StableHlo.after hostOps1 (W5 m c)

theorem W5_out0 (c : Dev nD) : W5 m c main_v8_0 = (dat0 (VE m) c).arrAt 4 cfg0.N := by
  unfold W5
  rw [Function.update_of_ne (StableHlo.devRef_ne_of_ne (by decide) : (Proc.devRef .tc main_v8_0 : DevRef τ sig) ≠ Proc.devRef .tc main_v8_1)]
  exact Function.update_self ..
theorem W5_out1 (c : Dev nD) : W5 m c main_v8_1 = (dat0 (VE m) c).arrAt 5 cfg0.N := by
  unfold W5; exact Function.update_self ..
theorem W5_of (c : Dev nD) (r : Ref sig .tc) (h : r ∉ ([main_v8_0, main_v8_1] : List (Ref sig .tc))) : W5 m c r = W4 m c r := by
  have h0 : r ≠ main_v8_0 := fun e => h (e ▸ List.mem_cons_self ..)
  have h1 : r ≠ main_v8_1 := fun e => h (e ▸ List.mem_cons_of_mem _ (List.mem_cons_self ..))
  unfold W5
  rw [Function.update_of_ne (StableHlo.devRef_ne_of_ne h1 : (Proc.devRef .tc r : DevRef τ sig) ≠ Proc.devRef .tc main_v8_1),
    Function.update_of_ne (StableHlo.devRef_ne_of_ne h0 : (Proc.devRef .tc r : DevRef τ sig) ≠ Proc.devRef .tc main_v8_0)]

end Cert.Kernel.Hand

end
-- ==== Proof.KRunB.lean ====
/-
  The kernel body run whole at a point that is neither the first nor the last column block of its row block: the
  two scratches are found at what the point before left, folded with the block's maximum and minimum and stored
  back; the two outputs' buffers are handed back as found. The run finds, for each scratch, the pieces its stores
  leave (the witness).
-/
import proofs.«175049_j14310831030886_1_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where neither branch is taken: the inputs' buffers at `x0 … x3` and the idle outputs' at `y4`, `y5`
    are returned as they were; scratch 0 found at `s0` and scratch 1 at `s1` end with the pieces `LS0`, `LS1` written. -/
noncomputable def runB (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) :
    Σ' (LS0 : List (View.Piece (Elt F) S1024x1 .f32)), { LS1 : List (View.Piece (Elt F) S1024x1 .f32) //
      ∀ (y4 y5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ owns (c : Thread nD τ) a8 fullShare s0 ∗ owns (c : Thread nD τ) a9 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun y4 y5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfs0; obtain rfl := h9.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

end Cert.Kernel.Hand

end
-- ==== Proof.KRunA.lean ====
/-
  The kernel body run whole at the first column block of a row block: the two scratches, found at any contents, are
  reset to the fill values, then folded with the block's maximum and minimum and stored back; the two outputs'
  buffers are handed back as found. The run finds, for each scratch, the pieces its stores leave (the witness).
-/
import proofs.«175049_j14310831030886_1_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where only the reset branch is taken: the inputs' buffers at `x0 … x3` and the idle outputs' at `y4`,
    `y5` are returned as they were; the two scratches, found at anything, end with the pieces `LS0`, `LS1` written. -/
noncomputable def runA (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) :
    Σ' (LS0 : List (View.Piece (Elt F) S1024x1 .f32)), { LS1 : List (View.Piece (Elt F) S1024x1 .f32) //
      ∀ (y4 y5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun y4 y5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

end Cert.Kernel.Hand

end
-- ==== Proof.KRunC.lean ====
/-
  The kernel body run whole at the last column block of a row block: the two scratches are found at what the point
  before left, folded with the block's maximum and minimum and stored back; then the two outputs' buffers, found at
  any contents, are stored from the two new scratch values. The run finds, for each scratch and each output, the
  pieces its stores leave (the witness).
-/
import proofs.«175049_j14310831030886_1_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where only the output branch is taken: the inputs' buffers at `x0 … x3` are returned as they were;
    scratch 0 found at `s0` and scratch 1 at `s1` end with the pieces `LS0`, `LS1` written, and the two outputs'
    buffers, found at anything, with the pieces `L4`, `L5`. -/
noncomputable def runC (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare s0 ∗ owns (c : Thread nD τ) a9 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h8.eq_unread hfs0; obtain rfl := h9.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HS0]; · iexists _; iexact HS0
    iexists _; iexact HS1

end Cert.Kernel.Hand

end
-- ==== Proof.KBody.lean ====
/-
  The body obligation of the kernel's pipeline: at every grid point, from the region invariant before the point and
  each window's current staging buffer at what the pipeline hands it, the body runs to the invariant after the point
  and each buffer at what the proof data says it leaves. First what the pieces found by the three whole-body runs
  read back as (the scratches' and the outputs' contents as the payloads of the stores), then the inputs' buffers,
  then the obligation by cases on the column block.
-/
import proofs.«175049_j14310831030886_1_alg».proof.Proof.KRunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two zero offsets of a whole-buffer access, as the constant function. -/
theorem hz2 : (![0, 0] : Fin 2 → Nat) = fun _ => 0 := funext fun a => by fin_cases a <;> rfl

/-! ## A point inside a row block: what the run's pieces read back as -/

/-- The one store into the running maximum's scratch covers it. -/
theorem coverB_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runB c i a2 h2 a3 h3 a4 h4 a5 h5 a6 h6 a7 h7 a8 h8 a9 h9 hc0 hc1 x0 x1 x2 x3 s0 s1).1, y ∈ pc.1.set :=
  View.cover_of_tiledL (runB c i a2 h2 a3 h3 a4 h4 a5 h5 a6 h6 a7 h7 a8 h8 a9 h9 hc0 hc1 x0 x1 x2 x3 s0 s1).1 S1024x1.size (by sl_kernel_rfl) y

/-- The one store into the running minimum's scratch covers it. -/
theorem coverB_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runB c i a2 h2 a3 h3 a4 h4 a5 h5 a6 h6 a7 h7 a8 h8 a9 h9 hc0 hc1 x0 x1 x2 x3 s0 s1).2.1, y ∈ pc.1.set :=
  View.cover_of_tiledL (runB c i a2 h2 a3 h3 a4 h4 a5 h5 a6 h6 a7 h7 a8 h8 a9 h9 hc0 hc1 x0 x1 x2 x3 s0 s1).2.1 S1024x1.size (by sl_kernel_rfl) y

/-- The running maximum after such a point: the block's maximum folded into what the scratch held. -/
theorem valB_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (f : a8.view.ty.Contents (Elt F)) :
    a8.view.read (Elt F) (a8.view.writes (Elt F) f (runB c i a2 h2 a3 h3 a4 h4 a5 h5 a6 h6 a7 h7 a8 h8 a9 h9 hc0 hc1 x0 x1 x2 x3 s0 s1).1) = k0_pay1 (k0_pay11 i x0 x1 x2 x3) s0 := by
  rw [View.read_writes_eq_canon _ _ _ (coverB_0 c i a2 h2 a3 h3 a4 h4 a5 h5 a6 h6 a7 h7 a8 h8 a9 h9 hc0 hc1 x0 x1 x2 x3 s0 s1)]
  unfold runB
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-- The running minimum after such a point: the block's minimum folded into what the scratch held. -/
theorem valB_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (f : a9.view.ty.Contents (Elt F)) :
    a9.view.read (Elt F) (a9.view.writes (Elt F) f (runB c i a2 h2 a3 h3 a4 h4 a5 h5 a6 h6 a7 h7 a8 h8 a9 h9 hc0 hc1 x0 x1 x2 x3 s0 s1).2.1) = k0_pay2 (k0_pay12 x0 x1 x2 x3) s1 := by
  rw [View.read_writes_eq_canon _ _ _ (coverB_1 c i a2 h2 a3 h3 a4 h4 a5 h5 a6 h6 a7 h7 a8 h8 a9 h9 hc0 hc1 x0 x1 x2 x3 s0 s1)]
  unfold runB
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-! ## The first point of a row block -/

/-- The reset and the fold both store the whole of the running maximum's scratch. -/
theorem coverA_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (y : S1024x1.Idx) :
    ∃ pc ∈ (runA c i a2 h2 a3 h3 a4 h4 a5 h5 a6 h6 a7 h7 a8 h8 a9 h9 hc0 hc1 x0 x1 x2 x3).1, y ∈ pc.1.set :=
  View.cover_of_tiledL (runA c i a2 h2 a3 h3 a4 h4 a5 h5 a6 h6 a7 h7 a8 h8 a9 h9 hc0 hc1 x0 x1 x2 x3).1 S1024x1.size (by sl_kernel_rfl) y

/-- The reset and the fold both store the whole of the running minimum's scratch. -/
theorem coverA_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (y : S1024x1.Idx) :
    ∃ pc ∈ (runA c i a2 h2 a3 h3 a4 h4 a5 h5 a6 h6 a7 h7 a8 h8 a9 h9 hc0 hc1 x0 x1 x2 x3).2.1, y ∈ pc.1.set :=
  View.cover_of_tiledL (runA c i a2 h2 a3 h3 a4 h4 a5 h5 a6 h6 a7 h7 a8 h8 a9 h9 hc0 hc1 x0 x1 x2 x3).2.1 S1024x1.size (by sl_kernel_rfl) y

/-- The running maximum after the first point of a row block: the block's maximum folded into the low fill, which the reset stored and the fold read back. -/
theorem valA_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (f : a8.view.ty.Contents (Elt F)) :
    a8.view.read (Elt F) (a8.view.writes (Elt F) f (runA c i a2 h2 a3 h3 a4 h4 a5 h5 a6 h6 a7 h7 a8 h8 a9 h9 hc0 hc1 x0 x1 x2 x3).1) = k0_pay1 (k0_pay11 i x0 x1 x2 x3) (k0_pay6 (F := F)) := by
  rw [View.read_writes_eq_canon _ _ _ (coverA_0 c i a2 h2 a3 h3 a4 h4 a5 h5 a6 h6 a7 h7 a8 h8 a9 h9 hc0 hc1 x0 x1 x2 x3)]
  unfold runA
  dsimp only
  sl_unfold_words
  rw [View.canon_cons_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-- The running minimum after the first point of a row block: the block's minimum folded into the high fill. -/
theorem valA_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (f : a9.view.ty.Contents (Elt F)) :
    a9.view.read (Elt F) (a9.view.writes (Elt F) f (runA c i a2 h2 a3 h3 a4 h4 a5 h5 a6 h6 a7 h7 a8 h8 a9 h9 hc0 hc1 x0 x1 x2 x3).2.1) = k0_pay2 (k0_pay12 x0 x1 x2 x3) (k0_pay7 (F := F)) := by
  rw [View.read_writes_eq_canon _ _ _ (coverA_1 c i a2 h2 a3 h3 a4 h4 a5 h5 a6 h6 a7 h7 a8 h8 a9 h9 hc0 hc1 x0 x1 x2 x3)]
  unfold runA
  dsimp only
  sl_unfold_words
  rw [View.canon_cons_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-! ## The last point of a row block -/

/-- The one store into the loss output's buffer covers it. -/
theorem coverC_4 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).1, y ∈ pc.1.set :=
  View.cover_of_tiledL (runC c i a2 h2 a3 h3 a4 h4 a5 h5 a6 h6 a7 h7 a8 h8 a9 h9 hc0 hc1 x0 x1 x2 x3 s0 s1).1 S1024x1.size (by sl_kernel_rfl) y

/-- The one store into the validity output's buffer covers it. -/
theorem coverC_5 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).2.1, y ∈ pc.1.set :=
  View.cover_of_tiledL (runC c i a2 h2 a3 h3 a4 h4 a5 h5 a6 h6 a7 h7 a8 h8 a9 h9 hc0 hc1 x0 x1 x2 x3 s0 s1).2.1 S1024x1.size (by sl_kernel_rfl) y

/-- The one store into the running maximum's scratch covers it. -/
theorem coverC_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).2.2.1, y ∈ pc.1.set :=
  View.cover_of_tiledL (runC c i a2 h2 a3 h3 a4 h4 a5 h5 a6 h6 a7 h7 a8 h8 a9 h9 hc0 hc1 x0 x1 x2 x3 s0 s1).2.2.1 S1024x1.size (by sl_kernel_rfl) y

/-- The one store into the running minimum's scratch covers it. -/
theorem coverC_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).2.2.2.1, y ∈ pc.1.set :=
  View.cover_of_tiledL (runC c i a2 h2 a3 h3 a4 h4 a5 h5 a6 h6 a7 h7 a8 h8 a9 h9 hc0 hc1 x0 x1 x2 x3 s0 s1).2.2.2.1 S1024x1.size (by sl_kernel_rfl) y

/-- The running maximum after the last point: as inside the row block. -/
theorem valC_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a8.view.ty.Contents (Elt F)) :
    a8.view.read (Elt F) (a8.view.writes (Elt F) f (runC c i a2 h2 a3 h3 a4 h4 a5 h5 a6 h6 a7 h7 a8 h8 a9 h9 hc0 hc1 x0 x1 x2 x3 s0 s1).2.2.1) = k0_pay1 (k0_pay11 i x0 x1 x2 x3) s0 := by
  rw [View.read_writes_eq_canon _ _ _ (coverC_0 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-- The running minimum after the last point: as inside the row block. -/
theorem valC_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a9.view.ty.Contents (Elt F)) :
    a9.view.read (Elt F) (a9.view.writes (Elt F) f (runC c i a2 h2 a3 h3 a4 h4 a5 h5 a6 h6 a7 h7 a8 h8 a9 h9 hc0 hc1 x0 x1 x2 x3 s0 s1).2.2.2.1) = k0_pay2 (k0_pay12 x0 x1 x2 x3) s1 := by
  rw [View.read_writes_eq_canon _ _ _ (coverC_1 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-- The loss output's buffer at the last point: the per-row loss of the two scratch values just stored, read back. -/
theorem valC_4 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a6.view.ty.Contents (Elt F)) :
    a6.view.read (Elt F) (a6.view.writes (Elt F) f (runC c i a2 h2 a3 h3 a4 h4 a5 h5 a6 h6 a7 h7 a8 h8 a9 h9 hc0 hc1 x0 x1 x2 x3 s0 s1).1) = k0_pay4 (k0_pay1 (k0_pay11 i x0 x1 x2 x3) s0) (k0_pay2 (k0_pay12 x0 x1 x2 x3) s1) := by
  rw [View.read_writes_eq_canon _ _ _ (coverC_4 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-- The validity output's buffer at the last point: the per-row validity of the two scratch values just stored. -/
theorem valC_5 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a7.view.ty.Contents (Elt F)) :
    a7.view.read (Elt F) (a7.view.writes (Elt F) f (runC c i a2 h2 a3 h3 a4 h4 a5 h5 a6 h6 a7 h7 a8 h8 a9 h9 hc0 hc1 x0 x1 x2 x3 s0 s1).2.1) = k0_pay5 (k0_pay1 (k0_pay11 i x0 x1 x2 x3) s0) (k0_pay2 (k0_pay12 x0 x1 x2 x3) s1) := by
  rw [View.read_writes_eq_canon _ _ _ (coverC_5 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-! ## The inputs' buffers -/

/-- Each input's current staging buffer holds its block at every point, fetched there or not: unfetched, the block
    index has not moved since the fetch, and the body leaves the block in place. -/
theorem before0_0 (c : Dev nD) (t : Fin cfg0.N) (d) : (dat0 V c).before 0 t d = iblk V c 0 t :=
  ((dat0 V c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat0 V c).before 1 t d = iblk V c 1 t :=
  ((dat0 V c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat0 V c).before 2 t d = iblk V c 2 t :=
  ((dat0 V c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dat0 V c).before 3 t d = iblk V c 3 t :=
  ((dat0 V c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation at a generic point -/

/-- What the body is called with at point `t`: the invariant, what the core owes, and the windows' current buffers
    one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the column block decides the case. At the first
    column block the scratches are taken at whatever they hold and come back at the block's values folded into the
    fills; elsewhere they are taken at what the point before left and come back at the block's values folded into
    that; away from the last column block the outputs' buffers go back as found, at the last they are stored from
    the two new scratch values. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 128 := lt_of_lt_of_eq t.isLt (show cfg0.N = 128 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [Dat.leavesExact_idle (dat0 V c) 5 t (idleAt0_5 t hc1) (noFlush0_5 t hc1)]
    rw [scAt_reset V c t h0]
    unfold bmax bmin; dsimp only
    by_cases hz : t.val = 0
    · rw [PhiS_castSucc V c t, PhiS_zero V c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact valA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
          · unfold owns; iexists _; isplitr
            swap; · iexact HS1
            ipureintro; exact valA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact valA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
          · unfold owns; iexists _; isplitr
            swap; · iexact HS1
            ipureintro; exact valA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    have hc0 : ¬cond0_0 (grid0.coords t) := fun h => h0 ((hcond0_0 t).mp h)
    rw [PhiS_castSucc V c t, PhiS_pos V c _ _ hz]
    rw [scAt_acc V c t h0]
    by_cases h1 : t.val % 16 = 15
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      unfold out4At out5At
      rw [scAt_acc V c t h0]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact valC_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
          · unfold owns; iexists _; isplitr
            swap; · iexact HS1
            ipureintro; exact valC_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valC_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
      unfold owns; iexists _; isplitr
      swap; · iexact H5
      ipureintro; exact valC_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact valB_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
          · unfold owns; iexists _; isplitr
            swap; · iexact HS1
            ipureintro; exact valB_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.KLaunch.lean ====
/-
  The launch side of the program's run: @main as six segments over the thread state "every unscoped buffer of the
  core at the boundary's contents, the generator register at some state, nothing owed" — four host stretches, the
  pallas_call's region, one host stretch — and the run of the whole @main from any memory with zero counters to the
  contents `W6` at every unscoped buffer.

  Two things are particular to this program. The two windows that read the normalised embeddings stage one array:
  at the region's entry that array's buffer, whole at the full share, is split into the two halves of the share the
  proof data names, and at the exit the halves are joined again. And the region invariant tracks the two scratch
  buffers: it starts as the class invariant (each scratch at anything) and ends with the scratches at what the last
  point left, which is forgotten when the scratches are handed back.
-/
import proofs.«175049_j14310831030886_1_alg».proof.Proof.KVals
import proofs.«175049_j14310831030886_1_alg».proof.Proof.KBody
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

namespace Launch

/-! ## The proof data family and the thread state -/

/-- The prefetched tables' admissible contents: the pipeline has no table. -/
abbrev adm : (p : Fin 1) → (pcfgs (F := F) p).Adm := fun p => (cfgs p).toPCfg_adm
/-- The one pipeline's proof data, at the contents the region is entered from. -/
def pdats : (p : Fin 1) → (c : Dev nD) → Dat τ (Elt F) Unit ℕ (UR sig nD τ) ℕ (Pipeline.pin (pcfgs (F := F)) adm p) c
  | ⟨0, _⟩ => fun c => dat0 (VE m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the five host stretches allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W6`, the generator register at some state. -/
abbrev Tₙ (c : Dev nD) : sProp 𝕄 := iprop(StableHlo.held (c : Thread nD τ) (Pipeline.ucRefs τ sig) (W6 m c) ∗ ∃ r, prngReg c r)

/-! ## The region's invariant at its two ends -/

/-- After the last point the invariant gives the class invariant back: what the two scratches hold is forgotten. -/
theorem Phi_out (c : Dev nD) : (dat0 (VE m) c).Φ (Fin.last cfg0.N) ⊢ (Pipeline.ΦA spec0 c : sProp 𝕄) := by
  rw [show (dat0 (VE m) c).Φ (Fin.last cfg0.N) = PhiS (VE m) c (Fin.last cfg0.N).val (Nat.le_of_lt_succ (Fin.last cfg0.N).isLt) from rfl,
    PhiS_pos (VE m) c _ _ (by rw [Fin.val_last]; have : cfg0.N = 128 := N_0; omega), PhiA0_eq]
  iintro ⟨⟨H0, H1⟩, Hg⟩
  isplitl [H0 H1]
  · isplitl [H0]
    · iexists _; iexact H0
    iexists _; iexact H1
  iexact Hg

/-! ## The shared array: the entry split and the exit join -/

/-- The distinct buffers behind the six windows' arrays are five, conjoined one by one. -/
theorem bigSep_arrs {M : Type} [URA M] (Φ : Ref sig .tc → sProp M) :
    bigSep (Finset.univ.image (Pipeline.arrRef spec0)) Φ = iprop(Φ main_v5 ∗ Φ main_v6 ∗ Φ main_v7 ∗ Φ main_v8_0 ∗ Φ main_v8_1) :=
  bigSep_eq_bigSepL_of_eq [main_v5, main_v6, main_v7, main_v8_0, main_v8_1] (by decide) (by decide) Φ

/-- The five distinct buffers behind the six windows' arrays, each whole at the full share at the entry contents,
    are the proof data's arrays at entry: the buffer two windows stage is split into the two halves of the share. -/
theorem arrBufs_arrays (c : Dev nD) :
    (Pipeline.arrBufs (Ix := Unit) (Name := ℕ) (U := UR sig nD τ) (Lvl := ℕ) spec0 c (VE m c) : sProp 𝕄)
      ⊢ (dat0 (VE m) c).arrays ((dat0 (VE m) c).arrAt · 0) := by
  unfold Pipeline.arrBufs Dat.arrays
  rw [bigSep_arrs, bigSep_W0]
  have s0 : (dat0 (VE m) c).share 0 = fullShare.left := rfl
  have s1 : (dat0 (VE m) c).share 1 = fullShare.right := rfl
  have s2 : (dat0 (VE m) c).share 2 = fullShare := rfl
  have s3 : (dat0 (VE m) c).share 3 = fullShare := rfl
  have s4 : (dat0 (VE m) c).share 4 = fullShare := rfl
  have s5 : (dat0 (VE m) c).share 5 = fullShare := rfl
  rw [s0, s1, s2, s3, s4, s5]
  simp only [View.set_whole]
  iintro ⟨H5, H6, H7, H80, H81⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H80]; · iexact H80
  iexact H81

/-- Off the region's arrays a core's unscoped buffers hold at the exit what they held at the entry. -/
theorem unscopedRest_exit (c : Dev nD) :
    (Pipeline.unscopedRest (Ix := Unit) (Name := ℕ) (U := UR sig nD τ) (Lvl := ℕ) spec0 c (VE m c) : sProp 𝕄)
      = Pipeline.unscopedRest spec0 c (fun b => W5 m c b) := by
  unfold Pipeline.unscopedRest
  refine bigSep_congr fun b hb => ?_
  have hb' := (Finset.mem_sdiff.mp hb).2
  have hmem : b ∉ ([main_v8_0, main_v8_1] : List (Ref sig .tc)) := fun h => hb' (by
    rcases List.mem_cons.mp h with rfl | h
    · exact Finset.mem_image.mpr ⟨4, Finset.mem_univ _, rfl⟩
    · rcases List.mem_cons.mp h with rfl | h
      · exact Finset.mem_image.mpr ⟨5, Finset.mem_univ _, rfl⟩
      · cases h)
  beta_reduce
  rw [W5_of m c b hmem]

/-- What each window's array holds at the exit is what `W5` says of its buffer: an input's array is never written,
    and `W5` differs from the entry contents only at the two outputs, where it is the fold of their write-backs. -/
theorem exit_contents (c : Dev nD) :
    ((dat0 (VE m) c).arrAt · cfg0.N) = fun w => W5 m c (Pipeline.arrRef spec0 w) :=
  funext fun
    | ⟨0, _⟩ => ((dat0 (VE m) c).arrAt_in 0 rfl _).trans (W5_of m c main_v5 (by decide)).symm
    | ⟨1, _⟩ => ((dat0 (VE m) c).arrAt_in 1 rfl _).trans (W5_of m c main_v5 (by decide)).symm
    | ⟨2, _⟩ => ((dat0 (VE m) c).arrAt_in 2 rfl _).trans (W5_of m c main_v6 (by decide)).symm
    | ⟨3, _⟩ => ((dat0 (VE m) c).arrAt_in 3 rfl _).trans (W5_of m c main_v7 (by decide)).symm
    | ⟨4, _⟩ => (W5_out0 m c).symm
    | ⟨5, _⟩ => (W5_out1 m c).symm

/-- The proof data's arrays at the exit are the five distinct buffers, each whole at the full share at the exit
    contents: an input's array as it was entered, the two halves of the shared one joined again, each output's array
    at the fold of its write-backs. -/
theorem arrays_arrBufs (c : Dev nD) :
    (dat0 (VE m) c).arrays ((dat0 (VE m) c).arrAt · cfg0.N)
      ⊢ (Pipeline.arrBufs (Ix := Unit) (Name := ℕ) (U := UR sig nD τ) (Lvl := ℕ) spec0 c (fun b => W5 m c b) : sProp 𝕄) := by
  refine (Entails.of_eq (congrArg (dat0 (VE m) c).arrays (exit_contents m c))).trans ?_
  unfold Pipeline.arrBufs Dat.arrays
  rw [bigSep_arrs, bigSep_W0]
  have s0 : (dat0 (VE m) c).share 0 = fullShare.left := rfl
  have s1 : (dat0 (VE m) c).share 1 = fullShare.right := rfl
  have s2 : (dat0 (VE m) c).share 2 = fullShare := rfl
  have s3 : (dat0 (VE m) c).share 3 = fullShare := rfl
  have s4 : (dat0 (VE m) c).share 4 = fullShare := rfl
  have s5 : (dat0 (VE m) c).share 5 = fullShare := rfl
  rw [s0, s1, s2, s3, s4, s5]
  simp only [View.set_whole]
  iintro ⟨H0, H1, H2, H3, H4, H5⟩
  ihave H01 := (pointsTo_share (PosShare.mem_left_op_right fullShare)).2 $$ [H0 H1]
  · isplitl [H0]; · iexact H0
    iexact H1
  isplitl [H01]; · iexact H01
  isplitl [H2]; · iexact H2
  isplitl [H3]; · iexact H3
  isplitl [H4]; · iexact H4
  iexact H5

/-! ## The region as a segment -/

set_option backward.isDefEq.respectTransparency.types false in
/-- The pallas_call over the thread state: entered from every unscoped buffer at `W4`, left at `W5`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (VE m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (VE m c)
  hentry c := by
    rw [Pipeline.ownSems0_none]
    have hsplit : (StableHlo.held (c : Thread nD τ) (Pipeline.ucRefs τ sig) (W4 m c) : sProp 𝕄)
        ⊢ iprop((pdats m 0 c).arrays ((pdats m 0 c).arrAt · 0) ∗ Pipeline.unscopedRest spec0 c (VE m c)) := by
      rw [← Pipeline.unscopedBufs_held (Ix := Unit) (Name := ℕ) (U := UR sig nD τ) (Lvl := ℕ) c (W4 m c),
        Pipeline.unscopedBufs_split₀ cfgs 0 winFacts₀0.arr_unscoped c]
      exact BIClass.sep_mono (arrBufs_arrays m c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from PhiS_zero (VE m) c _ (Nat.zero_le _) rfl]; unfold Pipeline.ΦA
    iintro ⟨Hp, -, Hr⟩
    isplitl [Hr]; · iexact Hr
    iexact Hp
  hout c := by
    rw [Pipeline.ownSems0_none]
    refine (Phi_out m c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (VE m c))
        ⊢ (StableHlo.held (c : Thread nD τ) (Pipeline.ucRefs τ sig) (W5 m c) : sProp 𝕄) := by
      rw [← Pipeline.unscopedBufs_held (Ix := Unit) (Name := ℕ) (U := UR sig nD τ) (Lvl := ℕ) c (W5 m c),
        Pipeline.unscopedBufs_split₀ cfgs 0 winFacts₀0.arr_unscoped c]
      exact BIClass.sep_mono (arrays_arrBufs m c) (Entails.of_eq (unscopedRest_exit m c))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)) ]
/-- @main is the run of the segments. -/
theorem main_run (c : Dev nD) : main (F := F) c = Pipeline.Seg.run (segs m) := (main_chain c).trans (by chain_rfl)

set_option backward.isDefEq.respectTransparency.types false in
/-- The run of @main, read at any claim that follows from every core's unscoped buffers holding `W6`. -/
theorem run_gen (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W6 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := hQ)

end Launch

/-! ## The run -/

/-- From any memory with zero counters, every weakly fair execution of @main on the TensorCores terminates, nothing
    faulting, and every final state holds `W6` at every unscoped buffer of every core. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Launch.run_gen m ρ fun s h => h

/-! ## The arguments end as launched: no host stretch writes one, and the region's arrays are not arguments -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m c (Proc.devRef .tc main_arg0) := W5_of m c main_arg0 (by decide)
    _ = W3 m c (Proc.devRef .tc main_arg0) := StableHlo.after_of_forall_not_mem (b := Proc.devRef .tc main_arg0) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m c (Proc.devRef .tc main_arg1) := W5_of m c main_arg1 (by decide)
    _ = W3 m c (Proc.devRef .tc main_arg1) := StableHlo.after_of_forall_not_mem (b := Proc.devRef .tc main_arg1) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m c (Proc.devRef .tc main_arg1) := StableHlo.after_of_forall_not_mem (b := Proc.devRef .tc main_arg1) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m c (Proc.devRef .tc main_arg1) := StableHlo.after_of_forall_not_mem (b := Proc.devRef .tc main_arg1) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          exact StableHlo.devRef_ne_of_ne (by decide)))
    _ = m ((c : Thread nD τ).loc main_arg1) := rfl

/-- The frame: every final state has the two argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)) :=
  Launch.run_gen m ρ fun s h c =>
    ⟨(h c _ (Launch.mem_uc main_arg0 (by decide))).trans (W6_main_arg0 m c),
      (h c _ (Launch.mem_uc main_arg1 (by decide))).trans (W6_main_arg1 m c)⟩

end Cert.Kernel.Hand

end
-- ==== Proof.KIBase.lean ====
/-
  The proof data of the kernel's one pipeline, stated over explicit values.

  The grid is 8 row blocks by 16 column blocks, visited row block by row block (point t = 16·ib + jb). At a point the
  body computes, for the 1024 rows of its row block against the 512 columns of its column block, the block maximum of
  the masked distances over the columns of the row's own family (the diagonal left out) and the block minimum over the
  columns of the other families; two scratch buffers carry the running maximum and minimum along jb: reset to the fill
  values at jb = 0, folded with the block's values at every jb; at jb = 15 the two outputs are stored from them.
  Here: the input blocks as read off the arrays the region finds (`iblk`), the closed forms of the two branch
  conditions, what the scratches hold after each point (`scAt`, by recursion on the point), what the outputs' staging
  buffers hold at the points that store them (`out4At`, `out5At`), the region invariant (`PhiS`) and the proof data
  (`dat0`). The two windows that read the normalised embeddings share one array: they hold it at the two halves of
  the full share.
-/
import proofs.«175049_j14310831030886_1_alg».proof.Proof.Gen.KernelIdeal.Launch
import proofs.«175049_j14310831030886_1_alg».proof.Proof.Gen.KernelIdeal.Skeleton
import proofs.«175049_j14310831030886_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- `V`: the contents of core `c`'s TensorCore buffers when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's two branch conditions -/

/-- The reset branch is taken where the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The output branch is taken where the column-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the two outputs are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last column block they are stored. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The staging and scratch memrefs -/

abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two scratch operands: the running maximum and the running minimum. -/
abbrev scM0 : Memref sig .tc .vmem S1024x1 .f32 := Memref.whole cc0_scratch0
abbrev scM1 : Memref sig .tc .vmem S1024x1 .f32 := Memref.whole cc0_scratch1

/-- The class invariant with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratches and the outputs hold -/

/-- The block maximum at point `t`: over the block's columns, of the distance where the column is of the row's family
    and off the diagonal, the low fill elsewhere. -/
def bmax (c : Dev nD) (t : Fin cfg0.N) : FVec F S1024x1 .f32 :=
  k0_pay11 (grid0.coords t) (iblk V c 0 t) (iblk V c 1 t) (iblk V c 2 t) (iblk V c 3 t)
/-- The block minimum at point `t`: over the block's columns, of the distance where the column is of another family,
    the high fill elsewhere. -/
def bmin (c : Dev nD) (t : Fin cfg0.N) : FVec F S1024 .f32 :=
  k0_pay12 (iblk V c 0 t) (iblk V c 1 t) (iblk V c 2 t) (iblk V c 3 t)

/-- What the two scratches hold after the body at position `n`: at the first column block of a row block the block's
    values folded into the fills, afterwards into what the point before left. -/
def scAt (c : Dev nD) : (n : ℕ) → n < cfg0.N → Vec F S1024x1 .f32 × Vec F S1024x1 .f32
  | 0, hn => (k0_pay1 (bmax V c ⟨0, hn⟩) (k0_pay6 (F := F)), k0_pay2 (bmin V c ⟨0, hn⟩) (k0_pay7 (F := F)))
  | n + 1, hn =>
    if (n + 1) % 16 = 0 then
      (k0_pay1 (bmax V c ⟨n + 1, hn⟩) (k0_pay6 (F := F)), k0_pay2 (bmin V c ⟨n + 1, hn⟩) (k0_pay7 (F := F)))
    else
      (k0_pay1 (bmax V c ⟨n + 1, hn⟩) (scAt c n (Nat.lt_of_succ_lt hn)).1, k0_pay2 (bmin V c ⟨n + 1, hn⟩) (scAt c n (Nat.lt_of_succ_lt hn)).2)

theorem scAt_reset (c : Dev nD) (t : Fin cfg0.N) (h0 : t.val % 16 = 0) :
    scAt V c t.val t.isLt = (k0_pay1 (bmax V c t) (k0_pay6 (F := F)), k0_pay2 (bmin V c t) (k0_pay7 (F := F))) := by
  obtain ⟨n, hn⟩ := t
  cases n with
  | zero => rfl
  | succ n => exact (if_pos h0).trans rfl

theorem scAt_acc (c : Dev nD) (t : Fin cfg0.N) (h0 : ¬t.val % 16 = 0) :
    scAt V c t.val t.isLt = (k0_pay1 (bmax V c t) (scAt V c (t.val - 1) (Nat.lt_of_le_of_lt (Nat.sub_le _ _) t.isLt)).1,
      k0_pay2 (bmin V c t) (scAt V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The per-row loss, from the two scratches after the point. -/
def out4At (c : Dev nD) (t : Fin cfg0.N) : FVec F S1024x1 .f32 :=
  k0_pay4 (scAt V c t.val t.isLt).1 (scAt V c t.val t.isLt).2
/-- The per-row validity (1 or 0), from the two scratches after the point. -/
def out5At (c : Dev nD) (t : Fin cfg0.N) : FVec F S1024x1 .f32 :=
  k0_pay5 (scAt V c t.val t.isLt).1 (scAt V c t.val t.isLt).2

/-! ## The region invariant -/

/-- Before the first point the class invariant (each scratch at anything); before position `n + 1` the two scratches at
    what position `n` left, and the generator register at some state. -/
def PhiS (c : Dev nD) : (n : ℕ) → n ≤ cfg0.N → sProp 𝕄
  | 0, _ => Pipeline.ΦA spec0 c
  | n + 1, hn => iprop(iprop(owns (c : Thread nD τ) scM0 fullShare ((scAt V c n hn).1) ∗ owns (c : Thread nD τ) scM1 fullShare ((scAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((scAt V c n hn).1) ∗ owns (c : Thread nD τ) scM1 fullShare ((scAt V c n hn).2)) ∗ (∃ r, prngReg c r)) := rfl

theorem PhiS_pos (c : Dev nD) (n : ℕ) (h : n ≤ cfg0.N) (hz : n ≠ 0) :
    PhiS V c n h = iprop(iprop(owns (c : Thread nD τ) scM0 fullShare ((scAt V c (n - 1) (by omega)).1) ∗ owns (c : Thread nD τ) scM1 fullShare ((scAt V c (n - 1) (by omega)).2)) ∗ (∃ r, prngReg c r)) := by
  cases n with
  | zero => exact absurd rfl hz
  | succ n => rfl

/-! ## The proof data -/

/-- The arrays as the region finds them; after the body each input's buffer at its block, the two outputs' at the
    loss and the validity of the scratches after the point; the invariant `PhiS`; nothing owed; the shared array at
    the two halves of the full share, the other inputs at the full share. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4At V c t
    | ⟨5, _⟩ => out5At V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = out4At V c t := by dsimp only [dat0]
theorem after0_5 (c : Dev nD) (t : Fin cfg0.N) : (dat0 V c).after 5 t = out5At V c t := by dsimp only [dat0]

end Cert.KernelIdeal.Hand

end
-- ==== Proof.KIVals.lean ====
/-
  The contents of a core's unscoped buffers at each boundary of the program: at launch, after each of the four host
  stretches before the pallas_call (the family table; the family lookup; the row norms; the normalised embeddings and
  the two reshapes of the families), after the pallas_call (its two result arrays at what the pipeline's write-backs
  leave, every other buffer as it was), and after the host stretch that follows (the two sums, the clamp of the count
  and the quotient).
-/
import proofs.«175049_j14310831030886_1_alg».proof.Proof.KIBase

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-- At launch. -/
abbrev W0 (c : Dev nD) : Valuation τ sig (Elt F) := fun b => m (c, b)
/-- After the family table is written. -/
abbrev W1 (c : Dev nD) : Valuation τ sig (Elt F) := StableHlo.after hostOps0 (W0 m c)
/-- After the family lookup. -/
abbrev W2 (c : Dev nD) : Valuation τ sig (Elt F) := StableHlo.after hostOps0_1 (W1 m c)
/-- After the row norms. -/
abbrev W3 (c : Dev nD) : Valuation τ sig (Elt F) := StableHlo.after hostOps0_2 (W2 m c)
/-- After the normalisation and the two reshapes: what the pallas_call is entered from. -/
abbrev W4 (c : Dev nD) : Valuation τ sig (Elt F) := StableHlo.after hostOps0_3 (W3 m c)
/-- The same read at the TensorCore's references: the proof data's entry contents. -/
abbrev VE (c : Dev nD) (b : Ref sig .tc) : Buf (Elt F) ((c : Thread nD τ).loc b) := W4 m c b

/-- After the pallas_call: its two result arrays at the write-backs' fold, every other buffer as entered. -/
def W5 (c : Dev nD) : Valuation τ sig (Elt F) :=
  Function.update (Function.update (W4 m c) main_v8_0 ((dat0 (VE m) c).arrAt 4 cfg0.N)) main_v8_1 ((dat0 (VE m) c).arrAt 5 cfg0.N)
/-- After the host stretch that follows: the end of the program. -/
abbrev W6 (c : Dev nD) : Valuation τ sig (Elt F) := StableHlo.after hostOps1 (W5 m c)

theorem W5_out0 (c : Dev nD) : W5 m c main_v8_0 = (dat0 (VE m) c).arrAt 4 cfg0.N := by
  unfold W5
  rw [Function.update_of_ne (StableHlo.devRef_ne_of_ne (by decide) : (Proc.devRef .tc main_v8_0 : DevRef τ sig) ≠ Proc.devRef .tc main_v8_1)]
  exact Function.update_self ..
theorem W5_out1 (c : Dev nD) : W5 m c main_v8_1 = (dat0 (VE m) c).arrAt 5 cfg0.N := by
  unfold W5; exact Function.update_self ..
theorem W5_of (c : Dev nD) (r : Ref sig .tc) (h : r ∉ ([main_v8_0, main_v8_1] : List (Ref sig .tc))) : W5 m c r = W4 m c r := by
  have h0 : r ≠ main_v8_0 := fun e => h (e ▸ List.mem_cons_self ..)
  have h1 : r ≠ main_v8_1 := fun e => h (e ▸ List.mem_cons_of_mem _ (List.mem_cons_self ..))
  unfold W5
  rw [Function.update_of_ne (StableHlo.devRef_ne_of_ne h1 : (Proc.devRef .tc r : DevRef τ sig) ≠ Proc.devRef .tc main_v8_1),
    Function.update_of_ne (StableHlo.devRef_ne_of_ne h0 : (Proc.devRef .tc r : DevRef τ sig) ≠ Proc.devRef .tc main_v8_0)]

end Cert.KernelIdeal.Hand

end
-- ==== Proof.KIRunB.lean ====
/-
  The kernel body run whole at a point that is neither the first nor the last column block of its row block: the
  two scratches are found at what the point before left, folded with the block's maximum and minimum and stored
  back; the two outputs' buffers are handed back as found. The run finds, for each scratch, the pieces its stores
  leave (the witness).
-/
import proofs.«175049_j14310831030886_1_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where neither branch is taken: the inputs' buffers at `x0 … x3` and the idle outputs' at `y4`, `y5`
    are returned as they were; scratch 0 found at `s0` and scratch 1 at `s1` end with the pieces `LS0`, `LS1` written. -/
noncomputable def runB (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) :
    Σ' (LS0 : List (View.Piece (Elt F) S1024x1 .f32)), { LS1 : List (View.Piece (Elt F) S1024x1 .f32) //
      ∀ (y4 y5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ owns (c : Thread nD τ) a8 fullShare s0 ∗ owns (c : Thread nD τ) a9 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun y4 y5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfs0; obtain rfl := h9.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

end Cert.KernelIdeal.Hand

end
-- ==== Proof.KIRunA.lean ====
/-
  The kernel body run whole at the first column block of a row block: the two scratches, found at any contents, are
  reset to the fill values, then folded with the block's maximum and minimum and stored back; the two outputs'
  buffers are handed back as found. The run finds, for each scratch, the pieces its stores leave (the witness).
-/
import proofs.«175049_j14310831030886_1_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where only the reset branch is taken: the inputs' buffers at `x0 … x3` and the idle outputs' at `y4`,
    `y5` are returned as they were; the two scratches, found at anything, end with the pieces `LS0`, `LS1` written. -/
noncomputable def runA (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) :
    Σ' (LS0 : List (View.Piece (Elt F) S1024x1 .f32)), { LS1 : List (View.Piece (Elt F) S1024x1 .f32) //
      ∀ (y4 y5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare y4 ∗ owns (c : Thread nD τ) a7 fullShare y5 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun y4 y5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

end Cert.KernelIdeal.Hand

end
-- ==== Proof.KIRunC.lean ====
/-
  The kernel body run whole at the last column block of a row block: the two scratches are found at what the point
  before left, folded with the block's maximum and minimum and stored back; then the two outputs' buffers, found at
  any contents, are stored from the two new scratch values. The run finds, for each scratch and each output, the
  pieces its stores leave (the witness).
-/
import proofs.«175049_j14310831030886_1_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where only the output branch is taken: the inputs' buffers at `x0 … x3` are returned as they were;
    scratch 0 found at `s0` and scratch 1 at `s1` end with the pieces `LS0`, `LS1` written, and the two outputs'
    buffers, found at anything, with the pieces `L4`, `L5`. -/
noncomputable def runC (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare s0 ∗ owns (c : Thread nD τ) a9 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h8.eq_unread hfs0; obtain rfl := h9.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KIBody.lean ====
/-
  The body obligation of the kernel's pipeline: at every grid point, from the region invariant before the point and
  each window's current staging buffer at what the pipeline hands it, the body runs to the invariant after the point
  and each buffer at what the proof data says it leaves. First what the pieces found by the three whole-body runs
  read back as (the scratches' and the outputs' contents as the payloads of the stores), then the inputs' buffers,
  then the obligation by cases on the column block.
-/
import proofs.«175049_j14310831030886_1_alg».proof.Proof.KIRunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two zero offsets of a whole-buffer access, as the constant function. -/
theorem hz2 : (![0, 0] : Fin 2 → Nat) = fun _ => 0 := funext fun a => by fin_cases a <;> rfl

/-! ## A point inside a row block: what the run's pieces read back as -/

/-- The one store into the running maximum's scratch covers it. -/
theorem coverB_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runB c i a2 h2 a3 h3 a4 h4 a5 h5 a6 h6 a7 h7 a8 h8 a9 h9 hc0 hc1 x0 x1 x2 x3 s0 s1).1, y ∈ pc.1.set :=
  View.cover_of_tiledL (runB c i a2 h2 a3 h3 a4 h4 a5 h5 a6 h6 a7 h7 a8 h8 a9 h9 hc0 hc1 x0 x1 x2 x3 s0 s1).1 S1024x1.size (by sl_kernel_rfl) y

/-- The one store into the running minimum's scratch covers it. -/
theorem coverB_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runB c i a2 h2 a3 h3 a4 h4 a5 h5 a6 h6 a7 h7 a8 h8 a9 h9 hc0 hc1 x0 x1 x2 x3 s0 s1).2.1, y ∈ pc.1.set :=
  View.cover_of_tiledL (runB c i a2 h2 a3 h3 a4 h4 a5 h5 a6 h6 a7 h7 a8 h8 a9 h9 hc0 hc1 x0 x1 x2 x3 s0 s1).2.1 S1024x1.size (by sl_kernel_rfl) y

/-- The running maximum after such a point: the block's maximum folded into what the scratch held. -/
theorem valB_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (f : a8.view.ty.Contents (Elt F)) :
    a8.view.read (Elt F) (a8.view.writes (Elt F) f (runB c i a2 h2 a3 h3 a4 h4 a5 h5 a6 h6 a7 h7 a8 h8 a9 h9 hc0 hc1 x0 x1 x2 x3 s0 s1).1) = k0_pay1 (k0_pay11 i x0 x1 x2 x3) s0 := by
  rw [View.read_writes_eq_canon _ _ _ (coverB_0 c i a2 h2 a3 h3 a4 h4 a5 h5 a6 h6 a7 h7 a8 h8 a9 h9 hc0 hc1 x0 x1 x2 x3 s0 s1)]
  unfold runB
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-- The running minimum after such a point: the block's minimum folded into what the scratch held. -/
theorem valB_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : ¬cond0_1 i) (x0 : Vec F S1024x64 .f32) (x1 : Vec F S512x64 .f32) (x2 : Vec F S1024x1 .i32) (x3 : Vec F S1x512 .i32) (s0 s1 : Vec F S1024x1 .f32) (f : a9.view.ty.Contents (Elt F)) :
    a9.view.read (Elt F) (a9.view.writes (Elt F) f (runB c i a2 h2 a3 h3 a4 h4 a5 h5 a6 h6 a7 h7 a8 h8 a9 h9 hc0 hc1 x0 x1 x2 x3 s0 s1).2.1) = k0_pay2 (k0_pay12 x0 x1 x2 x3) s1 := by
  rw [View.read_writes_eq_canon _ _ _ (coverB_1 c i a2 h2 a3 h3 a4 h4 a5 h5 a6 h6 a7 h7 a8 h8 a9 h9 hc0 hc1 x0 x1 x2 x3 s0 s1)]
  unfold runB
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-! ## The first point of a row block -/

/-- The reset and the fold both store the whole of the running maximum's scratch. -/
theorem coverA_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (y : S1024x1.Idx) :
    ∃ pc ∈ (runA c i a2 h2 a3 h3 a4 h4 a5 h5 a6 h6 a7 h7 a8 h8 a9 h9 hc0 hc1 x0 x1 x2 x3).1, y ∈ pc.1.set :=
  View.cover_of_tiledL (runA c i a2 h2 a3 h3 a4 h4 a5 h5 a6 h6 a7 h7 a8 h8 a9 h9 hc0 hc1 x0 x1 x2 x3).1 S1024x1.size (by sl_kernel_rfl) y

/-- The reset and the fold both store the whole of the running minimum's scratch. -/
theorem coverA_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (y : S1024x1.Idx) :
    ∃ pc ∈ (runA c i a2 h2 a3 h3 a4 h4 a5 h5 a6 h6 a7 h7 a8 h8 a9 h9 hc0 hc1 x0 x1 x2 x3).2.1, y ∈ pc.1.set :=
  View.cover_of_tiledL (runA c i a2 h2 a3 h3 a4 h4 a5 h5 a6 h6 a7 h7 a8 h8 a9 h9 hc0 hc1 x0 x1 x2 x3).2.1 S1024x1.size (by sl_kernel_rfl) y

/-- The running maximum after the first point of a row block: the block's maximum folded into the low fill, which the reset stored and the fold read back. -/
theorem valA_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (f : a8.view.ty.Contents (Elt F)) :
    a8.view.read (Elt F) (a8.view.writes (Elt F) f (runA c i a2 h2 a3 h3 a4 h4 a5 h5 a6 h6 a7 h7 a8 h8 a9 h9 hc0 hc1 x0 x1 x2 x3).1) = k0_pay1 (k0_pay11 i x0 x1 x2 x3) (k0_pay6 (F := F)) := by
  rw [View.read_writes_eq_canon _ _ _ (coverA_0 c i a2 h2 a3 h3 a4 h4 a5 h5 a6 h6 a7 h7 a8 h8 a9 h9 hc0 hc1 x0 x1 x2 x3)]
  unfold runA
  dsimp only
  sl_unfold_words
  rw [View.canon_cons_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-- The running minimum after the first point of a row block: the block's minimum folded into the high fill. -/
theorem valA_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : cond0_0 i) (hc1 : ¬cond0_1 i) (x0 : Vec F S1024x64 .f32) (x1 : Vec F S512x64 .f32) (x2 : Vec F S1024x1 .i32) (x3 : Vec F S1x512 .i32) (f : a9.view.ty.Contents (Elt F)) :
    a9.view.read (Elt F) (a9.view.writes (Elt F) f (runA c i a2 h2 a3 h3 a4 h4 a5 h5 a6 h6 a7 h7 a8 h8 a9 h9 hc0 hc1 x0 x1 x2 x3).2.1) = k0_pay2 (k0_pay12 x0 x1 x2 x3) (k0_pay7 (F := F)) := by
  rw [View.read_writes_eq_canon _ _ _ (coverA_1 c i a2 h2 a3 h3 a4 h4 a5 h5 a6 h6 a7 h7 a8 h8 a9 h9 hc0 hc1 x0 x1 x2 x3)]
  unfold runA
  dsimp only
  sl_unfold_words
  rw [View.canon_cons_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-! ## The last point of a row block -/

/-- The one store into the loss output's buffer covers it. -/
theorem coverC_4 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).1, y ∈ pc.1.set :=
  View.cover_of_tiledL (runC c i a2 h2 a3 h3 a4 h4 a5 h5 a6 h6 a7 h7 a8 h8 a9 h9 hc0 hc1 x0 x1 x2 x3 s0 s1).1 S1024x1.size (by sl_kernel_rfl) y

/-- The one store into the validity output's buffer covers it. -/
theorem coverC_5 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).2.1, y ∈ pc.1.set :=
  View.cover_of_tiledL (runC c i a2 h2 a3 h3 a4 h4 a5 h5 a6 h6 a7 h7 a8 h8 a9 h9 hc0 hc1 x0 x1 x2 x3 s0 s1).2.1 S1024x1.size (by sl_kernel_rfl) y

/-- The one store into the running maximum's scratch covers it. -/
theorem coverC_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).2.2.1, y ∈ pc.1.set :=
  View.cover_of_tiledL (runC c i a2 h2 a3 h3 a4 h4 a5 h5 a6 h6 a7 h7 a8 h8 a9 h9 hc0 hc1 x0 x1 x2 x3 s0 s1).2.2.1 S1024x1.size (by sl_kernel_rfl) y

/-- The one store into the running minimum's scratch covers it. -/
theorem coverC_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (y : S1024x1.Idx) :
    ∃ pc ∈ (runC c i a2 h2 a3 h3 a4 h4 a5 h5 a6 h6 a7 h7 a8 h8 a9 h9 hc0 hc1 x0 x1 x2 x3 s0 s1).2.2.2.1, y ∈ pc.1.set :=
  View.cover_of_tiledL (runC c i a2 h2 a3 h3 a4 h4 a5 h5 a6 h6 a7 h7 a8 h8 a9 h9 hc0 hc1 x0 x1 x2 x3 s0 s1).2.2.2.1 S1024x1.size (by sl_kernel_rfl) y

/-- The running maximum after the last point: as inside the row block. -/
theorem valC_0 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a8.view.ty.Contents (Elt F)) :
    a8.view.read (Elt F) (a8.view.writes (Elt F) f (runC c i a2 h2 a3 h3 a4 h4 a5 h5 a6 h6 a7 h7 a8 h8 a9 h9 hc0 hc1 x0 x1 x2 x3 s0 s1).2.2.1) = k0_pay1 (k0_pay11 i x0 x1 x2 x3) s0 := by
  rw [View.read_writes_eq_canon _ _ _ (coverC_0 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-- The running minimum after the last point: as inside the row block. -/
theorem valC_1 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a9.view.ty.Contents (Elt F)) :
    a9.view.read (Elt F) (a9.view.writes (Elt F) f (runC c i a2 h2 a3 h3 a4 h4 a5 h5 a6 h6 a7 h7 a8 h8 a9 h9 hc0 hc1 x0 x1 x2 x3 s0 s1).2.2.2.1) = k0_pay2 (k0_pay12 x0 x1 x2 x3) s1 := by
  rw [View.read_writes_eq_canon _ _ _ (coverC_1 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2]

/-- The loss output's buffer at the last point: the per-row loss of the two scratch values just stored, read back. -/
theorem valC_4 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a6.view.ty.Contents (Elt F)) :
    a6.view.read (Elt F) (a6.view.writes (Elt F) f (runC c i a2 h2 a3 h3 a4 h4 a5 h5 a6 h6 a7 h7 a8 h8 a9 h9 hc0 hc1 x0 x1 x2 x3 s0 s1).1) = k0_pay4 (k0_pay1 (k0_pay11 i x0 x1 x2 x3) s0) (k0_pay2 (k0_pay12 x0 x1 x2 x3) s1) := by
  rw [View.read_writes_eq_canon _ _ _ (coverC_4 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-- The validity output's buffer at the last point: the per-row validity of the two scratch values just stored. -/
theorem valC_5 (c : Dev nD) (i : grid0.Coords)
    (a2 : Memref sig .tc .vmem S1024x64 .f32) (h2 : a2.IsWhole) (a3 : Memref sig .tc .vmem S512x64 .f32) (h3 : a3.IsWhole)
    (a4 : Memref sig .tc .vmem S1024x1 .i32) (h4 : a4.IsWhole) (a5 : Memref sig .tc .vmem S1x512 .i32) (h5 : a5.IsWhole)
    (a6 : Memref sig .tc .vmem S1024x1 .f32) (h6 : a6.IsWhole) (a7 : Memref sig .tc .vmem S1024x1 .f32) (h7 : a7.IsWhole)
    (a8 : Memref sig .tc .vmem S1024x1 .f32) (h8 : a8.IsWhole) (a9 : Memref sig .tc .vmem S1024x1 .f32) (h9 : a9.IsWhole)
    (hc0 : ¬cond0_0 i) (hc1 : cond0_1 i) (x0 : Vec F S1024x64 .f32) (x1 : Vec F S512x64 .f32) (x2 : Vec F S1024x1 .i32) (x3 : Vec F S1x512 .i32) (s0 s1 : Vec F S1024x1 .f32) (f : a7.view.ty.Contents (Elt F)) :
    a7.view.read (Elt F) (a7.view.writes (Elt F) f (runC c i a2 h2 a3 h3 a4 h4 a5 h5 a6 h6 a7 h7 a8 h8 a9 h9 hc0 hc1 x0 x1 x2 x3 s0 s1).2.1) = k0_pay5 (k0_pay1 (k0_pay11 i x0 x1 x2 x3) s0) (k0_pay2 (k0_pay12 x0 x1 x2 x3) s1) := by
  rw [View.read_writes_eq_canon _ _ _ (coverC_5 c i a2 h2 a3 h3 a4 h4 a5 h5 a6 h6 a7 h7 a8 h8 a9 h9 hc0 hc1 x0 x1 x2 x3 s0 s1)]
  unfold runC
  dsimp only
  sl_unfold_words
  rw [View.canon_unit_zero (S := S1024x1) hz2]
  simp only [View.readAt_eq_ld, h2.read_unread, h3.read_unread, h4.read_unread, h5.read_unread, h8.read_unread, h9.read_unread,
    View.ld_unit_zero (S := S1024x64) hz2, View.ld_unit_zero (S := S512x64) hz2, View.ld_unit_zero (S := S1024x1) hz2, View.ld_unit_zero (S := S1x512) hz2, View.readCov_unit_zero (S := S1024x1) _ hz2]

/-! ## The inputs' buffers -/

/-- Each input's current staging buffer holds its block at every point, fetched there or not: unfetched, the block
    index has not moved since the fetch, and the body leaves the block in place. -/
theorem before0_0 (c : Dev nD) (t : Fin cfg0.N) (d) : (dat0 V c).before 0 t d = iblk V c 0 t :=
  ((dat0 V c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat0 V c).before 1 t d = iblk V c 1 t :=
  ((dat0 V c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat0 V c).before 2 t d = iblk V c 2 t :=
  ((dat0 V c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dat0 V c).before 3 t d = iblk V c 3 t :=
  ((dat0 V c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation at a generic point -/

/-- What the body is called with at point `t`: the invariant, what the core owes, and the windows' current buffers
    one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the column block decides the case. At the first
    column block the scratches are taken at whatever they hold and come back at the block's values folded into the
    fills; elsewhere they are taken at what the point before left and come back at the block's values folded into
    that; away from the last column block the outputs' buffers go back as found, at the last they are stored from
    the two new scratch values. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 128 := lt_of_lt_of_eq t.isLt (show cfg0.N = 128 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [Dat.leavesExact_idle (dat0 V c) 5 t (idleAt0_5 t hc1) (noFlush0_5 t hc1)]
    rw [scAt_reset V c t h0]
    unfold bmax bmin; dsimp only
    by_cases hz : t.val = 0
    · rw [PhiS_castSucc V c t, PhiS_zero V c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact valA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
          · unfold owns; iexists _; isplitr
            swap; · iexact HS1
            ipureintro; exact valA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact valA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
          · unfold owns; iexists _; isplitr
            swap; · iexact HS1
            ipureintro; exact valA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    have hc0 : ¬cond0_0 (grid0.coords t) := fun h => h0 ((hcond0_0 t).mp h)
    rw [PhiS_castSucc V c t, PhiS_pos V c _ _ hz]
    rw [scAt_acc V c t h0]
    by_cases h1 : t.val % 16 = 15
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      unfold out4At out5At
      rw [scAt_acc V c t h0]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact valC_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
          · unfold owns; iexists _; isplitr
            swap; · iexact HS1
            ipureintro; exact valC_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact valC_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
      unfold owns; iexists _; isplitr
      swap; · iexact H5
      ipureintro; exact valC_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact valB_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
          · unfold owns; iexists _; isplitr
            swap; · iexact HS1
            ipureintro; exact valB_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) hc0 hc1 (iblk V c 0 t) (iblk V c 1 t) (iblk V c 2 t) (iblk V c 3 t) _ _ _
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KILaunch.lean ====
/-
  The launch side of the program's run: @main as six segments over the thread state "every unscoped buffer of the
  core at the boundary's contents, the generator register at some state, nothing owed" — four host stretches, the
  pallas_call's region, one host stretch — and the run of the whole @main from any memory with zero counters to the
  contents `W6` at every unscoped buffer.

  Two things are particular to this program. The two windows that read the normalised embeddings stage one array:
  at the region's entry that array's buffer, whole at the full share, is split into the two halves of the share the
  proof data names, and at the exit the halves are joined again. And the region invariant tracks the two scratch
  buffers: it starts as the class invariant (each scratch at anything) and ends with the scratches at what the last
  point left, which is forgotten when the scratches are handed back.
-/
import proofs.«175049_j14310831030886_1_alg».proof.Proof.KIVals
import proofs.«175049_j14310831030886_1_alg».proof.Proof.KIBody
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

namespace Launch

/-! ## The proof data family and the thread state -/

/-- The prefetched tables' admissible contents: the pipeline has no table. -/
abbrev adm : (p : Fin 1) → (pcfgs (F := F) p).Adm := fun p => (cfgs p).toPCfg_adm
/-- The one pipeline's proof data, at the contents the region is entered from. -/
def pdats : (p : Fin 1) → (c : Dev nD) → Dat τ (Elt F) Unit ℕ (UR sig nD τ) ℕ (Pipeline.pin (pcfgs (F := F)) adm p) c
  | ⟨0, _⟩ => fun c => dat0 (VE m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the five host stretches allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W6`, the generator register at some state. -/
abbrev Tₙ (c : Dev nD) : sProp 𝕄 := iprop(StableHlo.held (c : Thread nD τ) (Pipeline.ucRefs τ sig) (W6 m c) ∗ ∃ r, prngReg c r)

/-! ## The region's invariant at its two ends -/

/-- After the last point the invariant gives the class invariant back: what the two scratches hold is forgotten. -/
theorem Phi_out (c : Dev nD) : (dat0 (VE m) c).Φ (Fin.last cfg0.N) ⊢ (Pipeline.ΦA spec0 c : sProp 𝕄) := by
  rw [show (dat0 (VE m) c).Φ (Fin.last cfg0.N) = PhiS (VE m) c (Fin.last cfg0.N).val (Nat.le_of_lt_succ (Fin.last cfg0.N).isLt) from rfl,
    PhiS_pos (VE m) c _ _ (by rw [Fin.val_last]; have : cfg0.N = 128 := N_0; omega), PhiA0_eq]
  iintro ⟨⟨H0, H1⟩, Hg⟩
  isplitl [H0 H1]
  · isplitl [H0]
    · iexists _; iexact H0
    iexists _; iexact H1
  iexact Hg

/-! ## The shared array: the entry split and the exit join -/

/-- The distinct buffers behind the six windows' arrays are five, conjoined one by one. -/
theorem bigSep_arrs {M : Type} [URA M] (Φ : Ref sig .tc → sProp M) :
    bigSep (Finset.univ.image (Pipeline.arrRef spec0)) Φ = iprop(Φ main_v5 ∗ Φ main_v6 ∗ Φ main_v7 ∗ Φ main_v8_0 ∗ Φ main_v8_1) :=
  bigSep_eq_bigSepL_of_eq [main_v5, main_v6, main_v7, main_v8_0, main_v8_1] (by decide) (by decide) Φ

/-- The five distinct buffers behind the six windows' arrays, each whole at the full share at the entry contents,
    are the proof data's arrays at entry: the buffer two windows stage is split into the two halves of the share. -/
theorem arrBufs_arrays (c : Dev nD) :
    (Pipeline.arrBufs (Ix := Unit) (Name := ℕ) (U := UR sig nD τ) (Lvl := ℕ) spec0 c (VE m c) : sProp 𝕄)
      ⊢ (dat0 (VE m) c).arrays ((dat0 (VE m) c).arrAt · 0) := by
  unfold Pipeline.arrBufs Dat.arrays
  rw [bigSep_arrs, bigSep_W0]
  have s0 : (dat0 (VE m) c).share 0 = fullShare.left := rfl
  have s1 : (dat0 (VE m) c).share 1 = fullShare.right := rfl
  have s2 : (dat0 (VE m) c).share 2 = fullShare := rfl
  have s3 : (dat0 (VE m) c).share 3 = fullShare := rfl
  have s4 : (dat0 (VE m) c).share 4 = fullShare := rfl
  have s5 : (dat0 (VE m) c).share 5 = fullShare := rfl
  rw [s0, s1, s2, s3, s4, s5]
  simp only [View.set_whole]
  iintro ⟨H5, H6, H7, H80, H81⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H80]; · iexact H80
  iexact H81

/-- Off the region's arrays a core's unscoped buffers hold at the exit what they held at the entry. -/
theorem unscopedRest_exit (c : Dev nD) :
    (Pipeline.unscopedRest (Ix := Unit) (Name := ℕ) (U := UR sig nD τ) (Lvl := ℕ) spec0 c (VE m c) : sProp 𝕄)
      = Pipeline.unscopedRest spec0 c (fun b => W5 m c b) := by
  unfold Pipeline.unscopedRest
  refine bigSep_congr fun b hb => ?_
  have hb' := (Finset.mem_sdiff.mp hb).2
  have hmem : b ∉ ([main_v8_0, main_v8_1] : List (Ref sig .tc)) := fun h => hb' (by
    rcases List.mem_cons.mp h with rfl | h
    · exact Finset.mem_image.mpr ⟨4, Finset.mem_univ _, rfl⟩
    · rcases List.mem_cons.mp h with rfl | h
      · exact Finset.mem_image.mpr ⟨5, Finset.mem_univ _, rfl⟩
      · cases h)
  beta_reduce
  rw [W5_of m c b hmem]

/-- What each window's array holds at the exit is what `W5` says of its buffer: an input's array is never written,
    and `W5` differs from the entry contents only at the two outputs, where it is the fold of their write-backs. -/
theorem exit_contents (c : Dev nD) :
    ((dat0 (VE m) c).arrAt · cfg0.N) = fun w => W5 m c (Pipeline.arrRef spec0 w) :=
  funext fun
    | ⟨0, _⟩ => ((dat0 (VE m) c).arrAt_in 0 rfl _).trans (W5_of m c main_v5 (by decide)).symm
    | ⟨1, _⟩ => ((dat0 (VE m) c).arrAt_in 1 rfl _).trans (W5_of m c main_v5 (by decide)).symm
    | ⟨2, _⟩ => ((dat0 (VE m) c).arrAt_in 2 rfl _).trans (W5_of m c main_v6 (by decide)).symm
    | ⟨3, _⟩ => ((dat0 (VE m) c).arrAt_in 3 rfl _).trans (W5_of m c main_v7 (by decide)).symm
    | ⟨4, _⟩ => (W5_out0 m c).symm
    | ⟨5, _⟩ => (W5_out1 m c).symm

/-- The proof data's arrays at the exit are the five distinct buffers, each whole at the full share at the exit
    contents: an input's array as it was entered, the two halves of the shared one joined again, each output's array
    at the fold of its write-backs. -/
theorem arrays_arrBufs (c : Dev nD) :
    (dat0 (VE m) c).arrays ((dat0 (VE m) c).arrAt · cfg0.N)
      ⊢ (Pipeline.arrBufs (Ix := Unit) (Name := ℕ) (U := UR sig nD τ) (Lvl := ℕ) spec0 c (fun b => W5 m c b) : sProp 𝕄) := by
  refine (Entails.of_eq (congrArg (dat0 (VE m) c).arrays (exit_contents m c))).trans ?_
  unfold Pipeline.arrBufs Dat.arrays
  rw [bigSep_arrs, bigSep_W0]
  have s0 : (dat0 (VE m) c).share 0 = fullShare.left := rfl
  have s1 : (dat0 (VE m) c).share 1 = fullShare.right := rfl
  have s2 : (dat0 (VE m) c).share 2 = fullShare := rfl
  have s3 : (dat0 (VE m) c).share 3 = fullShare := rfl
  have s4 : (dat0 (VE m) c).share 4 = fullShare := rfl
  have s5 : (dat0 (VE m) c).share 5 = fullShare := rfl
  rw [s0, s1, s2, s3, s4, s5]
  simp only [View.set_whole]
  iintro ⟨H0, H1, H2, H3, H4, H5⟩
  ihave H01 := (pointsTo_share (PosShare.mem_left_op_right fullShare)).2 $$ [H0 H1]
  · isplitl [H0]; · iexact H0
    iexact H1
  isplitl [H01]; · iexact H01
  isplitl [H2]; · iexact H2
  isplitl [H3]; · iexact H3
  isplitl [H4]; · iexact H4
  iexact H5

/-! ## The region as a segment -/

set_option backward.isDefEq.respectTransparency.types false in
/-- The pallas_call over the thread state: entered from every unscoped buffer at `W4`, left at `W5`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (VE m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (VE m c)
  hentry c := by
    rw [Pipeline.ownSems0_none]
    have hsplit : (StableHlo.held (c : Thread nD τ) (Pipeline.ucRefs τ sig) (W4 m c) : sProp 𝕄)
        ⊢ iprop((pdats m 0 c).arrays ((pdats m 0 c).arrAt · 0) ∗ Pipeline.unscopedRest spec0 c (VE m c)) := by
      rw [← Pipeline.unscopedBufs_held (Ix := Unit) (Name := ℕ) (U := UR sig nD τ) (Lvl := ℕ) c (W4 m c),
        Pipeline.unscopedBufs_split₀ cfgs 0 winFacts₀0.arr_unscoped c]
      exact BIClass.sep_mono (arrBufs_arrays m c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from PhiS_zero (VE m) c _ (Nat.zero_le _) rfl]; unfold Pipeline.ΦA
    iintro ⟨Hp, -, Hr⟩
    isplitl [Hr]; · iexact Hr
    iexact Hp
  hout c := by
    rw [Pipeline.ownSems0_none]
    refine (Phi_out m c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (VE m c))
        ⊢ (StableHlo.held (c : Thread nD τ) (Pipeline.ucRefs τ sig) (W5 m c) : sProp 𝕄) := by
      rw [← Pipeline.unscopedBufs_held (Ix := Unit) (Name := ℕ) (U := UR sig nD τ) (Lvl := ℕ) c (W5 m c),
        Pipeline.unscopedBufs_split₀ cfgs 0 winFacts₀0.arr_unscoped c]
      exact BIClass.sep_mono (arrays_arrBufs m c) (Entails.of_eq (unscopedRest_exit m c))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)) ]
/-- @main is the run of the segments. -/
theorem main_run (c : Dev nD) : main (F := F) c = Pipeline.Seg.run (segs m) := (main_chain c).trans (by chain_rfl)

set_option backward.isDefEq.respectTransparency.types false in
/-- The run of @main, read at any claim that follows from every core's unscoped buffers holding `W6`. -/
theorem run_gen (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W6 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := hQ)

end Launch

/-! ## The run -/

/-- From any memory with zero counters, every weakly fair execution of @main on the TensorCores terminates, nothing
    faulting, and every final state holds `W6` at every unscoped buffer of every core. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Launch.run_gen m ρ fun s h => h

/-! ## The arguments end as launched: no host stretch writes one, and the region's arrays are not arguments -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m c (Proc.devRef .tc main_arg0) := W5_of m c main_arg0 (by decide)
    _ = W3 m c (Proc.devRef .tc main_arg0) := StableHlo.after_of_forall_not_mem (b := Proc.devRef .tc main_arg0) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m c (Proc.devRef .tc main_arg1) := W5_of m c main_arg1 (by decide)
    _ = W3 m c (Proc.devRef .tc main_arg1) := StableHlo.after_of_forall_not_mem (b := Proc.devRef .tc main_arg1) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m c (Proc.devRef .tc main_arg1) := StableHlo.after_of_forall_not_mem (b := Proc.devRef .tc main_arg1) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m c (Proc.devRef .tc main_arg1) := StableHlo.after_of_forall_not_mem (b := Proc.devRef .tc main_arg1) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          exact StableHlo.devRef_ne_of_ne (by decide)))
    _ = m ((c : Thread nD τ).loc main_arg1) := rfl

/-- The frame: every final state has the two argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)) :=
  Launch.run_gen m ρ fun s h c =>
    ⟨(h c _ (Launch.mem_uc main_arg0 (by decide))).trans (W6_main_arg0 m c),
      (h c _ (Launch.mem_uc main_arg1 (by decide))).trans (W6_main_arg1 m c)⟩

end Cert.KernelIdeal.Hand

end
-- ==== Proof.RefRun.lean ====
/-
  The reference program's run. @main of the reference is a straight line of tensor operations once each call
  of a module-local function is read as the callee's body over that call's buffers: the index table, the
  family lookup (a clamped, bounds-checked gather from the six-entry table), the row norms, the normalised
  rows and their Gram matrix, one minus it (the cosine distance), the two label masks (same family off the
  diagonal; different family), the masked row maximum and row minimum, the hinge on their difference plus the
  margin, the rows that have both a positive and a negative, and the mean of the hinge over those rows. Listed
  in order as `ops`, the program equals `seq ops`; every weakly fair execution from a memory with zero
  counters then terminates with each buffer at the fold of the operations over the launch contents, so the
  result buffer holds a named pure term of the two argument arrays and both arguments are unchanged.
-/
import proofs.«175049_j14310831030886_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 92 operations in order, each call's operations inline over that call's buffers: the table (1); the
    family lookup (22, the select of its inner call among them); the row norms (5); normalisation, the Gram
    matrix, the distance and the two masks (29); the positives' fill (3) and row maximum (3 with its constants);
    the negatives' fill (3) and row minimum, the row tests, the difference and the margin (11); the hinge (3);
    its zero (1); the rows kept (3); the two sums, the count's floor and the quotient (8). -/
abbrev ops : List (HloOp τ sig (Elt F)) :=
  [ StableHlo.nullary main_c (fun i => lit0 (S6.rowMajor i)),
    -- the family lookup: index < 0 wraps by 6, then 0 ≤ index ≤ 5 is tested, the table is gathered, out-of-range rows get the least integer
    StableHlo.TRef.nullary main_call0.c (constantI S_ 32 0#32),
    StableHlo.TRef.unary main_call0.c main_call0.v0 (broadcastInDim S8192 ![] bcast_S_S8192),
    StableHlo.TRef.binary (.of main_arg1 : StableHlo.TRef sig ⟨S8192, .i32⟩) main_call0.v0 main_call0.v1 (cmpi .slt),
    StableHlo.TRef.nullary main_call0.c_0 (constantI S_ 32 6#32),
    StableHlo.TRef.unary main_call0.c_0 main_call0.v2 (broadcastInDim S8192 ![] bcast_S_S8192),
    StableHlo.TRef.binary (.of main_arg1 : StableHlo.TRef sig ⟨S8192, .i32⟩) main_call0.v2 main_call0.v3 addi,
    StableHlo.TRef.ternary main_call0.v1 main_call0.v3 (.of main_arg1 : StableHlo.TRef sig ⟨S8192, .i32⟩) main_call0.call0.v0 select,
    StableHlo.TRef.unary main_call0.call0.v0 main_call0.v5 (broadcastInDim S8192x1 ![0] bcast_S8192_S8192x1_0),
    StableHlo.TRef.nullary main_call0.c_1 (constantI S1 32 5#32),
    StableHlo.TRef.nullary main_call0.c_2 (constantI S_ 32 0#32),
    StableHlo.TRef.unary main_call0.c_2 main_call0.v6 (broadcastInDim S8192x1 ![] bcast_S_S8192x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S8192x1 ![0, 1] bcast_S1x1_S8192x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S8192x1_S8192_d1 h_S_),
    StableHlo.TRef.binary (.of main_c : StableHlo.TRef sig ⟨S6, .i32⟩) main_call0.v5 main_call0.v13 (fun x i => Host.gather gather_S6_S8192x1_S8192_n_0_n_n_0_1_1 x i),
    StableHlo.TRef.nullary main_call0.c_4 (constantI S_ 32 2147483648#32),
    StableHlo.TRef.unary main_call0.c_4 main_call0.v14 (broadcastInDim S8192 ![] bcast_S_S8192),
    StableHlo.TRef.ternary main_call0.v12 main_call0.v13 main_call0.v14 main_call0.v15 select,
    -- the row norms: the square root of each row's sum of squares, as a column
    StableHlo.TRef.binary (.of main_arg0 : StableHlo.TRef sig ⟨S8192x64, .f32⟩) (.of main_arg0 : StableHlo.TRef sig ⟨S8192x64, .f32⟩) main_call1.v0 mulf,
    StableHlo.TRef.nullary main_call1.cst (constant S_ .f32 0x00000000#32),
    StableHlo.TRef.binary main_call1.v0 main_call1.cst main_call1.v1 (fun x v => Host.reduceAdd x v reducesTo_S8192x64_S8192_d1 h_S_),
    StableHlo.TRef.unary main_call1.v1 main_call1.v2 (broadcastInDim S8192x1 ![0] bcast_S8192_S8192x1_0),
    StableHlo.TRef.unary main_call1.v2 main_call1.v3 Host.sqrt,
    -- rows divided by their norm (floored at the small constant), the Gram matrix, one minus it
    StableHlo.nullary main_cst (constant S_ .f32 0x2B8CBCCC#32),
    StableHlo.unary main_cst main_v2 (broadcastInDim S8192x1 ![] bcast_S_S8192x1 : (⟨S_, .f32⟩ : BufTy).Contents (Elt F) → (⟨S8192x1, .f32⟩ : BufTy).Contents (Elt F)),
    StableHlo.binary main_v1 main_v2 main_v3 (maximumf : (⟨S8192x1, .f32⟩ : BufTy).Contents (Elt F) → (⟨S8192x1, .f32⟩ : BufTy).Contents (Elt F) → (⟨S8192x1, .f32⟩ : BufTy).Contents (Elt F)),
    StableHlo.unary main_v3 main_v4 (broadcastInDim S8192x64 ![0, 1] bcast_S8192x1_S8192x64_0_1 : (⟨S8192x1, .f32⟩ : BufTy).Contents (Elt F) → (⟨S8192x64, .f32⟩ : BufTy).Contents (Elt F)),
    StableHlo.binary main_arg0 main_v4 main_v5 (Host.divf : (⟨S8192x64, .f32⟩ : BufTy).Contents (Elt F) → (⟨S8192x64, .f32⟩ : BufTy).Contents (Elt F) → (⟨S8192x64, .f32⟩ : BufTy).Contents (Elt F)),
    StableHlo.unary main_v5 main_v6 ((transpose S64x8192 [1, 0] · transposes_S8192x64_S64x8192_1_0) : (⟨S8192x64, .f32⟩ : BufTy).Contents (Elt F) → (⟨S64x8192, .f32⟩ : BufTy).Contents (Elt F)),
    StableHlo.binary main_v5 main_v6 main_v7 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_0 (constant S_ .f32 0x3F800000#32),
    StableHlo.unary main_cst_0 main_v8 (broadcastInDim S8192x8192 ![] bcast_S_S8192x8192 : (⟨S_, .f32⟩ : BufTy).Contents (Elt F) → (⟨S8192x8192, .f32⟩ : BufTy).Contents (Elt F)),
    StableHlo.binary main_v8 main_v7 main_v9 (subf : (⟨S8192x8192, .f32⟩ : BufTy).Contents (Elt F) → (⟨S8192x8192, .f32⟩ : BufTy).Contents (Elt F) → (⟨S8192x8192, .f32⟩ : BufTy).Contents (Elt F)),
    -- same family: the family as a column against the family as a row
    StableHlo.unary main_v0 main_v10 (broadcastInDim S8192x1 ![0] bcast_S8192_S8192x1_0 : (⟨S8192, .i32⟩ : BufTy).Contents (Elt F) → (⟨S8192x1, .i32⟩ : BufTy).Contents (Elt F)),
    StableHlo.unary main_v0 main_v11 (broadcastInDim S1x8192 ![1] bcast_S8192_S1x8192_1 : (⟨S8192, .i32⟩ : BufTy).Contents (Elt F) → (⟨S1x8192, .i32⟩ : BufTy).Contents (Elt F)),
    StableHlo.unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    -- off the diagonal: row index (plus zero) against column index, negated
    StableHlo.nullary main_v15 (iotaInDim S8192x8192 32 0),
    StableHlo.nullary main_v16 (iotaInDim S8192x8192 32 1),
    StableHlo.nullary main_c_1 (constantI S_ 32 0#32),
    StableHlo.unary main_c_1 main_v17 (broadcastInDim S8192x8192 ![] bcast_S_S8192x8192 : (⟨S_, .i32⟩ : BufTy).Contents (Elt F) → (⟨S8192x8192, .i32⟩ : BufTy).Contents (Elt F)),
    StableHlo.binary main_v15 main_v17 main_v18 (addi : (⟨S8192x8192, .i32⟩ : BufTy).Contents (Elt F) → (⟨S8192x8192, .i32⟩ : BufTy).Contents (Elt F) → (⟨S8192x8192, .i32⟩ : BufTy).Contents (Elt F)),
    StableHlo.binary main_v18 main_v16 main_v19 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v19 main_v20 (noti : (⟨S8192x8192, .i1⟩ : BufTy).Contents (Elt F) → (⟨S8192x8192, .i1⟩ : BufTy).Contents (Elt F)),
    StableHlo.binary main_v14 main_v20 main_v21 (andi : (⟨S8192x8192, .i1⟩ : BufTy).Contents (Elt F) → (⟨S8192x8192, .i1⟩ : BufTy).Contents (Elt F) → (⟨S8192x8192, .i1⟩ : BufTy).Contents (Elt F)),
    -- different family
    StableHlo.unary main_v0 main_v22 (broadcastInDim S8192x1 ![0] bcast_S8192_S8192x1_0 : (⟨S8192, .i32⟩ : BufTy).Contents (Elt F) → (⟨S8192x1, .i32⟩ : BufTy).Contents (Elt F)),
    StableHlo.unary main_v0 main_v23 (broadcastInDim S1x8192 ![1] bcast_S8192_S1x8192_1 : (⟨S8192, .i32⟩ : BufTy).Contents (Elt F) → (⟨S1x8192, .i32⟩ : BufTy).Contents (Elt F)),
    StableHlo.unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v24 main_v25 main_v26 (cmpi .ne : (⟨S8192x8192, .i32⟩ : BufTy).Contents (Elt F) → (⟨S8192x8192, .i32⟩ : BufTy).Contents (Elt F) → (⟨S8192x8192, .i1⟩ : BufTy).Contents (Elt F)),
    StableHlo.nullary main_cst_2 (constant S_ .f32 0xCE6E6B28#32),
    -- the distance where same family, the large negative constant elsewhere; its row maximum
    StableHlo.TRef.unary (.of main_cst_2 : StableHlo.TRef sig ⟨S_, .f32⟩) main_call2.v0 id,
    StableHlo.TRef.unary main_call2.v0 main_call2.v1 (broadcastInDim S8192x8192 ![] bcast_S_S8192x8192),
    StableHlo.TRef.ternary (.of main_v21 : StableHlo.TRef sig ⟨S8192x8192, .i1⟩) (.of main_v9 : StableHlo.TRef sig ⟨S8192x8192, .f32⟩) main_call2.v1 main_call2.v2 select,
    StableHlo.nullary main_cst_3 (constant S_ .f32 0xFF800000#32),
    StableHlo.binary main_v27 main_cst_3 main_v28 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_4 (constant S_ .f32 0x4E6E6B28#32),
    -- the distance where different family, the large positive constant elsewhere; its row minimum
    StableHlo.TRef.unary (.of main_cst_4 : StableHlo.TRef sig ⟨S_, .f32⟩) main_call3.v0 id,
    StableHlo.TRef.unary main_call3.v0 main_call3.v1 (broadcastInDim S8192x8192 ![] bcast_S_S8192x8192),
    StableHlo.TRef.ternary (.of main_v26 : StableHlo.TRef sig ⟨S8192x8192, .i1⟩) (.of main_v9 : StableHlo.TRef sig ⟨S8192x8192, .f32⟩) main_call3.v1 main_call3.v2 select,
    StableHlo.nullary main_cst_5 (constant S_ .f32 0x7F800000#32),
    StableHlo.binary main_v29 main_cst_5 main_v30 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    -- rows with some positive and some negative
    StableHlo.nullary main_c_6 (constantI S_ 1 0#1),
    StableHlo.binary main_v21 main_c_6 main_v31 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.nullary main_c_7 (constantI S_ 1 0#1),
    StableHlo.binary main_v26 main_c_7 main_v32 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.binary main_v31 main_v32 main_v33 (andi : (⟨S8192, .i1⟩ : BufTy).Contents (Elt F) → (⟨S8192, .i1⟩ : BufTy).Contents (Elt F) → (⟨S8192, .i1⟩ : BufTy).Contents (Elt F)),
    -- maximum minus minimum plus the margin, floored at zero, zeroed on the rows not kept
    StableHlo.binary main_v28 main_v30 main_v34 (subf : (⟨S8192, .f32⟩ : BufTy).Contents (Elt F) → (⟨S8192, .f32⟩ : BufTy).Contents (Elt F) → (⟨S8192, .f32⟩ : BufTy).Contents (Elt F)),
    StableHlo.nullary main_cst_8 (constant S_ .f32 0x3E99999A#32),
    StableHlo.unary main_cst_8 main_v35 (broadcastInDim S8192 ![] bcast_S_S8192 : (⟨S_, .f32⟩ : BufTy).Contents (Elt F) → (⟨S8192, .f32⟩ : BufTy).Contents (Elt F)),
    StableHlo.binary main_v34 main_v35 main_v36 (addf : (⟨S8192, .f32⟩ : BufTy).Contents (Elt F) → (⟨S8192, .f32⟩ : BufTy).Contents (Elt F) → (⟨S8192, .f32⟩ : BufTy).Contents (Elt F)),
    StableHlo.TRef.nullary main_call4.cst (constant S_ .f32 0x00000000#32),
    StableHlo.TRef.unary main_call4.cst main_call4.v0 (broadcastInDim S8192 ![] bcast_S_S8192),
    StableHlo.TRef.binary (.of main_v36 : StableHlo.TRef sig ⟨S8192, .f32⟩) main_call4.v0 main_call4.v1 maximumf,
    StableHlo.nullary main_cst_9 (constant S_ .f32 0x00000000#32),
    StableHlo.TRef.unary (.of main_cst_9 : StableHlo.TRef sig ⟨S_, .f32⟩) main_call5.v0 id,
    StableHlo.TRef.unary main_call5.v0 main_call5.v1 (broadcastInDim S8192 ![] bcast_S_S8192),
    StableHlo.TRef.ternary (.of main_v33 : StableHlo.TRef sig ⟨S8192, .i1⟩) (.of main_v37 : StableHlo.TRef sig ⟨S8192, .f32⟩) main_call5.v1 main_call5.v2 select,
    -- the number of rows kept, the sum of the kept hinges, their quotient with the count floored at one
    StableHlo.unary main_v33 main_v39 (uitofp .f32 : (⟨S8192, .i1⟩ : BufTy).Contents (Elt F) → (⟨S8192, .f32⟩ : BufTy).Contents (Elt F)),
    StableHlo.nullary main_cst_10 (constant S_ .f32 0x00000000#32),
    StableHlo.binary main_v39 main_cst_10 main_v40 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_11 (constant S_ .f32 0x00000000#32),
    StableHlo.binary main_v38 main_cst_11 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_12 (constant S_ .f32 0x3F800000#32),
    StableHlo.binary main_v40 main_cst_12 main_v42 (maximumf : (⟨S_, .f32⟩ : BufTy).Contents (Elt F) → (⟨S_, .f32⟩ : BufTy).Contents (Elt F) → (⟨S_, .f32⟩ : BufTy).Contents (Elt F)),
    StableHlo.binary main_v41 main_v42 main_v43 (Host.divf : (⟨S_, .f32⟩ : BufTy).Contents (Elt F) → (⟨S_, .f32⟩ : BufTy).Contents (Elt F) → (⟨S_, .f32⟩ : BufTy).Contents (Elt F)) ]

/-- @main is that straight line: with the functions' bodies substituted at their calls and the calls' records read
    at their fields, both sides unfold to one and the same chain of steps (sequencing re-associates by
    computation: a step followed by a continuation is the step with the continuation pushed under it). -/
theorem main_eq (c : Dev nD) : main (F := F) c = seq ops := by
  chain_rfl

/-- The program scopes no buffer and no semaphore: it is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., unary_bufs_sub .., binary_bufs_sub .., nullary_bufs_sub ..,
    unary_bufs_sub .., binary_bufs_sub .., unary_bufs_sub .., unary_bufs_sub .., unary_bufs_sub .., unary_bufs_sub ..,
    binary_bufs_sub .., nullary_bufs_sub .., nullary_bufs_sub .., nullary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., nullary_bufs_sub .., unary_bufs_sub .., unary_bufs_sub .., ternary_bufs_sub ..,
    nullary_bufs_sub .., binary_bufs_sub .., nullary_bufs_sub .., unary_bufs_sub .., unary_bufs_sub .., ternary_bufs_sub ..,
    nullary_bufs_sub .., binary_bufs_sub .., nullary_bufs_sub .., binary_bufs_sub .., nullary_bufs_sub .., binary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., binary_bufs_sub .., nullary_bufs_sub .., binary_bufs_sub .., nullary_bufs_sub ..,
    binary_bufs_sub .., binary_bufs_sub ..⟩

/-- On the device, for any float values, from any memory with zero counters: every weakly fair execution of
    @main terminates with the result buffer at the operations' fold over the launch contents, read at that
    buffer, and both argument arrays unchanged (no operation writes them). -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43) = StableHlo.after ops (fun b => m (c, b)) (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c main_v43,
      (h c main_arg0).trans (by after_results),
      (h c main_arg1).trans (by after_results)⟩)
    (run_seq scopedRefs_eq scopedSems_eq defs main (fun _ => ops) main_eq (fun _ => ops_sub) m ρ)

/-! ## The result as a named term of the two arguments

Each definition below is one operation of @main or a short chain of them, written over the arguments' contents:
the fold of `ops` read at the result buffer is `result` of the two argument arrays (`result_eq`). -/

/-- The table of families, one entry per class: 0, 1, 2, 1, 3, 3. -/
def table : IVec S6 32 := fun i => lit0 (S6.rowMajor i)

/-- A negative label wraps round by the table's length, six. -/
def wrap (lab : IVec S8192 32) : IVec S8192 32 :=
  select (cmpi .slt lab (broadcastInDim S8192 ![] bcast_S_S8192 (constantI S_ 32 0#32)))
    (addi lab (broadcastInDim S8192 ![] bcast_S_S8192 (constantI S_ 32 6#32))) lab

/-- The wrapped label as a column: the lookup's index table. -/
def idx (lab : IVec S8192 32) : IVec S8192x1 32 :=
  broadcastInDim S8192x1 ![0] bcast_S8192_S8192x1_0 (wrap lab)

/-- The index lies inside the table, 0 ≤ index ≤ 5 (the conjunction over its one component). -/
def inTable (lab : IVec S8192 32) : IVec S8192 1 :=
  Host.reduce IntOp.andi
    (andi (cmpi .sge (idx lab) (broadcastInDim S8192x1 ![] bcast_S_S8192x1 (constantI S_ 32 0#32)))
      (cmpi .sle (idx lab) (broadcastInDim S8192x1 ![0, 1] bcast_S1x1_S8192x1_0_1
        (broadcastInDim S1x1 ![1] bcast_S1_S1x1_1 (constantI S1 32 5#32)))))
    (constantI S_ 1 1#1) reducesTo_S8192x1_S8192_d1 h_S_

/-- Each row's family: the table at its label, and the least integer where the label is outside the table. -/
def fam (lab : IVec S8192 32) : IVec S8192 32 :=
  select (inTable lab) (Host.gather gather_S6_S8192x1_S8192_n_0_n_n_0_1_1 table (idx lab))
    (broadcastInDim S8192 ![] bcast_S_S8192 (constantI S_ 32 2147483648#32))

/-- Each row's sum of squares. -/
def sqnorm (x : FVec F S8192x64 .f32) : FVec F S8192 .f32 :=
  Host.reduceAdd (mulf x x) (constant (F := F) S_ .f32 0x00000000#32) reducesTo_S8192x64_S8192_d1 h_S_

/-- Each row's Euclidean norm, as a column. -/
def rnorm (x : FVec F S8192x64 .f32) : FVec F S8192x1 .f32 :=
  Host.sqrt (broadcastInDim S8192x1 ![0] bcast_S8192_S8192x1_0 (sqnorm x))

/-- The rows divided by their norm, the norm floored at the small constant. -/
def enorm (x : FVec F S8192x64 .f32) : FVec F S8192x64 .f32 :=
  Host.divf x (broadcastInDim S8192x64 ![0, 1] bcast_S8192x1_S8192x64_0_1
    (maximumf (rnorm x) (broadcastInDim S8192x1 ![] bcast_S_S8192x1 (constant (F := F) S_ .f32 0x2B8CBCCC#32))))

/-- The Gram matrix of the normalised rows: every pair's cosine. -/
def gram (x : FVec F S8192x64 .f32) : FVec F S8192x8192 .f32 :=
  Host.dotGeneral dot_S8192x64_S64x8192_S8192x8192_1_0_0_1_n_n none (enorm x)
    (transpose S64x8192 [1, 0] (enorm x) transposes_S8192x64_S64x8192_1_0)

/-- The cosine distance: one minus the cosine. -/
def dist (x : FVec F S8192x64 .f32) : FVec F S8192x8192 .f32 :=
  subf (broadcastInDim S8192x8192 ![] bcast_S_S8192x8192 (constant (F := F) S_ .f32 0x3F800000#32)) (gram x)

/-- The family of the row index, at every pair. -/
def famRows (lab : IVec S8192 32) : IVec S8192x8192 32 :=
  broadcastInDim S8192x8192 ![0, 1] bcast_S8192x1_S8192x8192_0_1
    (broadcastInDim S8192x1 ![0] bcast_S8192_S8192x1_0 (fam lab))

/-- The family of the column index, at every pair. -/
def famCols (lab : IVec S8192 32) : IVec S8192x8192 32 :=
  broadcastInDim S8192x8192 ![0, 1] bcast_S1x8192_S8192x8192_0_1
    (broadcastInDim S1x8192 ![1] bcast_S8192_S1x8192_1 (fam lab))

/-- Off the diagonal: the row index (plus zero) differs from the column index. -/
def offDiag : IVec S8192x8192 1 :=
  noti (cmpi .eq
    (addi (iotaInDim S8192x8192 32 0) (broadcastInDim S8192x8192 ![] bcast_S_S8192x8192 (constantI S_ 32 0#32)))
    (iotaInDim S8192x8192 32 1))

/-- The positives: pairs of one family, off the diagonal. -/
def same (lab : IVec S8192 32) : IVec S8192x8192 1 :=
  andi (cmpi .eq (famRows lab) (famCols lab)) offDiag

/-- The negatives: pairs of different families. -/
def diff (lab : IVec S8192 32) : IVec S8192x8192 1 :=
  cmpi .ne (famRows lab) (famCols lab)

/-- Each row's farthest positive: the maximum of the distance over its positives, the large negative constant
    standing in elsewhere, from minus infinity. -/
def dpos (x : FVec F S8192x64 .f32) (lab : IVec S8192 32) : FVec F S8192 .f32 :=
  Host.reduce (FloatOps.maximumf (F := F))
    (select (same lab) (dist x)
      (broadcastInDim S8192x8192 ![] bcast_S_S8192x8192 (constant (F := F) S_ .f32 0xCE6E6B28#32)))
    (constant (F := F) S_ .f32 0xFF800000#32) reducesTo_S8192x8192_S8192_d1 h_S_

/-- Each row's nearest negative: the minimum of the distance over its negatives, the large positive constant
    standing in elsewhere, from plus infinity. -/
def dneg (x : FVec F S8192x64 .f32) (lab : IVec S8192 32) : FVec F S8192 .f32 :=
  Host.reduce (FloatOps.minimumf (F := F))
    (select (diff lab) (dist x)
      (broadcastInDim S8192x8192 ![] bcast_S_S8192x8192 (constant (F := F) S_ .f32 0x4E6E6B28#32)))
    (constant (F := F) S_ .f32 0x7F800000#32) reducesTo_S8192x8192_S8192_d1 h_S_

/-- The rows kept: those with some positive and some negative. -/
def valid (lab : IVec S8192 32) : IVec S8192 1 :=
  andi (Host.reduce IntOp.ori (same lab) (constantI S_ 1 0#1) reducesTo_S8192x8192_S8192_d1 h_S_)
    (Host.reduce IntOp.ori (diff lab) (constantI S_ 1 0#1) reducesTo_S8192x8192_S8192_d1 h_S_)

/-- The hinge: farthest positive minus nearest negative plus the margin, floored at zero. -/
def hinge (x : FVec F S8192x64 .f32) (lab : IVec S8192 32) : FVec F S8192 .f32 :=
  maximumf
    (addf (subf (dpos x lab) (dneg x lab)) (broadcastInDim S8192 ![] bcast_S_S8192 (constant (F := F) S_ .f32 0x3E99999A#32)))
    (broadcastInDim S8192 ![] bcast_S_S8192 (constant (F := F) S_ .f32 0x00000000#32))

/-- Each row's term: its hinge if the row is kept, zero otherwise. -/
def perRow (x : FVec F S8192x64 .f32) (lab : IVec S8192 32) : FVec F S8192 .f32 :=
  select (valid lab) (hinge x lab) (broadcastInDim S8192 ![] bcast_S_S8192 (constant (F := F) S_ .f32 0x00000000#32))

/-- The number of rows kept, as a float sum of the zero-one indicators. -/
def count (lab : IVec S8192 32) : FVec F S_ .f32 :=
  Host.reduceAdd (uitofp (F := F) .f32 (valid lab)) (constant (F := F) S_ .f32 0x00000000#32) reducesTo_S8192_S_d0 h_S_

/-- The sum of the rows' terms. -/
def total (x : FVec F S8192x64 .f32) (lab : IVec S8192 32) : FVec F S_ .f32 :=
  Host.reduceAdd (perRow x lab) (constant (F := F) S_ .f32 0x00000000#32) reducesTo_S8192_S_d0 h_S_

/-- What @main computes from the two arguments: the mean hinge over the rows kept, the count floored at one. -/
def result (x : FVec F S8192x64 .f32) (lab : IVec S8192 32) : FVec F S_ .f32 :=
  Host.divf (total x lab) (maximumf (count (F := F) lab) (constant (F := F) S_ .f32 0x3F800000#32))

-- the reductions, the lookup and the contraction are folds over their operands' elements: kept closed, the
-- equation below never looks inside them
attribute [local irreducible] Host.reduce Host.reduceAdd Host.gather in
set_option maxRecDepth 8192 in
set_option maxHeartbeats 2000000 in
/-- The fold of the operations, read at the result buffer, is `result` of the contents of the two argument
    buffers: each operation's value at its own buffer is its function of its operands' values, every other
    buffer keeps what it held, and the typed references' transports are the identity at these references. -/
theorem result_eq (V : Valuation τ sig (Elt F)) :
    after ops V (Proc.devRef .tc main_v43)
      = result (V (Proc.devRef .tc main_arg0)) (V (Proc.devRef .tc main_arg1)) := by
  after_results_simp
  simp only [TRef.toBuf, TRef.ofBuf, cast_eq, id]
  rfl

/-- The run with the result named: the result buffer ends at `result` of the two arguments' launch contents. -/
theorem run_result (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq _), (h c).2⟩) (run m ρ)

end Cert.ReferenceIdeal.RefRun

end
-- ==== Proof.KIArr.lean ====
/-
  From blocks to arrays, for the kernel's one pipeline: which element of which array an input block holds, and which
  block of a result array a grid point wrote.

  The grid is 8 row blocks by 16 column blocks, point t = 16·ib + jb. The row-block windows (the embeddings' rows, the
  rows' families, the two results) sit at block (ib, 0) of their arrays, the column-block windows (the embeddings'
  columns, the columns' families) at block jb of theirs: the index maps are decided once over the grid, and an
  element of a block sits in the array, on each axis, at the block index times the block's extent plus its own
  coordinate. A result array is written back only at the last column block of each row block; two such points' blocks
  are disjoint, so after the run row block ib of the array is what point 16·ib + 15 left in the staging buffer.
  No arithmetic here: the lemmas hold for every float instance.
-/
import proofs.«175049_j14310831030886_1_alg».proof.Proof.KIBase
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-! ## The grid and the index maps -/

/-- A grid point is below 128. -/
theorem pt_lt (t : Fin cfg0.N) : t.val < 128 := N_0 ▸ t.isLt

/-- The printed index maps, decided over the grid: the row-block windows sit at block (t / 16, 0), the column-block
    windows at block t % 16 of their one moving axis. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

/-! ## The input blocks, element by element -/

/-- Row `p` of row block `t / 16` of the embeddings. -/
theorem iblk0_apply (c : Dev nD) (t : Fin cfg0.N) (p : Fin 1024) (k : Fin 64) :
    (iblk V c 0 t : Vec F S1024x64 .f32) (ix2 p k)
      = (V c main_v5 : Vec F S8192x64 .f32) (ix2 ⟨(t.val / 16) * 1024 + p.val, by have := pt_lt t; omega⟩ k) := by
  obtain ⟨e0, e1, -⟩ := idx_facts t
  show V c main_v5 (((cfg0.win 0).blk t).view.emb (ix2 p k)) = _
  congr 1
  funext a; apply Fin.ext
  match a with
  | ⟨0, _⟩ => show win0_0.index t (0 : Fin 2) * 1024 + 1 * p.val = (t.val / 16) * 1024 + p.val; rw [e0]; omega
  | ⟨1, _⟩ => show win0_0.index t (1 : Fin 2) * 64 + 1 * k.val = k.val; rw [e1]; omega

/-- Row `q` of column block `t % 16` of the embeddings. -/
theorem iblk1_apply (c : Dev nD) (t : Fin cfg0.N) (q : Fin 512) (k : Fin 64) :
    (iblk V c 1 t : Vec F S512x64 .f32) (ix2 q k)
      = (V c main_v5 : Vec F S8192x64 .f32) (ix2 ⟨(t.val % 16) * 512 + q.val, by omega⟩ k) := by
  obtain ⟨-, -, e0, e1, -⟩ := idx_facts t
  show V c main_v5 (((cfg0.win 1).blk t).view.emb (ix2 q k)) = _
  congr 1
  funext a; apply Fin.ext
  match a with
  | ⟨0, _⟩ => show win0_1.index t (0 : Fin 2) * 512 + 1 * q.val = (t.val % 16) * 512 + q.val; rw [e0]; omega
  | ⟨1, _⟩ => show win0_1.index t (1 : Fin 2) * 64 + 1 * k.val = k.val; rw [e1]; omega

/-- The family of row `p` of row block `t / 16`. -/
theorem iblk2_apply (c : Dev nD) (t : Fin cfg0.N) (p : Fin 1024) :
    (iblk V c 2 t : Vec F S1024x1 .i32) (ix2 p 0)
      = (V c main_v6 : Vec F S8192x1 .i32) (ix2 ⟨(t.val / 16) * 1024 + p.val, by have := pt_lt t; omega⟩ 0) := by
  obtain ⟨-, -, -, -, e0, e1, -⟩ := idx_facts t
  show V c main_v6 (((cfg0.win 2).blk t).view.emb (ix2 p 0)) = _
  congr 1
  funext a; apply Fin.ext
  match a with
  | ⟨0, _⟩ => show win0_2.index t (0 : Fin 2) * 1024 + 1 * p.val = (t.val / 16) * 1024 + p.val; rw [e0]; omega
  | ⟨1, _⟩ => show win0_2.index t (1 : Fin 2) * 1 + 1 * 0 = 0; rw [e1]

/-- The family of column `q` of column block `t % 16`. -/
theorem iblk3_apply (c : Dev nD) (t : Fin cfg0.N) (q : Fin 512) :
    (iblk V c 3 t : Vec F S1x512 .i32) (ix2 0 q)
      = (V c main_v7 : Vec F S1x8192 .i32) (ix2 0 ⟨(t.val % 16) * 512 + q.val, by omega⟩) := by
  obtain ⟨-, -, -, -, -, -, e0, e1, -⟩ := idx_facts t
  show V c main_v7 (((cfg0.win 3).blk t).view.emb (ix2 0 q)) = _
  congr 1
  funext a; apply Fin.ext
  match a with
  | ⟨0, _⟩ => show win0_3.index t (0 : Fin 2) * 1 + 1 * 0 = 0; rw [e0]
  | ⟨1, _⟩ => show win0_3.index t (1 : Fin 2) * 512 + 1 * q.val = (t.val % 16) * 512 + q.val; rw [e1]; omega

/-! ## The result arrays, row block by row block -/

/-- The last column block of row block `ib` is a grid point. -/
theorem lastPt_lt (ib : Fin 8) : 16 * ib.val + 15 < cfg0.N :=
  Nat.lt_of_lt_of_eq (by omega : 16 * ib.val + 15 < 128) N_0.symm

/-- Two distinct points that write the first result back lie in different row blocks: their blocks share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (Fin.ext (by
    have h0 : win0_4.index t (0 : Fin 2) = win0_4.index t' (0 : Fin 2) := congrFun h (0 : Fin 2)
    obtain ⟨-, -, -, -, -, -, -, -, e, -⟩ := idx_facts t
    obtain ⟨-, -, -, -, -, -, -, -, e', -⟩ := idx_facts t'
    have f := (flush0_4 t).mp hf
    have f' := (flush0_4 t').mp hf'
    omega))

/-- Likewise for the second result. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (Fin.ext (by
    have h0 : win0_5.index t (0 : Fin 2) = win0_5.index t' (0 : Fin 2) := congrFun h (0 : Fin 2)
    obtain ⟨-, -, -, -, -, -, -, -, -, -, e, -⟩ := idx_facts t
    obtain ⟨-, -, -, -, -, -, -, -, -, -, e', -⟩ := idx_facts t'
    have f := (flush0_5 t).mp hf
    have f' := (flush0_5 t').mp hf'
    omega))

/-- After the run, row `p` of row block `t / 16` of the first result is what a point `t` at the last column block
    left in the staging buffer: that point wrote the block back, and no other point's write-back meets it. -/
theorem arrAt4_blk (c : Dev nD) (t : Fin cfg0.N) (ht : t.val % 16 = 15) (p : Fin 1024) :
    ((dat0 V c).arrAt 4 cfg0.N : Vec F S8192x1 .f32) (ix2 ⟨(t.val / 16) * 1024 + p.val, by have := pt_lt t; omega⟩ 0)
      = out4At V c t (ix2 p 0) := by
  have hf : (cfg0.win 4).flush t = true := (flush0_4 t).mpr ht
  obtain ⟨-, -, -, -, -, -, -, -, e0, e1, -⟩ := idx_facts t
  have h := congrFun ((dat0 V c).read_blk_arrAt_eq_flushed 4 disjoint4 cfg0.N t t.isLt hf) (ix2 p 0)
  refine Eq.trans ?_ (h.trans ?_)
  · show (dat0 V c).arrAt 4 cfg0.N _ = (dat0 V c).arrAt 4 cfg0.N (((cfg0.win 4).blk t).view.emb (ix2 p 0))
    congr 1
    funext a; apply Fin.ext
    match a with
    | ⟨0, _⟩ => show (t.val / 16) * 1024 + p.val = win0_4.index t (0 : Fin 2) * 1024 + 1 * p.val; rw [e0]; omega
    | ⟨1, _⟩ => show 0 = win0_4.index t (1 : Fin 2) * 1 + 1 * 0; rw [e1]
  · show (cfg0.win 4).cut (grid0.coords t) ((dat0 V c).after 4 t) (ix2 p 0) = _
    rw [after0_4]
    rfl

/-- The same for the second result. -/
theorem arrAt5_blk (c : Dev nD) (t : Fin cfg0.N) (ht : t.val % 16 = 15) (p : Fin 1024) :
    ((dat0 V c).arrAt 5 cfg0.N : Vec F S8192x1 .f32) (ix2 ⟨(t.val / 16) * 1024 + p.val, by have := pt_lt t; omega⟩ 0)
      = out5At V c t (ix2 p 0) := by
  have hf : (cfg0.win 5).flush t = true := (flush0_5 t).mpr ht
  obtain ⟨-, -, -, -, -, -, -, -, -, -, e0, e1⟩ := idx_facts t
  have h := congrFun ((dat0 V c).read_blk_arrAt_eq_flushed 5 disjoint5 cfg0.N t t.isLt hf) (ix2 p 0)
  refine Eq.trans ?_ (h.trans ?_)
  · show (dat0 V c).arrAt 5 cfg0.N _ = (dat0 V c).arrAt 5 cfg0.N (((cfg0.win 5).blk t).view.emb (ix2 p 0))
    congr 1
    funext a; apply Fin.ext
    match a with
    | ⟨0, _⟩ => show (t.val / 16) * 1024 + p.val = win0_5.index t (0 : Fin 2) * 1024 + 1 * p.val; rw [e0]; omega
    | ⟨1, _⟩ => show 0 = win0_5.index t (1 : Fin 2) * 1 + 1 * 0; rw [e1]
  · show (cfg0.win 5).cut (grid0.coords t) ((dat0 V c).after 5 t) (ix2 p 0) = _
    rw [after0_5]
    rfl

/-- Row `p` of row block `ib` of the first result after the run: what point 16·ib + 15 left. -/
theorem arrAt4_apply (c : Dev nD) (ib : Fin 8) (p : Fin 1024) :
    ((dat0 V c).arrAt 4 cfg0.N : Vec F S8192x1 .f32) (ix2 ⟨ib.val * 1024 + p.val, by omega⟩ 0)
      = out4At V c ⟨16 * ib.val + 15, lastPt_lt ib⟩ (ix2 p 0) :=
  (congrArg (fun r : Fin 8192 => ((dat0 V c).arrAt 4 cfg0.N : Vec F S8192x1 .f32) (ix2 r (0 : Fin 1)))
      (Fin.ext (by show ib.val * 1024 + p.val = (16 * ib.val + 15) / 16 * 1024 + p.val; omega))).trans
    (arrAt4_blk V c ⟨16 * ib.val + 15, lastPt_lt ib⟩ (by show (16 * ib.val + 15) % 16 = 15; omega) p)

/-- Row `p` of row block `ib` of the second result after the run: what point 16·ib + 15 left. -/
theorem arrAt5_apply (c : Dev nD) (ib : Fin 8) (p : Fin 1024) :
    ((dat0 V c).arrAt 5 cfg0.N : Vec F S8192x1 .f32) (ix2 ⟨ib.val * 1024 + p.val, by omega⟩ 0)
      = out5At V c ⟨16 * ib.val + 15, lastPt_lt ib⟩ (ix2 p 0) :=
  (congrArg (fun r : Fin 8192 => ((dat0 V c).arrAt 5 cfg0.N : Vec F S8192x1 .f32) (ix2 r (0 : Fin 1)))
      (Fin.ext (by show ib.val * 1024 + p.val = (16 * ib.val + 15) / 16 * 1024 + p.val; omega))).trans
    (arrAt5_blk V c ⟨16 * ib.val + 15, lastPt_lt ib⟩ (by show (16 * ib.val + 15) % 16 = 15; omega) p)

end Cert.KernelIdeal.Hand

end
-- ==== Proof.KIPay.lean ====
import proofs.«175049_j14310831030886_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The kernel body's values read at an index, at the ideal values

One grid step of the kernel holds a block of 1024 rows and a block of 512 columns.  Each value
the body stores is read here at one coordinate:

* the distance block, `1 - ⟨x p, y q⟩` with the inner product over the 64 features;
* the block maximum of the distances to columns of the same family other than the row itself
  (other columns replaced by the negative fill value), and the block minimum of the distances to
  columns of another family (other columns replaced by the positive fill value);
* the running maximum and minimum that absorb one block after another, and their start values;
* the per-row loss term and the per-row validity indicator computed from the final extrema.
-/

noncomputable section

namespace Cert.KernelIdeal.Pay

open Idealize.ShloMosaic Idealize.SL.Sem Idealize.ShloMosaic.ValueIdx
open Cert.KernelIdeal Cert.KernelIdeal.Gen

/-! ## The product's operand indices, axis by axis

The product contracts axis 1 of both operands; axis 0 of the left operand is the output's row,
axis 0 of the right operand is the output's column. -/

theorem lhsIdx_axis0 (i : S1024x512.Idx) (c : dot_S1024x64_S512x64_S1024x512_1_1_0_0_n_n.contr.Idx) :
    (dot_S1024x64_S512x64_S1024x512_1_1_0_0_n_n.lhsIdx i c 0).val = (i 0).val := by
  unfold DotDims.lhsIdx
  rw [dif_neg (show ¬(0 : Fin S1024x64.rank) ∈ dot_S1024x64_S512x64_S1024x512_1_1_0_0_n_n.lhsBatch by decide),
    dif_pos (show (0 : Fin S1024x64.rank) ∈ dot_S1024x64_S512x64_S1024x512_1_1_0_0_n_n.lhsNonContracting by decide)]
  rfl

theorem lhsIdx_axis1 (i : S1024x512.Idx) (c : dot_S1024x64_S512x64_S1024x512_1_1_0_0_n_n.contr.Idx) :
    (dot_S1024x64_S512x64_S1024x512_1_1_0_0_n_n.lhsIdx i c 1).val = (c ⟨0, by decide⟩).val :=
  dot_S1024x64_S512x64_S1024x512_1_1_0_0_n_n.lhsIdx_val_of_single rfl i c

theorem rhsIdx_axis0 (i : S1024x512.Idx) (c : dot_S1024x64_S512x64_S1024x512_1_1_0_0_n_n.contr.Idx) :
    (dot_S1024x64_S512x64_S1024x512_1_1_0_0_n_n.rhsIdx i c 0).val = (i 1).val := by
  unfold DotDims.rhsIdx
  rw [dif_neg (show ¬(0 : Fin S512x64.rank) ∈ dot_S1024x64_S512x64_S1024x512_1_1_0_0_n_n.rhsBatch by decide),
    dif_pos (show (0 : Fin S512x64.rank) ∈ dot_S1024x64_S512x64_S1024x512_1_1_0_0_n_n.rhsNonContracting by decide)]
  rfl

theorem rhsIdx_axis1 (i : S1024x512.Idx) (c : dot_S1024x64_S512x64_S1024x512_1_1_0_0_n_n.contr.Idx) :
    (dot_S1024x64_S512x64_S1024x512_1_1_0_0_n_n.rhsIdx i c 1).val = (c ⟨0, by decide⟩).val :=
  dot_S1024x64_S512x64_S1024x512_1_1_0_0_n_n.rhsIdx_val_of_single rfl i c

/-- The product into the zero block, read at `(p, q)`: the inner product of row `p` of the left
    operand with row `q` of the right operand. -/
theorem matmul_apply (x : FVec Ideal S1024x64 .f32) (y : FVec Ideal S512x64 .f32) (p : Fin 1024) (q : Fin 512) :
    matmul dot_S1024x64_S512x64_S1024x512_1_1_0_0_n_n none x y (constant (F := Ideal) S1024x512 .f32 0x00000000#32) (ix2 p q)
      = ∑ k : Fin 64, x (ix2 p k) * y (ix2 q k) := by
  simp only [matmul]
  rw [Ideal.matmul_constant_zero_apply, ← Equiv.sum_comp (contrEquiv1 dot_S1024x64_S512x64_S1024x512_1_1_0_0_n_n 64 rfl rfl).symm]
  refine Finset.sum_congr rfl fun k _ => ?_
  have hk := contrEquiv1_symm_val dot_S1024x64_S512x64_S1024x512_1_1_0_0_n_n 64 rfl rfl k
  have el : dot_S1024x64_S512x64_S1024x512_1_1_0_0_n_n.lhsIdx (ix2 p q) ((contrEquiv1 dot_S1024x64_S512x64_S1024x512_1_1_0_0_n_n 64 rfl rfl).symm k) = ix2 p k :=
    funext fun a => Fin.ext (by
      match a with
      | ⟨0, _⟩ => exact lhsIdx_axis0 _ _
      | ⟨1, _⟩ => exact (lhsIdx_axis1 _ _).trans hk)
  have er : dot_S1024x64_S512x64_S1024x512_1_1_0_0_n_n.rhsIdx (ix2 p q) ((contrEquiv1 dot_S1024x64_S512x64_S1024x512_1_1_0_0_n_n 64 rfl rfl).symm k) = ix2 q k :=
    funext fun a => Fin.ext (by
      match a with
      | ⟨0, _⟩ => exact rhsIdx_axis0 _ _
      | ⟨1, _⟩ => exact (rhsIdx_axis1 _ _).trans hk)
  rw [el, er]

/-- The distance block at `(p, q)`: one minus the inner product of the two rows. -/
theorem dist_apply (x : Vec Ideal S1024x64 .f32) (y : Vec Ideal S512x64 .f32) (p : Fin 1024) (q : Fin 512) :
    (k0_pay8 (F := Ideal) x y) (ix2 p q)
      = Ideal.ofBits .f32 0x3F800000#32 - ∑ k : Fin 64, x (ix2 p k) * y (ix2 q k) := by
  unfold k0_pay8
  simp only [shapeCast_self]
  rw [subf_apply, broadcast_apply, matmul_apply]
  rfl

/-! ## Layout operations on a column -/

/-- A length-`a` vector viewed as an `a × 1` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two infinities as start values of a lane reduction -/

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

/-- The index over row `p` with lane coordinate `q` is `(p, q)`. -/
theorem lift_row (h : S1024x512.Reduces [1] S1024) (p : Fin 1024) (q : Fin 512) :
    h.lift (ix1 p) q = ix2 p q :=
  funext fun c => Fin.ext (by
    match c with
    | ⟨0, _⟩ => rfl
    | ⟨1, _⟩ => rfl)

/-- A lane maximum from `-∞` over the 512 columns, read at row `p`, is the supremum of the row. -/
theorem rowMax_apply (src : FVec Ideal S1024x512 .f32) (h : S1024x512.Reduces [1] S1024) (hφ : FKind.Formats .f32)
    (hacc : (0xFF800000#32 : BitVec 32) = FKind.maximumf.neutral .f32 hφ) (p : Fin 1024) :
    multiReduction .maximumf [1] S1024 src 0xFF800000#32 h hφ hacc (ix1 p)
      = Finset.univ.sup (fun q : Fin 512 => src (ix2 p q)) := by
  refine (Ideal.multiReduction_maximumf_single src 0xFF800000#32 h hφ hacc (ix1 p)).trans ?_
  show (Finset.univ : Finset (Fin 512)).fold max (Ideal.ofBits .f32 0xFF800000#32)
      (fun q => src (h.lift (ix1 p) q)) = _
  rw [ofBits_neg_inf]
  have e : (fun q : Fin 512 => src (h.lift (ix1 p) q)) = fun q => src (ix2 p q) :=
    funext fun q => congrArg src (lift_row h p q)
  exact (congrArg (fun f => Finset.fold max ⊥ f (Finset.univ : Finset (Fin 512))) e).trans rfl

/-- A lane minimum from `+∞` over the 512 columns, read at row `p`, is the infimum of the row. -/
theorem rowMin_apply (src : FVec Ideal S1024x512 .f32) (h : S1024x512.Reduces [1] S1024) (hφ : FKind.Formats .f32)
    (hacc : (0x7F800000#32 : BitVec 32) = FKind.minimumf.neutral .f32 hφ) (p : Fin 1024) :
    multiReduction .minimumf [1] S1024 src 0x7F800000#32 h hφ hacc (ix1 p)
      = Finset.univ.inf (fun q : Fin 512 => src (ix2 p q)) := by
  refine (multiReduction_minimumf_eq_fold src 0x7F800000#32 h hφ hacc (ix1 p)).trans ?_
  refine (h.fold_filter_drop_single _ _ src (ix1 p)).trans ?_
  show (Finset.univ : Finset (Fin 512)).fold min (Ideal.ofBits .f32 0x7F800000#32)
      (fun q => src (h.lift (ix1 p) q)) = _
  rw [ofBits_pos_inf]
  have e : (fun q : Fin 512 => src (h.lift (ix1 p) q)) = fun q => src (ix2 p q) :=
    funext fun q => congrArg src (lift_row h p q)
  exact (congrArg (fun f => Finset.fold min ⊤ f (Finset.univ : Finset (Fin 512))) e).trans rfl

/-! ## The masks -/

/-- The row's global index as the body computes it: block offset plus the coordinate, in 32-bit words. -/
def rowId (i : grid0.Coords) (p : Fin 1024) : BitVec 32 :=
  IntOp.addi (Scalar.muli (BitVec.ofNat 32 (i 0).val) 1024#32) (BitVec.ofNat 32 p.val)

/-- The column's global index as the body computes it. -/
def colId (i : grid0.Coords) (q : Fin 512) : BitVec 32 :=
  IntOp.addi (Scalar.muli (BitVec.ofNat 32 (i 1).val) 512#32) (BitVec.ofNat 32 q.val)

/-- Below `2^32` the word equation is the equation of the naturals. -/
theorem rowId_eq_colId_iff (i : grid0.Coords) (p : Fin 1024) (q : Fin 512) (h0 : (i 0).val < 8) (h1 : (i 1).val < 16) :
    rowId i p = colId i q ↔ (i 0).val * 1024 + p.val = (i 1).val * 512 + q.val := by
  have hp := p.isLt
  have hq := q.isLt
  unfold rowId colId Scalar.muli IntOp.muli IntOp.addi
  rw [← BitVec.toNat_inj]
  simp only [BitVec.toNat_add, BitVec.toNat_mul, BitVec.toNat_ofNat]
  omega

/-- A one-bit word made from a truth value is set exactly when the value is true. -/
theorem ofBool_eq_one (s : Bool) : BitVec.ofBool s = 1#1 ↔ s = true := by
  cases s <;> decide

/-- On one-bit words, `s ∧ ¬t` is set exactly when `s` is true and `t` is false. -/
theorem bit_and_not (s t : Bool) :
    BitVec.ofBool s &&& (BitVec.ofBool t ^^^ 1#1) = 1#1 ↔ (s = true ∧ t = false) := by
  cases s <;> cases t <;> decide

/-- "Equal families and not the same row": the conjunction of an equality test with a negated
    equality test is set exactly when the first holds and the second does not. -/
theorem sameMask_iff (x y r c : BitVec 32) :
    IntOp.andi (IntOp.cmpi .eq x y) (IntOp.xori (IntOp.cmpi .eq r c) 1#1) = 1#1 ↔ (x = y ∧ ¬ r = c) := by
  unfold IntOp.andi IntOp.xori IntOp.cmpi
  rw [bit_and_not]
  simp

theorem diffMask_iff (x y : BitVec 32) : IntOp.cmpi .ne x y = 1#1 ↔ x ≠ y := by
  unfold IntOp.cmpi
  rw [ofBool_eq_one]
  simp

/-! ## The block extrema -/

/-- The block maximum at row `p`: the supremum over the block's columns of the distance where the
    column has the row's family and is not the row itself, the negative fill value elsewhere. -/
theorem blockMax_apply (i : grid0.Coords) (x : Vec Ideal S1024x64 .f32) (y : Vec Ideal S512x64 .f32)
    (a : Vec Ideal S1024x1 .i32) (b : Vec Ideal S1x512 .i32) (p : Fin 1024) :
    (k0_pay11 (F := Ideal) i x y a b) (ix2 p (0 : Fin 1))
      = Finset.univ.sup (fun q : Fin 512 =>
          if (a (ix2 p (0 : Fin 1)) = b (ix2 (0 : Fin 1) q) ∧ ¬ rowId i p = colId i q)
          then (k0_pay8 (F := Ideal) x y) (ix2 p q) else Ideal.ofBits .f32 0xCE6E6B28#32) := by
  unfold k0_pay11
  dsimp only
  refine (shapeCast_a_a1_apply _ _ p (0 : Fin 1)).trans ?_
  refine (rowMax_apply _ _ _ _ p).trans ?_
  refine congrArg (Finset.sup Finset.univ) (funext fun q => ?_)
  rw [select_apply]
  refine if_congr ?_ rfl rfl
  refine Iff.trans ?_ (sameMask_iff _ _ _ _)
  unfold k0_pay9 k0_pay10
  simp only [shapeCast_self]
  have hr : iota .tc S1024x512 32 [0] iota_S1024x512_d0_w32 (ix2 p q) = BitVec.ofNat 32 p.val :=
    iota_single_apply .tc S1024x512 32 0 _ (ix2 p q)
  have hc : iota .tc S1024x512 32 [1] iota_S1024x512_d1_w32 (ix2 p q) = BitVec.ofNat 32 q.val :=
    iota_single_apply .tc S1024x512 32 1 _ (ix2 p q)
  unfold rowId colId
  rw [← broadcastTo_a1_ab_apply a broadcasts_S1024x1_S1024x512 p q,
    ← broadcastTo_1b_ab_apply b broadcasts_S1x512_S1024x512 p q, ← hr, ← hc]
  rfl

/-- The block minimum at row `p`: the infimum over the block's columns of the distance where the
    column has another family, the positive fill value elsewhere. -/
theorem blockMin_apply (x : Vec Ideal S1024x64 .f32) (y : Vec Ideal S512x64 .f32)
    (a : Vec Ideal S1024x1 .i32) (b : Vec Ideal S1x512 .i32) (p : Fin 1024) :
    (k0_pay12 (F := Ideal) x y a b) (ix1 p)
      = Finset.univ.inf (fun q : Fin 512 =>
          if a (ix2 p (0 : Fin 1)) ≠ b (ix2 (0 : Fin 1) q)
          then (k0_pay8 (F := Ideal) x y) (ix2 p q) else Ideal.ofBits .f32 0x4E6E6B28#32) := by
  unfold k0_pay12
  dsimp only
  refine (rowMin_apply _ _ _ _ p).trans ?_
  refine congrArg (Finset.inf Finset.univ) (funext fun q => ?_)
  rw [select_apply]
  refine if_congr ?_ rfl rfl
  refine Iff.trans ?_ (diffMask_iff _ _)
  unfold k0_pay9 k0_pay10
  simp only [shapeCast_self]
  rw [← broadcastTo_a1_ab_apply a broadcasts_S1024x1_S1024x512 p q,
    ← broadcastTo_1b_ab_apply b broadcasts_S1x512_S1024x512 p q]
  rfl

/-! ## The running extrema and their start values -/

/-- The running maximum absorbs a block maximum. -/
theorem runMax_apply (v : FVec Ideal S1024x1 .f32) (prev : Vec Ideal S1024x1 .f32) (p : Fin 1024) :
    (k0_pay1 (F := Ideal) v prev) (ix2 p (0 : Fin 1))
      = max (prev (ix2 p (0 : Fin 1))) (v (ix2 p (0 : Fin 1))) := by
  unfold k0_pay1
  simp only [shapeCast_self]
  rfl

/-- The running minimum absorbs a block minimum. -/
theorem runMin_apply (v : FVec Ideal S1024 .f32) (prev : Vec Ideal S1024x1 .f32) (p : Fin 1024) :
    (k0_pay2 (F := Ideal) v prev) (ix2 p (0 : Fin 1))
      = min (prev (ix2 p (0 : Fin 1))) (v (ix1 p)) := by
  unfold k0_pay2
  simp only [shapeCast_self]
  rw [minimumf_apply, shapeCast_a_a1_apply]

/-- The running maximum starts at the negative fill value. -/
theorem startMax_apply (p : Fin 1024) :
    (k0_pay6 (F := Ideal)) (ix2 p (0 : Fin 1)) = Ideal.ofBits .f32 0xCE6E6B28#32 := by
  unfold k0_pay6
  simp only [shapeCast_self]
  rfl

/-- The running minimum starts at the positive fill value. -/
theorem startMin_apply (p : Fin 1024) :
    (k0_pay7 (F := Ideal)) (ix2 p (0 : Fin 1)) = Ideal.ofBits .f32 0x4E6E6B28#32 := by
  unfold k0_pay7
  simp only [shapeCast_self]
  rfl

/-! ## The outputs -/

/-- On one-bit words, `s ∧ t` is set exactly when both are true. -/
theorem bit_and (s t : Bool) : BitVec.ofBool s &&& BitVec.ofBool t = 1#1 ↔ (s = true ∧ t = true) := by
  cases s <;> cases t <;> decide

/-- The validity bit of a row: its maximum is above the lower threshold and its minimum below the
    upper threshold. -/
theorem validMask_iff (dp dn : Vec Ideal S1024x1 .f32) (j : S1024x1.Idx) :
    (k0_pay3 (F := Ideal) dp dn) j = 1#1
      ↔ (Ideal.ofBits .f32 0xCDEE6B28#32 < dp j ∧ dn j < Ideal.ofBits .f32 0x4DEE6B28#32) := by
  unfold k0_pay3
  show BitVec.ofBool (decide (Ideal.ofBits .f32 0xCDEE6B28#32 < dp j))
      &&& BitVec.ofBool (decide (dn j < Ideal.ofBits .f32 0x4DEE6B28#32)) = 1#1 ↔ _
  rw [bit_and]
  simp only [decide_eq_true_eq]

/-- The per-row loss term: on a valid row the hinge `max (dpos - dneg + margin) 0`, else zero. -/
theorem loss_apply (dp dn : Vec Ideal S1024x1 .f32) (p : Fin 1024) :
    (k0_pay4 (F := Ideal) dp dn) (ix2 p (0 : Fin 1))
      = if (Ideal.ofBits .f32 0xCDEE6B28#32 < dp (ix2 p (0 : Fin 1))
            ∧ dn (ix2 p (0 : Fin 1)) < Ideal.ofBits .f32 0x4DEE6B28#32)
        then max (dp (ix2 p (0 : Fin 1)) - dn (ix2 p (0 : Fin 1)) + Ideal.ofBits .f32 0x3E99999A#32)
          (Ideal.ofBits .f32 0x00000000#32)
        else Ideal.ofBits .f32 0x00000000#32 := by
  unfold k0_pay4
  exact if_congr (validMask_iff dp dn _) rfl rfl

/-- The per-row validity indicator: the validity bit read as an integer, exactly `1` or `0`. -/
theorem valid_apply (dp dn : Vec Ideal S1024x1 .f32) (p : Fin 1024) :
    (k0_pay5 (F := Ideal) dp dn) (ix2 p (0 : Fin 1))
      = if (Ideal.ofBits .f32 0xCDEE6B28#32 < dp (ix2 p (0 : Fin 1))
            ∧ dn (ix2 p (0 : Fin 1)) < Ideal.ofBits .f32 0x4DEE6B28#32)
        then (1 : EReal) else 0 := by
  have h1 : ((1#1 : BitVec 1).setWidth 32).toInt = 1 := by decide
  have h0 : ((0#1 : BitVec 1).setWidth 32).toInt = 0 := by decide
  unfold k0_pay5
  show (((((k0_pay3 (F := Ideal) dp dn) (ix2 p (0 : Fin 1))).setWidth 32).toInt : ℝ) : EReal) = _
  by_cases h : (Ideal.ofBits .f32 0xCDEE6B28#32 < dp (ix2 p (0 : Fin 1))
      ∧ dn (ix2 p (0 : Fin 1)) < Ideal.ofBits .f32 0x4DEE6B28#32)
  · rw [if_pos h, (validMask_iff dp dn _).mpr h, h1, Int.cast_one, EReal.coe_one]
  · rw [if_neg h, eq_zero_of_ne_one (mt (validMask_iff dp dn _).mp h), h0, Int.cast_zero, EReal.coe_zero]

end Cert.KernelIdeal.Pay

end
-- ==== Proof.SpecBound.lean ====
import Mathlib.Data.EReal.Basic
import Mathlib.Data.EReal.Operations
import Mathlib.Order.CompleteLattice.Finset
import Mathlib.Data.Finset.Lattice.Fold
import Mathlib.Data.Finset.Fold
import Mathlib.Data.Finset.Range
import Mathlib.Data.Fintype.Prod
import Mathlib.Data.Fintype.Card
import Mathlib.Algebra.BigOperators.Group.Finset.Basic
import Mathlib.Algebra.Order.BigOperators.Group.Finset
import Mathlib.Logic.Equiv.Defs

/-!
# The mathematics of a batch-hard triplet loss computed block by block

Rows `i` of a matrix of unit-bounded entries have distances `dist i j = 1 - ⟨en i, en j⟩`.
For each row one takes the largest distance to a row of the same family (other than itself) and
the smallest distance to a row of a different family; entries that do not qualify are replaced
by a large negative (resp. positive) fill value.

Two ways of computing these extrema agree:

* one maximum (minimum) over all columns, starting from `⊥` (`⊤`);
* a running maximum (minimum) that starts at the fill value and absorbs the maximum (minimum)
  of one block of columns after another.

They agree because the fill value already occurs among the entries of every row (the diagonal
column qualifies for neither family test), so starting from it changes nothing, and because a
maximum over a product of two finite index sets is the maximum of the block maxima.

Whether a row has a qualifying column at all can be read off the extremum: every distance is a
real in `[-63, 65]`, far from the fill values, so the maximum exceeds a threshold between the
two exactly when some column qualifies.
-/

open scoped BigOperators

namespace Cert.SpecMath

/-! ## Distances are reals in `[-63, 65]` -/

/-- The coercion of a finite sum of reals into the extended reals is the sum of the coercions. -/
theorem coe_finset_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A sum of `n` products of unit-bounded reals has absolute value at most `n`. -/
theorem abs_sum_mul_le_card {κ : Type*} [Fintype κ] (a b : κ → ℝ) (ha : ∀ k, |a k| ≤ 1)
    (hb : ∀ k, |b k| ≤ 1) : |∑ k, a k * b k| ≤ (Fintype.card κ : ℝ) := by
  calc |∑ k, a k * b k| ≤ ∑ k, |a k * b k| := Finset.abs_sum_le_sum_abs _ _
    _ ≤ ∑ _k : κ, (1 : ℝ) := by
        apply Finset.sum_le_sum
        intro k _
        rw [abs_mul]
        exact mul_le_one₀ (ha k) (abs_nonneg _) (hb k)
    _ = (Fintype.card κ : ℝ) := by simp

/-- With 64 unit-bounded features, `1 - ⟨en i, en j⟩` is a real in `[-63, 65]`. -/
theorem dist_mem_Icc {ι κ : Type} [Fintype κ] (hκ : Fintype.card κ = 64) (en : ι → κ → EReal)
    (hen : ∀ i k, ∃ r : ℝ, |r| ≤ 1 ∧ en i k = (r : EReal)) (i j : ι) :
    ∃ r : ℝ, -63 ≤ r ∧ r ≤ 65 ∧ (1 : EReal) - ∑ k, en i k * en j k = (r : EReal) := by
  choose f hf1 hf using hen
  have hsum : (∑ k, en i k * en j k) = ((∑ k, f i k * f j k : ℝ) : EReal) := by
    rw [coe_finset_sum]
    exact Finset.sum_congr rfl (fun k _ => by rw [hf i k, hf j k, EReal.coe_mul])
  have hb : |∑ k, f i k * f j k| ≤ 64 := by
    have := abs_sum_mul_le_card (f i) (f j) (hf1 i) (hf1 j)
    rw [hκ] at this
    exact_mod_cast this
  obtain ⟨hlo, hhi⟩ := abs_le.mp hb
  refine ⟨1 - ∑ k, f i k * f j k, by linarith, by linarith, ?_⟩
  rw [hsum, EReal.coe_sub, EReal.coe_one]

/-! ## Folds, running accumulators, blocks, and absorbing the start value -/

/-- A maximum-fold from `⊥` is the finite supremum. -/
theorem fold_max_eq_sup {α : Type*} (s : Finset α) (f : α → EReal) :
    s.fold max ⊥ f = s.sup f := rfl

/-- A minimum-fold from `⊤` is the finite infimum. -/
theorem fold_min_eq_inf {α : Type*} (s : Finset α) (f : α → EReal) :
    s.fold min ⊤ f = s.inf f := rfl

/-- A running maximum that starts at `max init (B 0)` and absorbs `B 1, …, B n` is
    `max init (B 0 ⊔ … ⊔ B n)`. -/
theorem acc_max_eq (init : EReal) (B : ℕ → EReal) : ∀ n,
    (Nat.rec (max init (B 0)) (fun n a => max a (B (n + 1))) n : EReal)
      = max init ((Finset.range (n + 1)).sup B) := by
  intro n
  induction n with
  | zero => simp
  | succ n ih =>
    show max (Nat.rec (max init (B 0)) (fun n a => max a (B (n + 1))) n : EReal) (B (n + 1)) = _
    rw [ih, Finset.range_add_one (n := n + 1), Finset.sup_insert, max_assoc, max_comm (B (n + 1))]

/-- A running minimum that starts at `min init (B 0)` and absorbs `B 1, …, B n` is
    `min init (B 0 ⊓ … ⊓ B n)`. -/
theorem acc_min_eq (init : EReal) (B : ℕ → EReal) : ∀ n,
    (Nat.rec (min init (B 0)) (fun n a => min a (B (n + 1))) n : EReal)
      = min init ((Finset.range (n + 1)).inf B) := by
  intro n
  induction n with
  | zero => simp
  | succ n ih =>
    show min (Nat.rec (min init (B 0)) (fun n a => min a (B (n + 1))) n : EReal) (B (n + 1)) = _
    rw [ih, Finset.range_add_one (n := n + 1), Finset.inf_insert, min_assoc, min_comm (B (n + 1))]

/-- The supremum over an index set cut into blocks is the supremum of the block suprema. -/
theorem sup_blocks {β γ ι : Type} [Fintype β] [Fintype γ] [Fintype ι] (e : β × γ ≃ ι)
    (w : ι → EReal) :
    (Finset.univ.sup fun b => Finset.univ.sup fun g => w (e (b, g))) = Finset.univ.sup w := by
  apply le_antisymm
  · refine Finset.sup_le fun b _ => Finset.sup_le fun g _ => ?_
    exact Finset.le_sup (f := w) (Finset.mem_univ _)
  · refine Finset.sup_le fun j _ => ?_
    obtain ⟨⟨b, g⟩, rfl⟩ := e.surjective j
    exact le_trans (Finset.le_sup (f := fun g => w (e (b, g))) (Finset.mem_univ g))
      (Finset.le_sup (f := fun b => Finset.univ.sup fun g => w (e (b, g))) (Finset.mem_univ b))

/-- The infimum over an index set cut into blocks is the infimum of the block infima. -/
theorem inf_blocks {β γ ι : Type} [Fintype β] [Fintype γ] [Fintype ι] (e : β × γ ≃ ι)
    (w : ι → EReal) :
    (Finset.univ.inf fun b => Finset.univ.inf fun g => w (e (b, g))) = Finset.univ.inf w := by
  apply le_antisymm
  · refine Finset.le_inf fun j _ => ?_
    obtain ⟨⟨b, g⟩, rfl⟩ := e.surjective j
    exact le_trans (Finset.inf_le (f := fun b => Finset.univ.inf fun g => w (e (b, g))) (Finset.mem_univ b))
      (Finset.inf_le (f := fun g => w (e (b, g))) (Finset.mem_univ g))
  · refine Finset.le_inf fun b _ => Finset.le_inf fun g _ => ?_
    exact Finset.inf_le (f := w) (Finset.mem_univ _)

/-- A start value that already occurs among the entries does not change their supremum. -/
theorem sup_absorb {ι : Type*} [Fintype ι] (w : ι → EReal) (init : EReal) (h : ∃ j, w j = init) :
    max init (Finset.univ.sup w) = Finset.univ.sup w := by
  obtain ⟨j, rfl⟩ := h
  exact max_eq_right (Finset.le_sup (f := w) (Finset.mem_univ j))

/-- A start value that already occurs among the entries does not change their infimum. -/
theorem inf_absorb {ι : Type*} [Fintype ι] (w : ι → EReal) (init : EReal) (h : ∃ j, w j = init) :
    min init (Finset.univ.inf w) = Finset.univ.inf w := by
  obtain ⟨j, rfl⟩ := h
  exact min_eq_right (Finset.inf_le (f := w) (Finset.mem_univ j))

/-! ## Reading validity off the extremum -/

/-- If every genuine entry exceeds the threshold `LO` and the fill value does not, the supremum
    of the filled row exceeds `LO` exactly when some column is genuine. -/
theorem sup_wpos_gt_iff {ι : Type*} [Fintype ι] (p : ι → Prop) [DecidablePred p] (d : ι → EReal)
    (NEG LO : EReal) (hN : NEG ≤ LO) (hd : ∀ j, LO < d j) :
    LO < Finset.univ.sup (fun j => if p j then d j else NEG) ↔ ∃ j, p j := by
  rw [Finset.lt_sup_iff]
  constructor
  · rintro ⟨j, _, hj⟩
    by_cases hp : p j
    · exact ⟨j, hp⟩
    · rw [if_neg hp] at hj
      exact absurd (lt_of_lt_of_le hj hN) (lt_irrefl _)
  · rintro ⟨j, hp⟩
    exact ⟨j, Finset.mem_univ j, by rw [if_pos hp]; exact hd j⟩

/-- If every genuine entry is below the threshold `HI` and the fill value is not, the infimum
    of the filled row is below `HI` exactly when some column is genuine. -/
theorem inf_wneg_lt_iff {ι : Type*} [Fintype ι] (p : ι → Prop) [DecidablePred p] (d : ι → EReal)
    (POS HI : EReal) (hP : HI ≤ POS) (hd : ∀ j, d j < HI) :
    Finset.univ.inf (fun j => if p j then d j else POS) < HI ↔ ∃ j, p j := by
  rw [Finset.inf_lt_iff]
  constructor
  · rintro ⟨j, _, hj⟩
    by_cases hp : p j
    · exact ⟨j, hp⟩
    · rw [if_neg hp] at hj
      exact absurd (lt_of_le_of_lt hP hj) (lt_irrefl _)
  · rintro ⟨j, hp⟩
    exact ⟨j, Finset.mem_univ j, by rw [if_pos hp]; exact hd j⟩

end Cert.SpecMath
-- ==== Proof.Spec.lean ====
/-
  The batch-hard triplet loss as ONE function of the family labels and the normalised embeddings, in the two forms the
  two programs compute it, and their agreement.

  For rows i, j: dist i j = one - ∑ k, en i k * en j k. Column j is a positive for row i when it is of i's family and
  j ≠ i, a negative when it is of another family. dpos i is the largest distance to a positive (the low fill where a
  column is not one), dneg i the smallest distance to a negative (the high fill elsewhere). A row counts when it has
  a positive and a negative; its loss is max (dpos i - dneg i + margin) 0; the result is the sum of the losses over
  the larger of the count and one.

  The reference decides whether a row counts by looking for a positive and a negative column. The kernel decides it
  by comparing dpos i and dneg i with thresholds half way to the fills. Every entry of en is a real of absolute value
  at most one, so every distance is a real in [-63, 65], and the two tests agree.
-/
import proofs.«175049_j14310831030886_1_alg».proof.Proof.SpecBound
import Mathlib.Data.Fintype.Fin

noncomputable section

open scoped BigOperators

namespace Cert.Spec

variable {ι κ : Type} [Fintype ι] [DecidableEq ι] [Fintype κ]
variable (fam : ι → BitVec 32) (en : ι → κ → EReal)
/- The certificate's float constants, as extended reals: one, the low and high fills, the two thresholds, the
   margin and zero. -/
variable (one neg pos lo hi margin zero : EReal)

/-- The cosine distance of rows `i` and `j`. -/
def dist (i j : ι) : EReal := one - ∑ k, en i k * en j k

/-- Column `j` is a positive for row `i`. -/
abbrev IsPos (i j : ι) : Prop := fam i = fam j ∧ i ≠ j
/-- Column `j` is a negative for row `i`. -/
abbrev IsNeg (i j : ι) : Prop := fam i ≠ fam j

/-- Row `i`'s entries for the hardest positive: the distance at a positive, the low fill elsewhere. -/
def wpos (i j : ι) : EReal := if IsPos fam i j then dist en one i j else neg
/-- Row `i`'s entries for the hardest negative: the distance at a negative, the high fill elsewhere. -/
def wneg (i j : ι) : EReal := if IsNeg fam i j then dist en one i j else pos

/-- The hardest positive of row `i`. -/
def dpos (i : ι) : EReal := Finset.univ.sup (wpos fam en one neg i)
/-- The hardest negative of row `i`. -/
def dneg (i : ι) : EReal := Finset.univ.inf (wneg fam en one pos i)

/-- Row `i` has a positive and a negative column. -/
def Counts (i : ι) : Prop := (∃ j, IsPos fam i j) ∧ (∃ j, IsNeg fam i j)
/-- The kernel's test: the hardest positive above the low threshold, the hardest negative below the high one. -/
def CountsThr (i : ι) : Prop := lo < dpos fam en one neg i ∧ dneg fam en one pos i < hi

instance (i : ι) : Decidable (Counts fam i) := by unfold Counts; infer_instance
instance (i : ι) : Decidable (CountsThr fam en one neg pos lo hi i) := by unfold CountsThr; infer_instance

/-- The loss of a row that counts (`v`), zero of one that does not. -/
def rowLoss (v : Prop) [Decidable v] (i : ι) : EReal :=
  if v then max (dpos fam en one neg i - dneg fam en one pos i + margin) zero else zero

/-- The diagonal column is neither a positive nor a negative: the fills are among every row's entries. -/
theorem wpos_diag (i : ι) : wpos fam en one neg i i = neg := by
  unfold wpos; exact if_neg (fun h => h.2 rfl)
theorem wneg_diag (i : ι) : wneg fam en one pos i i = pos := by
  unfold wneg; exact if_neg (fun h => h rfl)

/-- A running maximum that starts at the low fill and absorbs, block after block, the maxima of sixteen blocks that
    together are all the columns, ends at the hardest positive. -/
theorem acc_blocks_eq_dpos {γ : Type} [Fintype γ] (e : Fin 16 × γ ≃ ι) (i : ι) (B : ℕ → EReal)
    (hB : ∀ b : Fin 16, B b.val = Finset.univ.sup fun g : γ => wpos fam en one neg i (e (b, g))) :
    (Nat.rec (max neg (B 0)) (fun n a => max a (B (n + 1))) 15 : EReal) = dpos fam en one neg i := by
  rw [Cert.SpecMath.acc_max_eq]
  have h16 : (Finset.range (15 + 1)).sup B = Finset.univ.sup fun b : Fin 16 => B b.val :=
    (Finset.sup_fin_univ (n := 16) B).symm
  rw [h16]
  simp only [hB]
  rw [Cert.SpecMath.sup_blocks e (wpos fam en one neg i)]
  exact Cert.SpecMath.sup_absorb _ _ ⟨i, wpos_diag fam en one neg i⟩

/-- The same of the running minimum from the high fill. -/
theorem acc_blocks_eq_dneg {γ : Type} [Fintype γ] (e : Fin 16 × γ ≃ ι) (i : ι) (B : ℕ → EReal)
    (hB : ∀ b : Fin 16, B b.val = Finset.univ.inf fun g : γ => wneg fam en one pos i (e (b, g))) :
    (Nat.rec (min pos (B 0)) (fun n a => min a (B (n + 1))) 15 : EReal) = dneg fam en one pos i := by
  rw [Cert.SpecMath.acc_min_eq]
  have h16 : (Finset.range (15 + 1)).inf B = Finset.univ.inf fun b : Fin 16 => B b.val := by
    rw [← Finset.image_fin_univ, Finset.inf_image]; rfl
  rw [h16]
  simp only [hB]
  rw [Cert.SpecMath.inf_blocks e (wneg fam en one pos i)]
  exact Cert.SpecMath.inf_absorb _ _ ⟨i, wneg_diag fam en one pos i⟩

/-- With unit-bounded entries and the certificate's constants, the threshold test is the column test. -/
theorem countsThr_iff (hκ : Fintype.card κ = 64) (hen : ∀ i k, ∃ r : ℝ, |r| ≤ 1 ∧ en i k = (r : EReal))
    (hone : one = 1) (hneg : neg = ((-1000000000 : ℝ) : EReal)) (hpos : pos = ((1000000000 : ℝ) : EReal))
    (hlo : lo = ((-500000000 : ℝ) : EReal)) (hhi : hi = ((500000000 : ℝ) : EReal)) (i : ι) :
    CountsThr fam en one neg pos lo hi i ↔ Counts fam i := by
  have hd : ∀ j, lo < dist en one i j ∧ dist en one i j < hi := fun j => by
    obtain ⟨r, h1, h2, hr⟩ := Cert.SpecMath.dist_mem_Icc hκ en hen i j
    unfold dist; rw [hone, hr, hlo, hhi]
    exact ⟨EReal.coe_lt_coe_iff.mpr (by linarith), EReal.coe_lt_coe_iff.mpr (by linarith)⟩
  unfold CountsThr Counts dpos dneg wpos wneg
  rw [Cert.SpecMath.sup_wpos_gt_iff (IsPos fam i) (dist en one i) neg lo
        (by rw [hneg, hlo]; exact EReal.coe_le_coe_iff.mpr (by norm_num)) (fun j => (hd j).1),
      Cert.SpecMath.inf_wneg_lt_iff (IsNeg fam i) (dist en one i) pos hi
        (by rw [hpos, hhi]; exact EReal.coe_le_coe_iff.mpr (by norm_num)) (fun j => (hd j).2)]

end Cert.Spec

end
-- ==== Proof.KIHost.lean ====
/-
  The host stretches of the program read as pure terms, at the ideal float values.

  Before the pallas_call: the family of each row is the six-entry table looked up at the row's label, the label
  wrapped by six when negative, rows whose wrapped label is outside 0..5 getting the least integer; the
  normalised embeddings are each row divided by the larger of its Euclidean norm and a small positive constant;
  the pallas_call reads the families once as a column and once as a row. After it: the program's result is the
  sum of the first result column divided by the larger of the sum of the second and one.
-/
import proofs.«175049_j14310831030886_1_alg».proof.Proof.KIVals
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe
open Idealize.SL Idealize.SL.Sem
open Cert.KernelIdeal Cert.KernelIdeal.Gen
open Idealize.ShloMosaic.ValueIdx
open scoped BigOperators

/-! ## The family lookup -/

/-- The six-entry family table. -/
def famTab : IVec S6 32 := fun i => lit0 (S6.rowMajor i)

/-- The label wrapped: six added where it is negative. -/
def famIdx (lab : IVec S8192 32) : IVec S8192 32 :=
  select (cmpi .slt lab (broadcastInDim S8192 ![] bcast_S_S8192 (constantI S_ 32 0#32)))
    (addi lab (broadcastInDim S8192 ![] bcast_S_S8192 (constantI S_ 32 6#32))) lab

/-- The wrapped label as a column. -/
def famCol (lab : IVec S8192 32) : IVec S8192x1 32 :=
  broadcastInDim S8192x1 ![0] bcast_S8192_S8192x1_0 (famIdx lab)

/-- Whether the wrapped label lies in 0..5. -/
def famOk (lab : IVec S8192 32) : IVec S8192 1 :=
  Host.reduce IntOp.andi
    (andi (cmpi .sge (famCol lab) (broadcastInDim S8192x1 ![] bcast_S_S8192x1 (constantI S_ 32 0#32)))
      (cmpi .sle (famCol lab) (broadcastInDim S8192x1 ![0, 1] bcast_S1x1_S8192x1_0_1
        (broadcastInDim S1x1 ![1] bcast_S1_S1x1_1 (constantI S1 32 5#32)))))
    (constantI S_ 1 1#1) reducesTo_S8192x1_S8192_d1 h_S_

/-- The family of each row: the table at the wrapped label where that is in range, the least integer elsewhere. -/
def famOf (lab : IVec S8192 32) : IVec S8192 32 :=
  select (famOk lab) (Host.gather gather_S6_S8192x1_S8192_n_0_n_n_0_1_1 famTab (famCol lab))
    (broadcastInDim S8192 ![] bcast_S_S8192 (constantI S_ 32 2147483648#32))

/-! ## The stretches at any float values -/

section Floats

variable {F : FTy → Type} [FloatOps F]

/-- Each row divided by the larger of its norm and the small constant, at any float values. -/
def enOfF (x : FVec F S8192x64 .f32) : FVec F S8192x64 .f32 :=
  Host.divf x (broadcastInDim S8192x64 ![0, 1] bcast_S8192x1_S8192x64_0_1
    (maximumf
      (Host.sqrt (broadcastInDim S8192x1 ![0] bcast_S8192_S8192x1_0
        (Host.reduceAdd (mulf x x) (constant (F := F) S_ .f32 0x00000000#32) reducesTo_S8192x64_S8192_d1 h_S_)))
      (broadcastInDim S8192x1 ![] bcast_S_S8192x1 (constant (F := F) S_ .f32 0x2B8CBCCC#32))))

/-- The end of the program from the two result columns: the sum of the first over the larger of the sum of the second and one. -/
def tailOfF (x0 x1 : FVec F S8192x1 .f32) : FVec F S_ .f32 :=
  Host.divf (Host.reduceAdd x0 (constant (F := F) S_ .f32 0x00000000#32) reducesTo_S8192x1_S_d0_1 h_S_)
    (maximumf (Host.reduceAdd x1 (constant (F := F) S_ .f32 0x00000000#32) reducesTo_S8192x1_S_d0_1 h_S_)
      (constant (F := F) S_ .f32 0x3F800000#32))

variable (m : (ℓ : Loc nD τ sig) → Buf (Elt F) ℓ)

/-- The families the pallas_call is entered with are the lookup of the labels at launch. -/
theorem W4_v0F (c : Dev nD) : W4 m c main_v0 = famOf (m ((c : Thread nD τ).loc main_arg1)) := by
  show StableHlo.after hostOps0_3 (StableHlo.after hostOps0_2 (StableHlo.after hostOps0_1 (StableHlo.after hostOps0 (fun b => m (c, b))))) (Proc.devRef .tc main_v0) = _
  after_results_simp
  rfl

/-- The normalised embeddings it is entered with are those of the embeddings at launch. -/
theorem W4_v5F (c : Dev nD) : W4 m c main_v5 = enOfF (m ((c : Thread nD τ).loc main_arg0)) := by
  show StableHlo.after hostOps0_3 (StableHlo.after hostOps0_2 (StableHlo.after hostOps0_1 (StableHlo.after hostOps0 (fun b => m (c, b))))) (Proc.devRef .tc main_v5) = _
  after_results_simp
  rfl

/-- The families as a column. -/
theorem W4_v6F (c : Dev nD) :
    W4 m c main_v6 = shapeCast S8192x1 (famOf (m ((c : Thread nD τ).loc main_arg1))) shapeCasts_S8192_S8192x1 := by
  show StableHlo.after hostOps0_3 (StableHlo.after hostOps0_2 (StableHlo.after hostOps0_1 (StableHlo.after hostOps0 (fun b => m (c, b))))) (Proc.devRef .tc main_v6) = _
  after_results_simp
  rfl

/-- The families as a row. -/
theorem W4_v7F (c : Dev nD) :
    W4 m c main_v7 = shapeCast S1x8192 (famOf (m ((c : Thread nD τ).loc main_arg1))) shapeCasts_S8192_S1x8192 := by
  show StableHlo.after hostOps0_3 (StableHlo.after hostOps0_2 (StableHlo.after hostOps0_1 (StableHlo.after hostOps0 (fun b => m (c, b))))) (Proc.devRef .tc main_v7) = _
  after_results_simp
  rfl

/-- The last stretch from any contents: its result from the two result columns found. -/
theorem tail_v12F (V : Valuation τ sig (Elt F)) :
    StableHlo.after hostOps1 V (Proc.devRef .tc main_v12) = tailOfF (V (Proc.devRef .tc main_v8_0)) (V (Proc.devRef .tc main_v8_1)) := by
  after_results
  rfl

end Floats

/-! ## At the ideal float values -/

section AtIdeal

variable (m : (ℓ : Loc nD τ sig) → Buf (Elt Ideal) ℓ)

/-- Each row divided by the larger of its norm and the small constant. -/
def enOf (x : FVec Ideal S8192x64 .f32) : FVec Ideal S8192x64 .f32 :=
  Host.divf x (broadcastInDim S8192x64 ![0, 1] bcast_S8192x1_S8192x64_0_1
    (maximumf
      (Host.sqrt (broadcastInDim S8192x1 ![0] bcast_S8192_S8192x1_0
        (Host.reduceAdd (mulf x x) (constant (F := Ideal) S_ .f32 0x00000000#32) reducesTo_S8192x64_S8192_d1 h_S_)))
      (broadcastInDim S8192x1 ![] bcast_S_S8192x1 (constant (F := Ideal) S_ .f32 0x2B8CBCCC#32))))

theorem enOf_eq (x : FVec Ideal S8192x64 .f32) : enOf x = enOfF x := rfl

theorem W4_v0 (c : Dev nD) : W4 (F := Ideal) m c main_v0 = famOf (m ((c : Thread nD τ).loc main_arg1)) := W4_v0F m c

theorem W4_v5 (c : Dev nD) : W4 (F := Ideal) m c main_v5 = enOf (m ((c : Thread nD τ).loc main_arg0)) := W4_v5F m c

/-- The program's result from the two result columns the pallas_call leaves. -/
theorem W6_v12 (c : Dev nD) :
    W6 (F := Ideal) m c main_v12
      = Host.divf (Host.reduceAdd (W5 m c main_v8_0) (constant (F := Ideal) S_ .f32 0x00000000#32) reducesTo_S8192x1_S_d0_1 h_S_)
          (maximumf (Host.reduceAdd (W5 m c main_v8_1) (constant (F := Ideal) S_ .f32 0x00000000#32) reducesTo_S8192x1_S_d0_1 h_S_)
            (constant (F := Ideal) S_ .f32 0x3F800000#32)) :=
  tail_v12F (W5 m c)

end AtIdeal

/-! ## The terms read at an index -/

/-- A vector of 8192 read as a column. -/
theorem castCol_apply {α : Type} (v : S8192.Idx → α) (i : Fin 8192) :
    shapeCast S8192x1 v shapeCasts_S8192_S8192x1 (ix2 i 0) = v (ix1 i) := by
  refine shapeCast_apply v _ _ (ix1 i) ?_
  rw [Shape.rowMajor_val_one, Shape.rowMajor_val_two]
  show i.val = i.val * 1 + 0
  omega

/-- A vector of 8192 read as a row. -/
theorem castRow_apply {α : Type} (v : S8192.Idx → α) (j : Fin 8192) :
    shapeCast S1x8192 v shapeCasts_S8192_S1x8192 (ix2 0 j) = v (ix1 j) :=
  shapeCast_a_1a_apply v _ 0 j

/-- A vector of 8192 broadcast along a unit second axis. -/
theorem bcCol_apply {α : Type} (r : S8192.Idx → α) (i : Fin 8192) (u : Fin 1) :
    broadcastInDim S8192x1 ![0] bcast_S8192_S8192x1_0 r (ix2 i u) = r (ix1 i) :=
  broadcastInDim_apply _ _ r _ (ix1 i) (by intro a; fin_cases a; rfl)

/-- A column broadcast along the rows' 64 entries. -/
theorem bcRow_apply {α : Type} (v : S8192x1.Idx → α) (i : Fin 8192) (k : Fin 64) :
    broadcastInDim S8192x64 ![0, 1] bcast_S8192x1_S8192x64_0_1 v (ix2 i k) = v (ix2 i 0) :=
  broadcastInDim_apply _ _ v _ (ix2 i 0) (by intro a; fin_cases a <;> rfl)

/-- A scalar broadcast to a column. -/
theorem bcScalarCol_apply {α : Type} (s : S_.Idx → α) (j : S8192x1.Idx) :
    broadcastInDim S8192x1 ![] bcast_S_S8192x1 s j = s ix0 :=
  broadcastInDim_apply _ _ s _ ix0 (fun a => a.elim0)

/-- A row's sum of squares: the zero word plus the sum over the row's 64 entries. -/
theorem rowSumSq (x : FVec Ideal S8192x64 .f32) (i : Fin 8192) :
    Host.reduceAdd (mulf x x) (constant (F := Ideal) S_ .f32 0x00000000#32) reducesTo_S8192x64_S8192_d1 h_S_ (ix1 i)
      = Ideal.ofBits .f32 0x00000000#32 + ∑ k' : Fin 64, x (ix2 i k') * x (ix2 i k') := by
  have h : S8192x64.Reduces [1] S8192 := by decide
  show Ideal.hostReduceAdd reducesTo_S8192x64_S8192_d1 (mulf x x) (Ideal.ofBits .f32 0x00000000#32) (ix1 i) = _
  rw [Ideal.hostReduceAdd_single reducesTo_S8192x64_S8192_d1 h]
  refine congrArg _ (Finset.sum_congr rfl fun k' _ => ?_)
  have e : h.lift (ix1 i) k' = ix2 i k' := by
    funext a; fin_cases a <;> rfl
  rw [e]; rfl

/-- A column's sum into the scalar shape: the initial word plus the sum over its 8192 entries. -/
theorem sumCol (x : FVec Ideal S8192x1 .f32) (b : BitVec 32) :
    Host.reduceAdd x (constant (F := Ideal) S_ .f32 b) reducesTo_S8192x1_S_d0_1 h_S_ ix0
      = Ideal.ofBits .f32 b + ∑ i : Fin 8192, x (ix2 i 0) := by
  show Ideal.hostReduceAdd reducesTo_S8192x1_S_d0_1 x (Ideal.ofBits .f32 b) ix0 = _
  rw [Ideal.hostReduceAdd_total reducesTo_S8192x1_S_d0_1 (fun a => a.elim0), sum_idx2]
  refine congrArg _ (Finset.sum_congr rfl fun i _ => ?_)
  exact Fin.sum_univ_one _

/-- The end of the program from two columns, at the scalar shape's one index. -/
theorem tail_apply (x0 x1 : FVec Ideal S8192x1 .f32) :
    Host.divf (Host.reduceAdd x0 (constant (F := Ideal) S_ .f32 0x00000000#32) reducesTo_S8192x1_S_d0_1 h_S_)
        (maximumf (Host.reduceAdd x1 (constant (F := Ideal) S_ .f32 0x00000000#32) reducesTo_S8192x1_S_d0_1 h_S_)
          (constant (F := Ideal) S_ .f32 0x3F800000#32)) ix0
      = Ideal.div (Ideal.ofBits .f32 0x00000000#32 + ∑ i : Fin 8192, x0 (ix2 i 0))
          (max (Ideal.ofBits .f32 0x00000000#32 + ∑ i : Fin 8192, x1 (ix2 i 0)) (Ideal.ofBits .f32 0x3F800000#32)) := by
  rw [← sumCol x0, ← sumCol x1]
  rfl

/-- A normalised entry: the entry over the larger of its row's norm and the small constant. -/
theorem enOf_apply (x : FVec Ideal S8192x64 .f32) (i : Fin 8192) (k : Fin 64) :
    enOf x (ix2 i k) = Ideal.div (x (ix2 i k))
      (max (Ideal.sqrt (Ideal.ofBits .f32 0x00000000#32 + ∑ k' : Fin 64, x (ix2 i k') * x (ix2 i k')))
        (Ideal.ofBits .f32 0x2B8CBCCC#32)) := by
  have hd : ∀ (a b : FVec Ideal S8192x64 .f32) (j : S8192x64.Idx), Host.divf a b j = Ideal.div (a j) (b j) := fun _ _ _ => rfl
  have hm : ∀ (a b : FVec Ideal S8192x1 .f32) (j : S8192x1.Idx), maximumf a b j = max (a j) (b j) := fun _ _ _ => rfl
  have hs : ∀ (a : FVec Ideal S8192x1 .f32) (j : S8192x1.Idx), Host.sqrt a j = Ideal.sqrt (a j) := fun _ _ => rfl
  unfold enOf
  rw [hd, bcRow_apply, hm, hs, bcCol_apply, bcScalarCol_apply, rowSumSq]
  rfl

/-! ## The buffers read at an index -/

section AtIdealIdx

variable (m : (ℓ : Loc nD τ sig) → Buf (Elt Ideal) ℓ)

/-- The embeddings at launch, as a vector of extended reals. -/
abbrev emb0 (c : Dev nD) : FVec Ideal S8192x64 .f32 := m ((c : Thread nD τ).loc main_arg0)
/-- The two result columns after the pallas_call, as vectors of extended reals. -/
abbrev out0 (c : Dev nD) : FVec Ideal S8192x1 .f32 := W5 m c main_v8_0
abbrev out1 (c : Dev nD) : FVec Ideal S8192x1 .f32 := W5 m c main_v8_1

/-- The column of families the pallas_call reads: row `i`'s family. -/
theorem W4_v6 (c : Dev nD) (i : Fin 8192) :
    (W4 (F := Ideal) m c main_v6 : IVec S8192x1 32) (ix2 i 0) = famOf (m ((c : Thread nD τ).loc main_arg1)) (ix1 i) :=
  (congrFun (W4_v6F m c) (ix2 i 0)).trans (castCol_apply _ i)

/-- The row of families the pallas_call reads: column `j`'s family. -/
theorem W4_v7 (c : Dev nD) (j : Fin 8192) :
    (W4 (F := Ideal) m c main_v7 : IVec S1x8192 32) (ix2 0 j) = famOf (m ((c : Thread nD τ).loc main_arg1)) (ix1 j) :=
  (congrFun (W4_v7F m c) (ix2 0 j)).trans (castRow_apply _ j)

/-- A normalised entry the pallas_call reads, from the embeddings at launch. -/
theorem W4_v5_apply (c : Dev nD) (i : Fin 8192) (k : Fin 64) :
    (W4 (F := Ideal) m c main_v5 : FVec Ideal S8192x64 .f32) (ix2 i k)
      = Ideal.div (emb0 m c (ix2 i k))
          (max (Ideal.sqrt (Ideal.ofBits .f32 0x00000000#32 + ∑ k' : Fin 64, emb0 m c (ix2 i k') * emb0 m c (ix2 i k')))
            (Ideal.ofBits .f32 0x2B8CBCCC#32)) :=
  (congrFun (W4_v5 m c) (ix2 i k)).trans (enOf_apply (emb0 m c) i k)

/-- The program's result at the scalar shape's one index: the sum of the first result column over the larger of the
    sum of the second and one. -/
theorem W6_v12_apply (c : Dev nD) :
    (W6 (F := Ideal) m c main_v12 : FVec Ideal S_ .f32) ix0
      = Ideal.div (Ideal.ofBits .f32 0x00000000#32 + ∑ i : Fin 8192, out0 m c (ix2 i 0))
          (max (Ideal.ofBits .f32 0x00000000#32 + ∑ i : Fin 8192, out1 m c (ix2 i 0)) (Ideal.ofBits .f32 0x3F800000#32)) :=
  (congrFun (W6_v12 m c) ix0).trans (tail_apply (out0 m c) (out1 m c))

end AtIdealIdx

end Cert.KernelIdeal.Hand

end
-- ==== Proof.KIValue.lean ====
/-
  The kernel's value at the ideal values, in the specification's form.

  Row i = 1024·ib + p of the batch lives in row block ib; column j = 512·jb + q in column block jb. At grid point
  16·ib + jb the body holds the two blocks' embeddings and families as the pipeline fetched them from the arrays it
  was entered from. So the block maximum of row p at that point is the largest of row i's entries for the hardest
  positive over the columns of block jb, and the block minimum the smallest of its entries for the hardest negative:
  the diagonal test "1024·ib + p = 512·jb + q" on 32-bit words is the test i = j. The two scratches start from the
  fills at jb = 0 and absorb one block after another, so after jb = 15 they hold, at row p, the hardest positive
  and the hardest negative of row i over all sixteen blocks, that is over all columns. The two outputs stored there
  are the row's loss under the threshold test and the row's indicator of that test; written back once per row block
  they fill the two result arrays, and the host's two sums, clamp and quotient after the pipeline give the result.
-/
import proofs.«175049_j14310831030886_1_alg».proof.Proof.KIArr
import proofs.«175049_j14310831030886_1_alg».proof.Proof.KIPay
import proofs.«175049_j14310831030886_1_alg».proof.Proof.KIVals
import proofs.«175049_j14310831030886_1_alg».proof.Proof.Spec
import proofs.«175049_j14310831030886_1_alg».proof.Proof.KIHost
set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

/- The certificate's float words as extended reals: one, the low and high fills, the two thresholds, the margin
   and zero. -/
local notation "wOne" => (Ideal.ofBits FTy.f32 0x3F800000#32 : EReal)
local notation "wNeg" => (Ideal.ofBits FTy.f32 0xCE6E6B28#32 : EReal)
local notation "wPos" => (Ideal.ofBits FTy.f32 0x4E6E6B28#32 : EReal)
local notation "wLo" => (Ideal.ofBits FTy.f32 0xCDEE6B28#32 : EReal)
local notation "wHi" => (Ideal.ofBits FTy.f32 0x4DEE6B28#32 : EReal)
local notation "wMargin" => (Ideal.ofBits FTy.f32 0x3E99999A#32 : EReal)
local notation "wZero" => (Ideal.ofBits FTy.f32 0x00000000#32 : EReal)

/-! ## Columns in sixteen blocks, rows in eight -/

/-- The 8192 columns as sixteen blocks of 512: column `q` of block `b` is column `512·b + q`. -/
def colBlocks : Fin 16 × Fin 512 ≃ Fin 8192 where
  toFun x := ⟨x.1.val * 512 + x.2.val, by omega⟩
  invFun j := (⟨j.val / 512, by omega⟩, ⟨j.val % 512, by omega⟩)
  left_inv x := by
    obtain ⟨b, q⟩ := x
    refine Prod.ext (Fin.ext ?_) (Fin.ext ?_)
    · show (b.val * 512 + q.val) / 512 = b.val; omega
    · show (b.val * 512 + q.val) % 512 = q.val; omega
  right_inv j := Fin.ext (by show j.val / 512 * 512 + j.val % 512 = j.val; omega)

theorem colBlocks_val (b : Fin 16) (q : Fin 512) : (colBlocks (b, q)).val = b.val * 512 + q.val := rfl

/-- Every row is row `p` of some row block `ib`. -/
theorem row_split (i : Fin 8192) : ∃ (ib : Fin 8) (p : Fin 1024), i = ⟨ib.val * 1024 + p.val, by omega⟩ :=
  ⟨⟨i.val / 1024, by omega⟩, ⟨i.val % 1024, by omega⟩,
    Fin.ext (by show i.val = i.val / 1024 * 1024 + i.val % 1024; omega)⟩

/-- Row `p` of the row block of point `t`. -/
abbrev rowAt (t : Fin cfg0.N) (p : Fin 1024) : Fin 8192 := ⟨(t.val / 16) * 1024 + p.val, by have := pt_lt t; omega⟩
/-- Column `q` of the column block of point `t`. -/
abbrev colAt (t : Fin cfg0.N) (q : Fin 512) : Fin 8192 := ⟨(t.val % 16) * 512 + q.val, by omega⟩

/-- The grid's coordinates at a point, decided over the grid: the row block and the column block. -/
theorem coords_facts : ∀ t : Fin cfg0.N, (grid0.coords t 0).val = t.val / 16 ∧ (grid0.coords t 1).val = t.val % 16 :=
  (by decide +kernel : ∀ t : Fin grid0.N, _)

section Value

variable (V : (c : Dev nD) → (b : Ref sig .tc) → Buf (Elt Ideal) ((c : Thread nD τ).loc b)) (c : Dev nD)
variable (fam : Fin 8192 → BitVec 32) (en : Fin 8192 → Fin 64 → EReal)

/-- The arrays the pipeline is entered from, entry by entry: the normalised embeddings `en`, and the families `fam`
    laid out once as a column and once as a row. -/
structure EntryAt : Prop where
  emb : ∀ (i : Fin 8192) (k : Fin 64), (V c main_v5 : Vec Ideal S8192x64 .f32) (ix2 i k) = en i k
  rows : ∀ i : Fin 8192, (V c main_v6 : Vec Ideal S8192x1 .i32) (ix2 i 0) = fam i
  cols : ∀ j : Fin 8192, (V c main_v7 : Vec Ideal S1x8192 .i32) (ix2 0 j) = fam j

/-! ## Sixteen blocks -/

/-- The running maximum from `z` over the blocks `B 0, …, B n`. -/
abbrev runSup (z : EReal) (B : ℕ → EReal) (n : ℕ) : EReal := Nat.rec (max z (B 0)) (fun k a => max a (B (k + 1))) n
/-- The running minimum from `z` over the blocks `B 0, …, B n`. -/
abbrev runInf (z : EReal) (B : ℕ → EReal) (n : ℕ) : EReal := Nat.rec (min z (B 0)) (fun k a => min a (B (k + 1))) n

/-- The largest of row `i`'s entries for the hardest positive over column block `n` (the low fill past the sixteenth). -/
def blockSup (i : Fin 8192) (n : ℕ) : EReal :=
  if h : n < 16 then Finset.univ.sup fun q : Fin 512 => Cert.Spec.wpos fam en wOne wNeg i (colBlocks (⟨n, h⟩, q)) else wNeg
/-- The smallest of row `i`'s entries for the hardest negative over column block `n` (the high fill past the sixteenth). -/
def blockInf (i : Fin 8192) (n : ℕ) : EReal :=
  if h : n < 16 then Finset.univ.inf fun q : Fin 512 => Cert.Spec.wneg fam en wOne wPos i (colBlocks (⟨n, h⟩, q)) else wPos

/-- At point `16·ib + jb` the point's row `p` is row `1024·ib + p` and its columns are column block `jb`. -/
theorem blockSup_at (ib : Fin 8) (jb : ℕ) (hj : jb < 16) (t : Fin cfg0.N) (ht : t.val = 16 * ib.val + jb) (p : Fin 1024) :
    (Finset.univ.sup fun q : Fin 512 => Cert.Spec.wpos fam en wOne wNeg (rowAt t p) (colAt t q))
      = blockSup fam en ⟨ib.val * 1024 + p.val, by omega⟩ jb := by
  unfold blockSup
  rw [dif_pos hj]
  have er : rowAt t p = ⟨ib.val * 1024 + p.val, by omega⟩ :=
    Fin.ext (by show t.val / 16 * 1024 + p.val = ib.val * 1024 + p.val; omega)
  refine congrArg (Finset.sup Finset.univ) (funext fun q => ?_)
  have ec : colAt t q = colBlocks (⟨jb, hj⟩, q) :=
    Fin.ext (by show t.val % 16 * 512 + q.val = jb * 512 + q.val; omega)
  rw [er, ec]

theorem blockInf_at (ib : Fin 8) (jb : ℕ) (hj : jb < 16) (t : Fin cfg0.N) (ht : t.val = 16 * ib.val + jb) (p : Fin 1024) :
    (Finset.univ.inf fun q : Fin 512 => Cert.Spec.wneg fam en wOne wPos (rowAt t p) (colAt t q))
      = blockInf fam en ⟨ib.val * 1024 + p.val, by omega⟩ jb := by
  unfold blockInf
  rw [dif_pos hj]
  have er : rowAt t p = ⟨ib.val * 1024 + p.val, by omega⟩ :=
    Fin.ext (by show t.val / 16 * 1024 + p.val = ib.val * 1024 + p.val; omega)
  refine congrArg (Finset.inf Finset.univ) (funext fun q => ?_)
  have ec : colAt t q = colBlocks (⟨jb, hj⟩, q) :=
    Fin.ext (by show t.val % 16 * 512 + q.val = jb * 512 + q.val; omega)
  rw [er, ec]

/-- What the scratches hold after a position depends on the position only. -/
theorem scAt_congr {n n' : ℕ} (e : n = n') (h : n < cfg0.N) (h' : n' < cfg0.N) : scAt V c n h = scAt V c n' h' := by
  subst e; rfl

variable {V c fam en} (hE : EntryAt V c fam en)
include hE

/-! ## One grid point -/

/-- The distance block's entry `(p, q)` at point `t` is the distance of the point's row `p` and column `q`. -/
theorem dist_at (t : Fin cfg0.N) (p : Fin 1024) (q : Fin 512) :
    (k0_pay8 (F := Ideal) (iblk V c 0 t) (iblk V c 1 t)) (ix2 p q) = Cert.Spec.dist en wOne (rowAt t p) (colAt t q) := by
  refine (Pay.dist_apply (iblk V c 0 t) (iblk V c 1 t) p q).trans ?_
  unfold Cert.Spec.dist
  refine congrArg (fun s : EReal => wOne - s) (Finset.sum_congr rfl fun k _ => ?_)
  exact congrArg₂ (fun a b : EReal => a * b) ((iblk0_apply V c t p k).trans (hE.emb _ k))
    ((iblk1_apply V c t q k).trans (hE.emb _ k))

/-- The families the point holds: row `p`'s and column `q`'s. -/
theorem famRow_at (t : Fin cfg0.N) (p : Fin 1024) :
    (iblk V c 2 t : Vec Ideal S1024x1 .i32) (ix2 p 0) = fam (rowAt t p) := (iblk2_apply V c t p).trans (hE.rows _)
theorem famCol_at (t : Fin cfg0.N) (q : Fin 512) :
    (iblk V c 3 t : Vec Ideal S1x512 .i32) (ix2 0 q) = fam (colAt t q) := (iblk3_apply V c t q).trans (hE.cols _)

/-- The block maximum of row `p` at point `t`: the largest of the row's entries for the hardest positive over the
    point's column block. The body's diagonal test compares 32-bit words; below 8192 it is the test on the naturals. -/
theorem bmax_at (t : Fin cfg0.N) (p : Fin 1024) :
    (bmax V c t) (ix2 p 0)
      = Finset.univ.sup fun q : Fin 512 => Cert.Spec.wpos fam en wOne wNeg (rowAt t p) (colAt t q) := by
  obtain ⟨g0, g1⟩ := coords_facts t
  have ht := pt_lt t
  unfold bmax
  refine (Pay.blockMax_apply (grid0.coords t) (iblk V c 0 t) (iblk V c 1 t) (iblk V c 2 t) (iblk V c 3 t) p).trans ?_
  refine congrArg (Finset.sup Finset.univ) (funext fun q => ?_)
  unfold Cert.Spec.wpos
  refine if_congr (and_congr (Eq.congr (famRow_at hE t p) (famCol_at hE t q)) (not_congr ?_)) (dist_at hE t p q) rfl
  refine (Pay.rowId_eq_colId_iff (grid0.coords t) p q (by omega) (by omega)).trans ?_
  constructor
  · intro h; exact Fin.ext (by show t.val / 16 * 1024 + p.val = t.val % 16 * 512 + q.val; omega)
  · intro h
    have h' : t.val / 16 * 1024 + p.val = t.val % 16 * 512 + q.val := congrArg Fin.val h
    omega

/-- The block minimum of row `p` at point `t`: the smallest of the row's entries for the hardest negative over the
    point's column block. -/
theorem bmin_at (t : Fin cfg0.N) (p : Fin 1024) :
    (bmin V c t) (ix1 p)
      = Finset.univ.inf fun q : Fin 512 => Cert.Spec.wneg fam en wOne wPos (rowAt t p) (colAt t q) := by
  unfold bmin
  refine (Pay.blockMin_apply (iblk V c 0 t) (iblk V c 1 t) (iblk V c 2 t) (iblk V c 3 t) p).trans ?_
  refine congrArg (Finset.inf Finset.univ) (funext fun q => ?_)
  unfold Cert.Spec.wneg
  exact if_congr (not_congr (Eq.congr (famRow_at hE t p) (famCol_at hE t q))) (dist_at hE t p q) rfl

/-! ## Along a row block -/

/-- After column block `jb` of row block `ib` the first scratch holds, at row `p`, the running maximum from the low
    fill of the row's block maxima over the column blocks up to `jb`. -/
theorem scAt_fst (ib : Fin 8) (p : Fin 1024) : ∀ (jb : ℕ) (hj : jb < 16) (h : 16 * ib.val + jb < cfg0.N),
    ((scAt V c (16 * ib.val + jb) h).1 : Vec Ideal S1024x1 .f32) (ix2 p 0)
      = runSup wNeg (blockSup fam en ⟨ib.val * 1024 + p.val, by omega⟩) jb
  | 0, hj, h => by
    have e := scAt_reset V c ⟨16 * ib.val + 0, h⟩ (by show (16 * ib.val + 0) % 16 = 0; omega)
    refine (congrArg (fun s : Vec Ideal S1024x1 .f32 × Vec Ideal S1024x1 .f32 => s.1 (ix2 p 0)) e).trans ?_
    refine (Pay.runMax_apply (bmax V c ⟨16 * ib.val + 0, h⟩) (k0_pay6 (F := Ideal)) p).trans ?_
    exact congrArg₂ max (Pay.startMax_apply p) ((bmax_at hE _ p).trans (blockSup_at fam en ib 0 hj _ rfl p))
  | jb + 1, hj, h => by
    have h' : 16 * ib.val + jb < cfg0.N := by omega
    have e := scAt_acc V c ⟨16 * ib.val + (jb + 1), h⟩ (by show ¬(16 * ib.val + (jb + 1)) % 16 = 0; omega)
    refine (congrArg (fun s : Vec Ideal S1024x1 .f32 × Vec Ideal S1024x1 .f32 => s.1 (ix2 p 0)) e).trans ?_
    refine (Pay.runMax_apply _ _ p).trans ?_
    have hprev := congrArg (fun s : Vec Ideal S1024x1 .f32 × Vec Ideal S1024x1 .f32 => s.1 (ix2 p 0))
      (scAt_congr V c (show 16 * ib.val + (jb + 1) - 1 = 16 * ib.val + jb by omega)
        (Nat.lt_of_le_of_lt (Nat.sub_le _ _) h) h')
    exact congrArg₂ max (hprev.trans (scAt_fst ib p jb (by omega) h'))
      ((bmax_at hE _ p).trans (blockSup_at fam en ib (jb + 1) hj _ rfl p))

/-- And the second scratch the running minimum from the high fill of the row's block minima. -/
theorem scAt_snd (ib : Fin 8) (p : Fin 1024) : ∀ (jb : ℕ) (hj : jb < 16) (h : 16 * ib.val + jb < cfg0.N),
    ((scAt V c (16 * ib.val + jb) h).2 : Vec Ideal S1024x1 .f32) (ix2 p 0)
      = runInf wPos (blockInf fam en ⟨ib.val * 1024 + p.val, by omega⟩) jb
  | 0, hj, h => by
    have e := scAt_reset V c ⟨16 * ib.val + 0, h⟩ (by show (16 * ib.val + 0) % 16 = 0; omega)
    refine (congrArg (fun s : Vec Ideal S1024x1 .f32 × Vec Ideal S1024x1 .f32 => s.2 (ix2 p 0)) e).trans ?_
    refine (Pay.runMin_apply (bmin V c ⟨16 * ib.val + 0, h⟩) (k0_pay7 (F := Ideal)) p).trans ?_
    exact congrArg₂ min (Pay.startMin_apply p) ((bmin_at hE _ p).trans (blockInf_at fam en ib 0 hj _ rfl p))
  | jb + 1, hj, h => by
    have h' : 16 * ib.val + jb < cfg0.N := by omega
    have e := scAt_acc V c ⟨16 * ib.val + (jb + 1), h⟩ (by show ¬(16 * ib.val + (jb + 1)) % 16 = 0; omega)
    refine (congrArg (fun s : Vec Ideal S1024x1 .f32 × Vec Ideal S1024x1 .f32 => s.2 (ix2 p 0)) e).trans ?_
    refine (Pay.runMin_apply _ _ p).trans ?_
    have hprev := congrArg (fun s : Vec Ideal S1024x1 .f32 × Vec Ideal S1024x1 .f32 => s.2 (ix2 p 0))
      (scAt_congr V c (show 16 * ib.val + (jb + 1) - 1 = 16 * ib.val + jb by omega)
        (Nat.lt_of_le_of_lt (Nat.sub_le _ _) h) h')
    exact congrArg₂ min (hprev.trans (scAt_snd ib p jb (by omega) h'))
      ((bmin_at hE _ p).trans (blockInf_at fam en ib (jb + 1) hj _ rfl p))

/-- After the last column block the first scratch holds the row's hardest positive, -/
theorem scAt_fst_last (ib : Fin 8) (p : Fin 1024) :
    ((scAt V c (16 * ib.val + 15) (lastPt_lt ib)).1 : Vec Ideal S1024x1 .f32) (ix2 p 0)
      = Cert.Spec.dpos fam en wOne wNeg ⟨ib.val * 1024 + p.val, by omega⟩ :=
  (scAt_fst hE ib p 15 (by omega) (lastPt_lt ib)).trans
    (Cert.Spec.acc_blocks_eq_dpos fam en wOne wNeg colBlocks ⟨ib.val * 1024 + p.val, by omega⟩
      (blockSup fam en ⟨ib.val * 1024 + p.val, by omega⟩) fun b => by unfold blockSup; exact dif_pos b.isLt)

/-- and the second its hardest negative. -/
theorem scAt_snd_last (ib : Fin 8) (p : Fin 1024) :
    ((scAt V c (16 * ib.val + 15) (lastPt_lt ib)).2 : Vec Ideal S1024x1 .f32) (ix2 p 0)
      = Cert.Spec.dneg fam en wOne wPos ⟨ib.val * 1024 + p.val, by omega⟩ :=
  (scAt_snd hE ib p 15 (by omega) (lastPt_lt ib)).trans
    (Cert.Spec.acc_blocks_eq_dneg fam en wOne wPos colBlocks ⟨ib.val * 1024 + p.val, by omega⟩
      (blockInf fam en ⟨ib.val * 1024 + p.val, by omega⟩) fun b => by unfold blockInf; exact dif_pos b.isLt)

/-! ## The two outputs, row by row -/

/-- The loss stored for row `p` of row block `ib`: the row's loss under the threshold test. -/
theorem out4_row (ib : Fin 8) (p : Fin 1024) :
    (out4At V c ⟨16 * ib.val + 15, lastPt_lt ib⟩) (ix2 p 0)
      = Cert.Spec.rowLoss fam en wOne wNeg wPos wMargin wZero
          (Cert.Spec.CountsThr fam en wOne wNeg wPos wLo wHi ⟨ib.val * 1024 + p.val, by omega⟩)
          ⟨ib.val * 1024 + p.val, by omega⟩ := by
  have hdp := scAt_fst_last hE ib p
  have hdn := scAt_snd_last hE ib p
  unfold out4At
  refine (Pay.loss_apply (scAt V c (16 * ib.val + 15) (lastPt_lt ib)).1 (scAt V c (16 * ib.val + 15) (lastPt_lt ib)).2 p).trans ?_
  rw [hdp, hdn]
  unfold Cert.Spec.rowLoss
  refine if_congr ?_ rfl rfl
  unfold Cert.Spec.CountsThr
  exact Iff.rfl

/-- The indicator stored for row `p` of row block `ib`: one where the threshold test holds, zero elsewhere. -/
theorem out5_row (ib : Fin 8) (p : Fin 1024) :
    (out5At V c ⟨16 * ib.val + 15, lastPt_lt ib⟩) (ix2 p 0)
      = if Cert.Spec.CountsThr fam en wOne wNeg wPos wLo wHi ⟨ib.val * 1024 + p.val, by omega⟩ then (1 : EReal) else (0 : EReal) := by
  have hdp := scAt_fst_last hE ib p
  have hdn := scAt_snd_last hE ib p
  unfold out5At
  refine (Pay.valid_apply (scAt V c (16 * ib.val + 15) (lastPt_lt ib)).1 (scAt V c (16 * ib.val + 15) (lastPt_lt ib)).2 p).trans ?_
  rw [hdp, hdn]
  refine if_congr ?_ rfl rfl
  unfold Cert.Spec.CountsThr
  exact Iff.rfl

/-! ## The two result arrays after the run -/

/-- The first result array holds every row's loss under the threshold test, -/
theorem arr4_row (i : Fin 8192) :
    ((dat0 V c).arrAt 4 cfg0.N : Vec Ideal S8192x1 .f32) (ix2 i 0)
      = Cert.Spec.rowLoss fam en wOne wNeg wPos wMargin wZero (Cert.Spec.CountsThr fam en wOne wNeg wPos wLo wHi i) i := by
  obtain ⟨ib, p, rfl⟩ := row_split i
  exact (arrAt4_apply V c ib p).trans (out4_row hE ib p)

/-- and the second every row's indicator of the test. -/
theorem arr5_row (i : Fin 8192) :
    ((dat0 V c).arrAt 5 cfg0.N : Vec Ideal S8192x1 .f32) (ix2 i 0)
      = if Cert.Spec.CountsThr fam en wOne wNeg wPos wLo wHi i then (1 : EReal) else (0 : EReal) := by
  obtain ⟨ib, p, rfl⟩ := row_split i
  exact (arrAt5_apply V c ib p).trans (out5_row hE ib p)

end Value

/-! ## The program's result -/

section Result

variable (m : (ℓ : Loc nD τ sig) → Buf (Elt Ideal) ℓ) (c : Dev nD)

/-- The rows' families, looked up from the labels at launch. -/
abbrev famAt (i : Fin 8192) : BitVec 32 := famOf (m ((c : Thread nD τ).loc main_arg1)) (ix1 i)
/-- The normalised embeddings, from the embeddings at launch. -/
abbrev enAt (i : Fin 8192) (k : Fin 64) : EReal := enOf (m ((c : Thread nD τ).loc main_arg0)) (ix2 i k)

/-- The pipeline is entered from the normalised embeddings and the families in their two layouts. -/
theorem entryAt : EntryAt (VE m) c (famAt m c) (enAt m c) where
  emb i k := congrFun (W4_v5 m c) (ix2 i k)
  rows i := W4_v6 m c i
  cols j := W4_v7 m c j

/-- The program's result: the sum of the rows' losses under the threshold test over the larger of the number of rows
    that pass it and one. -/
theorem kernel_value :
    (W6 (F := Ideal) m c main_v12 : FVec Ideal S_ .f32) ix0
      = Ideal.div
          (wZero + ∑ i : Fin 8192, Cert.Spec.rowLoss (famAt m c) (enAt m c) wOne wNeg wPos wMargin wZero
              (Cert.Spec.CountsThr (famAt m c) (enAt m c) wOne wNeg wPos wLo wHi i) i)
          (max (wZero + ∑ i : Fin 8192,
              (if Cert.Spec.CountsThr (famAt m c) (enAt m c) wOne wNeg wPos wLo wHi i then (1 : EReal) else (0 : EReal)))
            wOne) := by
  have hE := entryAt m c
  have h4 : ∀ i : Fin 8192, @Eq EReal ((W5 m c main_v8_0 : FVec Ideal S8192x1 .f32) (ix2 i 0))
      (Cert.Spec.rowLoss (famAt m c) (enAt m c) wOne wNeg wPos wMargin wZero
        (Cert.Spec.CountsThr (famAt m c) (enAt m c) wOne wNeg wPos wLo wHi i) i) :=
    fun i => (congrFun (W5_out0 m c) (ix2 i 0)).trans (arr4_row hE i)
  have h5 : ∀ i : Fin 8192, @Eq EReal ((W5 m c main_v8_1 : FVec Ideal S8192x1 .f32) (ix2 i 0))
      (if Cert.Spec.CountsThr (famAt m c) (enAt m c) wOne wNeg wPos wLo wHi i then (1 : EReal) else (0 : EReal)) :=
    fun i => (congrFun (W5_out1 m c) (ix2 i 0)).trans (arr5_row hE i)
  exact (W6_v12_apply m c).trans (congrArg₂ Ideal.div
    (congrArg (fun s : EReal => wZero + s) (Finset.sum_congr rfl fun i _ => h4 i))
    (congrArg (fun s : EReal => max (wZero + s) wOne) (Finset.sum_congr rfl fun i _ => h5 i)))

end Result

end Cert.KernelIdeal.Hand

end
-- ==== Proof.SpecMath.lean ====
import Idealize.ShloMosaic.PureOps.Ideal
import Mathlib.Data.EReal.Basic
import Mathlib.Data.EReal.Operations
import Mathlib.Data.EReal.Inv
import Mathlib.Analysis.SpecialFunctions.Sqrt
import Mathlib.Algebra.BigOperators.Group.Finset.Basic
import Mathlib.Algebra.Order.BigOperators.Group.Finset

/-!
# Row normalisation keeps every entry in the unit interval

A row `x` of reals is divided entrywise by `max (√(∑ x²)) eps` with `eps > 0`.  The divisor
is a positive real, and `|x k| ≤ √(∑ x²) ≤ max (√(∑ x²)) eps`, so every quotient is a real of
absolute value at most one.  The statement is phrased over the extended reals with the
quotient and the square root that carry the corner cases (division by zero, root of a
negative number); on this input neither corner is met.
-/

open scoped BigOperators
open Idealize.ShloMosaic

namespace Cert.SpecMath

/-- The coercion of a finite sum of reals into the extended reals is the sum of the coercions. -/
private theorem coe_sum_real {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- One square is at most the sum of all squares, hence `|x k| ≤ √(∑ x²)`. -/
theorem abs_le_sqrt_sum_sq {κ : Type*} [Fintype κ] (x : κ → ℝ) (k : κ) :
    |x k| ≤ Real.sqrt (∑ k', x k' * x k') := by
  apply Real.abs_le_sqrt
  rw [sq]
  exact Finset.single_le_sum (f := fun k' => x k' * x k') (fun i _ => mul_self_nonneg (x i))
    (Finset.mem_univ k)

/-- A normalised entry is a real of absolute value at most one. -/
theorem normalized_abs_le_one {κ : Type} [Fintype κ] (x : κ → ℝ) (eps : ℝ) (heps : 0 < eps) (k : κ) :
    ∃ r : ℝ, |r| ≤ 1 ∧
      Ideal.div (x k : EReal)
        (max (Ideal.sqrt ((0 : EReal) + ∑ k', (x k' : EReal) * (x k' : EReal))) (eps : EReal))
        = (r : EReal) := by
  set s : ℝ := ∑ k', x k' * x k' with hs
  have hs0 : 0 ≤ s := Finset.sum_nonneg (fun i _ => mul_self_nonneg (x i))
  have hsum : (∑ k', (x k' : EReal) * (x k' : EReal)) = (s : EReal) := by
    rw [hs, coe_sum_real]
    exact Finset.sum_congr rfl (fun i _ => (EReal.coe_mul _ _).symm)
  set m : ℝ := max (Real.sqrt s) eps with hm
  have hmpos : 0 < m := lt_of_lt_of_le heps (le_max_right _ _)
  have hden : max (Ideal.sqrt ((0 : EReal) + ∑ k', (x k' : EReal) * (x k' : EReal))) (eps : EReal)
      = (m : EReal) := by
    rw [hsum, zero_add, Ideal.sqrt_coe, if_neg (not_lt.mpr hs0), hm]
    exact (EReal.coe_strictMono.monotone.map_max).symm
  refine ⟨x k * (1 / m), ?_, ?_⟩
  · rw [mul_one_div, abs_div, abs_of_pos hmpos, div_le_one hmpos]
    exact (abs_le_sqrt_sum_sq x k).trans (le_max_left _ _)
  · rw [hden, Ideal.div_coe hmpos.ne', EReal.coe_mul]

end Cert.SpecMath
-- ==== Proof.Consts.lean ====
import Idealize.ShloMosaic.PureOps.Ideal

/-!
# The float words of this certificate as extended reals

Each 32-bit pattern below is read as a binary32 number: sign bit, eight exponent bits (bias
127), twenty-three fraction bits.  A normal pattern denotes `±(2^23 + fraction) · 2^(exponent - 150)`;
an all-ones exponent with zero fraction denotes `±∞`.

* `0xCE6E6B28`: negative, exponent 156, fraction `0x6E6B28`: `-(15625000 · 2^6) = -10^9`; with the
  sign bit clear, `10^9`.
* `0xCDEE6B28`: the same fraction one binade lower: `-(15625000 · 2^5) = -5·10^8`; with the sign
  bit clear, `5·10^8`.
* `0x2B8CBCCC`: exponent 87, a small positive real (`9223372 · 2^(-63)`).
* `0x3E99999A`: exponent 125, the real `10066330 · 2^(-25)`.
-/

noncomputable section

namespace Cert.Consts

open Idealize.ShloMosaic

/-- The all-zero pattern denotes `0`. -/
theorem ofBits_zero : Ideal.ofBits .f32 0x00000000#32 = 0 := by
  simp [Ideal.ofBits, Ideal.ieee]

/-- Exponent 127, zero fraction: `2^23 · 2^(-23) = 1`. -/
theorem ofBits_one : Ideal.ofBits .f32 0x3F800000#32 = 1 := by
  simp [Ideal.ofBits, Ideal.ieee, -EReal.coe_mul]; norm_num

/-- `-(15625000 · 2^6) = -10^9`. -/
theorem ofBits_neg_big : Ideal.ofBits .f32 0xCE6E6B28#32 = ((-1000000000 : ℝ) : EReal) := by
  simp [Ideal.ofBits, Ideal.ieee, -EReal.coe_mul]; norm_num

/-- `15625000 · 2^6 = 10^9`. -/
theorem ofBits_pos_big : Ideal.ofBits .f32 0x4E6E6B28#32 = ((1000000000 : ℝ) : EReal) := by
  simp [Ideal.ofBits, Ideal.ieee, -EReal.coe_mul]; norm_num

/-- `-(15625000 · 2^5) = -5·10^8`. -/
theorem ofBits_lo : Ideal.ofBits .f32 0xCDEE6B28#32 = ((-500000000 : ℝ) : EReal) := by
  simp [Ideal.ofBits, Ideal.ieee, -EReal.coe_mul]; norm_num

/-- `15625000 · 2^5 = 5·10^8`. -/
theorem ofBits_hi : Ideal.ofBits .f32 0x4DEE6B28#32 = ((500000000 : ℝ) : EReal) := by
  simp [Ideal.ofBits, Ideal.ieee, -EReal.coe_mul]; norm_num

/-- A normal pattern with the sign bit clear denotes a positive real. -/
theorem ofBits_eps : ∃ e : ℝ, 0 < e ∧ Ideal.ofBits .f32 0x2B8CBCCC#32 = (e : EReal) := by
  refine ⟨(1 : ℝ) * ((2 ^ 23 + 834764 : ℕ) : ℝ) * (2 : ℝ) ^ ((87 : ℤ) - 127 - 23), by positivity, ?_⟩
  simp [Ideal.ofBits, Ideal.ieee, -EReal.coe_mul]

/-- A normal pattern denotes a real. -/
theorem ofBits_margin : ∃ r : ℝ, Ideal.ofBits .f32 0x3E99999A#32 = (r : EReal) := by
  refine ⟨(1 : ℝ) * ((2 ^ 23 + 1677722 : ℕ) : ℝ) * (2 : ℝ) ^ ((125 : ℤ) - 127 - 23), ?_⟩
  simp [Ideal.ofBits, Ideal.ieee, -EReal.coe_mul]

/-- Sign bit set, all-ones exponent, zero fraction: `-∞`. -/
theorem ofBits_neg_inf : Ideal.ofBits .f32 0xFF800000#32 = ⊥ := by
  simp [Ideal.ofBits, Ideal.ieee]

/-- Sign bit clear, all-ones exponent, zero fraction: `+∞`. -/
theorem ofBits_pos_inf : Ideal.ofBits .f32 0x7F800000#32 = ⊤ := by
  simp [Ideal.ofBits, Ideal.ieee]

end Cert.Consts

end
-- ==== Proof.Bridge.lean ====
import proofs.«175049_j14310831030886_1_alg».proof.Proof.Spec
import proofs.«175049_j14310831030886_1_alg».proof.Proof.SpecMath
import proofs.«175049_j14310831030886_1_alg».proof.Proof.SpecBound
import proofs.«175049_j14310831030886_1_alg».proof.Proof.Consts

/-!
# From the float words to the loss: the two forms agree

Two facts tie the abstract loss to the words the programs spell.

* Every normalised entry `x i k / max (√(∑ x i k'²)) eps` is a real of absolute value at most one:
  the zero word denotes `0`, the `eps` word a positive real, and a row of reals divided by a bound
  of its Euclidean norm has entries in the unit interval.
* With unit-bounded entries every distance lies in `[-63, 65]`, strictly between the two
  thresholds `∓5·10^8`, which in turn lie between the two fill values `∓10^9`.  So a row's
  hardest positive exceeds the low threshold exactly when the row has a positive column, and its
  hardest negative is below the high threshold exactly when it has a negative column: the
  threshold test and the column test select the same rows, and the two quotients
  (sum of the row losses over the larger of the row count and one) are equal term by term.
-/

noncomputable section

open scoped BigOperators
open Idealize.ShloMosaic

namespace Cert.Bridge

/-- Every normalised entry is a real of absolute value at most one. -/
theorem unit_bounded (x en : Fin 8192 → Fin 64 → EReal) (hx : ∀ i k, ∃ r : ℝ, x i k = (r : EReal))
    (hen : ∀ i k, en i k = Ideal.div (x i k)
      (max (Ideal.sqrt ((Ideal.ofBits .f32 0x00000000#32) + ∑ k' : Fin 64, x i k' * x i k')) (Ideal.ofBits .f32 0x2B8CBCCC#32))) :
    ∀ i k, ∃ r : ℝ, |r| ≤ 1 ∧ en i k = (r : EReal) := by
  intro i k
  choose f hf using hx
  obtain ⟨e, he, heq⟩ := Cert.Consts.ofBits_eps
  obtain ⟨r, hr, h⟩ := Cert.SpecMath.normalized_abs_le_one (f i) e he k
  refine ⟨r, hr, ?_⟩
  rw [hen i k, Cert.Consts.ofBits_zero, heq]
  simp only [hf]
  exact h

/-- With the certificate's constants and unit-bounded entries, the threshold test is the column test. -/
theorem countsThr_iff_counts (fam : Fin 8192 → BitVec 32) (en : Fin 8192 → Fin 64 → EReal)
    (hen : ∀ i k, ∃ r : ℝ, |r| ≤ 1 ∧ en i k = (r : EReal)) (i : Fin 8192) :
    (Cert.Spec.CountsThr fam en (Ideal.ofBits .f32 0x3F800000#32) (Ideal.ofBits .f32 0xCE6E6B28#32) (Ideal.ofBits .f32 0x4E6E6B28#32) (Ideal.ofBits .f32 0xCDEE6B28#32) (Ideal.ofBits .f32 0x4DEE6B28#32) i) ↔ (Cert.Spec.Counts fam i) :=
  Cert.Spec.countsThr_iff fam en _ _ _ _ _ (Fintype.card_fin 64) hen Cert.Consts.ofBits_one
    Cert.Consts.ofBits_neg_big Cert.Consts.ofBits_pos_big Cert.Consts.ofBits_lo Cert.Consts.ofBits_hi i

/-- A row's loss depends on the deciding proposition only through its truth. -/
theorem rowLoss_congr {ι κ : Type} [Fintype ι] [DecidableEq ι] [Fintype κ] (fam : ι → BitVec 32) (en : ι → κ → EReal)
    (one neg pos margin zero : EReal) (v w : Prop) [Decidable v] [Decidable w] (h : v ↔ w) (i : ι) :
    Cert.Spec.rowLoss fam en one neg pos margin zero v i = Cert.Spec.rowLoss fam en one neg pos margin zero w i := by
  unfold Cert.Spec.rowLoss
  exact if_congr h rfl rfl

/-- The loss with rows selected by the thresholds is the loss with rows selected by their columns. -/
theorem results_agree (fam : Fin 8192 → BitVec 32) (en : Fin 8192 → Fin 64 → EReal)
    (hen : ∀ i k, ∃ r : ℝ, |r| ≤ 1 ∧ en i k = (r : EReal)) :
    Ideal.div ((Ideal.ofBits .f32 0x00000000#32) + ∑ i : Fin 8192, Cert.Spec.rowLoss fam en (Ideal.ofBits .f32 0x3F800000#32) (Ideal.ofBits .f32 0xCE6E6B28#32) (Ideal.ofBits .f32 0x4E6E6B28#32) (Ideal.ofBits .f32 0x3E99999A#32) (Ideal.ofBits .f32 0x00000000#32) (Cert.Spec.CountsThr fam en (Ideal.ofBits .f32 0x3F800000#32) (Ideal.ofBits .f32 0xCE6E6B28#32) (Ideal.ofBits .f32 0x4E6E6B28#32) (Ideal.ofBits .f32 0xCDEE6B28#32) (Ideal.ofBits .f32 0x4DEE6B28#32) i) i)
        (max ((Ideal.ofBits .f32 0x00000000#32) + ∑ i : Fin 8192, (if Cert.Spec.CountsThr fam en (Ideal.ofBits .f32 0x3F800000#32) (Ideal.ofBits .f32 0xCE6E6B28#32) (Ideal.ofBits .f32 0x4E6E6B28#32) (Ideal.ofBits .f32 0xCDEE6B28#32) (Ideal.ofBits .f32 0x4DEE6B28#32) i then (1 : EReal) else 0)) (Ideal.ofBits .f32 0x3F800000#32))
      = Ideal.div ((Ideal.ofBits .f32 0x00000000#32) + ∑ i : Fin 8192, Cert.Spec.rowLoss fam en (Ideal.ofBits .f32 0x3F800000#32) (Ideal.ofBits .f32 0xCE6E6B28#32) (Ideal.ofBits .f32 0x4E6E6B28#32) (Ideal.ofBits .f32 0x3E99999A#32) (Ideal.ofBits .f32 0x00000000#32) (Cert.Spec.Counts fam i) i)
        (max ((Ideal.ofBits .f32 0x00000000#32) + ∑ i : Fin 8192, (if Cert.Spec.Counts fam i then (1 : EReal) else 0)) (Ideal.ofBits .f32 0x3F800000#32)) := by
  have hc := countsThr_iff_counts fam en hen
  have e1 : (∑ i : Fin 8192, Cert.Spec.rowLoss fam en (Ideal.ofBits .f32 0x3F800000#32) (Ideal.ofBits .f32 0xCE6E6B28#32) (Ideal.ofBits .f32 0x4E6E6B28#32) (Ideal.ofBits .f32 0x3E99999A#32) (Ideal.ofBits .f32 0x00000000#32) (Cert.Spec.CountsThr fam en (Ideal.ofBits .f32 0x3F800000#32) (Ideal.ofBits .f32 0xCE6E6B28#32) (Ideal.ofBits .f32 0x4E6E6B28#32) (Ideal.ofBits .f32 0xCDEE6B28#32) (Ideal.ofBits .f32 0x4DEE6B28#32) i) i)
      = ∑ i : Fin 8192, Cert.Spec.rowLoss fam en (Ideal.ofBits .f32 0x3F800000#32) (Ideal.ofBits .f32 0xCE6E6B28#32) (Ideal.ofBits .f32 0x4E6E6B28#32) (Ideal.ofBits .f32 0x3E99999A#32) (Ideal.ofBits .f32 0x00000000#32) (Cert.Spec.Counts fam i) i :=
    Finset.sum_congr rfl fun i _ => rowLoss_congr fam en _ _ _ _ _ _ _ (hc i) i
  have e2 : (∑ i : Fin 8192, (if Cert.Spec.CountsThr fam en (Ideal.ofBits .f32 0x3F800000#32) (Ideal.ofBits .f32 0xCE6E6B28#32) (Ideal.ofBits .f32 0x4E6E6B28#32) (Ideal.ofBits .f32 0xCDEE6B28#32) (Ideal.ofBits .f32 0x4DEE6B28#32) i then (1 : EReal) else 0))
      = ∑ i : Fin 8192, (if Cert.Spec.Counts fam i then (1 : EReal) else 0) :=
    Finset.sum_congr rfl fun i _ => if_congr (hc i) rfl rfl
  rw [e1, e2]

end Cert.Bridge

end
-- ==== Proof.Finite.lean ====
/-
  Finiteness of the float input, read back from the precondition. The precondition says that
  every entry's absolute value is below +inf, as a chain of host operations: an absolute value, a
  comparison against the f32 pattern of +inf broadcast to the array's shape, and a reduction by
  `and` over both axes.
  Its result being 1 gives the comparison at every index; at the ideal instance the comparison is
  `max v (-v) < ⊤` on the extended reals, which fails at both infinities, so every entry is a real.
-/
import proofs.«175049_j14310831030886_1_alg».proof.Pre_finite_inputs
import proofs.«175049_j14310831030886_1_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The f32 pattern `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max v (-v)` is below `⊤` is a real. -/
theorem real_of_abs_lt_top (v : EReal) (hv : max v (-v) < ⊤) : ∃ r : ℝ, v = (r : EReal) := by
  induction v using EReal.rec with
  | bot => simp at hv
  | coe r => exact ⟨r, rfl⟩
  | top => simp at hv

/-- Under the precondition every entry of the float input is a real. -/
theorem real_of_pre [Cert.Pre_finite_inputs.Facts]
    (x : FVec Ideal Cert.Pre_finite_inputs.S8192x64 .f32) (lab : IVec Cert.Pre_finite_inputs.S8192 32)
    (h : Cert.Pre_finite_inputs.fn (F := Ideal) x lab = fun _ => 1#1) (i : Fin 8192) (k : Fin 64) :
    ∃ r : ℝ, x (ValueIdx.ix2 i k) = (r : EReal) := by
  have h0 := congrFun h ValueIdx.ix0
  dsimp only [Cert.Pre_finite_inputs.fn] at h0
  have he := Host.reduce_andi_all _ _ _ _ _ h0 (ValueIdx.ix2 i k)
  have hc : Ideal.cmp .olt (max (x (ValueIdx.ix2 i k)) (-(x (ValueIdx.ix2 i k))))
      (Ideal.ofBits .f32 0x7F800000#32) = 1#1 := he
  rw [ofBits_posInf] at hc
  refine real_of_abs_lt_top _ ?_
  by_contra hn
  simp [Ideal.cmp, hn] at hc

end Cert.Finite

end
-- ==== Proof.Loss.lean ====
/-
  The loss as ONE function of the two argument arrays, in the reference's form (a row counts when it has a positive
  and a negative column), and the kernel's program ending at it: the kernel's result is the same quotient of sums
  with the threshold test in place of the column test, and the two tests agree because the precondition makes every
  embedding entry a real, hence every normalised entry a real of absolute value at most one.
-/
import proofs.«175049_j14310831030886_1_alg».proof.Defs
import proofs.«175049_j14310831030886_1_alg».proof.Proof.KIValue
import proofs.«175049_j14310831030886_1_alg».proof.Proof.Bridge
import proofs.«175049_j14310831030886_1_alg».proof.Proof.Finite

noncomputable section

namespace Cert.Proof.Claims

open Idealize.ShloMosaic Idealize.ShloMosaic.TcCoe Idealize.ShloMosaic.ValueIdx
open Idealize.SL Idealize.SL.Sem
open scoped BigOperators

local notation "wOne" => (Ideal.ofBits FTy.f32 0x3F800000#32 : EReal)
local notation "wNeg" => (Ideal.ofBits FTy.f32 0xCE6E6B28#32 : EReal)
local notation "wPos" => (Ideal.ofBits FTy.f32 0x4E6E6B28#32 : EReal)
local notation "wMargin" => (Ideal.ofBits FTy.f32 0x3E99999A#32 : EReal)
local notation "wZero" => (Ideal.ofBits FTy.f32 0x00000000#32 : EReal)

/-- Row `i`'s family, from the labels. -/
abbrev famRow (lab : IVec Cert.KernelIdeal.S8192 32) (i : Fin 8192) : BitVec 32 := Cert.KernelIdeal.Hand.famOf lab (ix1 i)
/-- Entry `k` of row `i`'s normalised embedding. -/
abbrev enRow (x : FVec Ideal Cert.KernelIdeal.S8192x64 .f32) (i : Fin 8192) (k : Fin 64) : EReal := Cert.KernelIdeal.Hand.enOf x (ix2 i k)

/-- The loss: the sum of the counting rows' hinges over the larger of their number and one. -/
def lossOf (x : FVec Ideal Cert.KernelIdeal.S8192x64 .f32) (lab : IVec Cert.KernelIdeal.S8192 32) : EReal :=
  Ideal.div
    (wZero + ∑ i : Fin 8192, Cert.Spec.rowLoss (famRow lab) (enRow x) wOne wNeg wPos wMargin wZero (Cert.Spec.Counts (famRow lab) i) i)
    (max (wZero + ∑ i : Fin 8192, (if Cert.Spec.Counts (famRow lab) i then (1 : EReal) else (0 : EReal))) wOne)

/-- Under the precondition every normalised entry is a real of absolute value at most one. -/
theorem enRow_unit (x : FVec Ideal Cert.KernelIdeal.S8192x64 .f32) (lab : IVec Cert.KernelIdeal.S8192 32)
    (h : Cert.Pre_finite_inputs.fn (F := Ideal) x lab = fun _ => 1#1) :
    ∀ i k, ∃ r : ℝ, |r| ≤ 1 ∧ enRow x i k = (r : EReal) :=
  Cert.Bridge.unit_bounded (fun i k => x (ix2 i k)) (enRow x)
    (fun i k => Cert.Finite.real_of_pre x lab h i k)
    (fun i k => Cert.KernelIdeal.Hand.enOf_apply x i k)

/-- The kernel's program ends with its result buffer at the loss of its two arguments. -/
theorem kernel_side (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Hand.W6 (F := Ideal) m c Cert.KernelIdeal.main_v12 : FVec Ideal Cert.KernelIdeal.S_ .f32) ix0
      = lossOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  (Cert.KernelIdeal.Hand.kernel_value m c).trans
    (Cert.Bridge.results_agree _ _ (enRow_unit _ _ (hpre c)))

end Cert.Proof.Claims

end
-- ==== Proof.RefValue.lean ====
/-
  The reference's value in closed form. At the ideal float values the term `RefRun.result` of the two arguments,
  read at its one index, is the batch-hard loss of `Cert.Spec`: with each row's family and the normalised rows kept
  as given functions, every pair's distance is one minus the inner product of the two normalised rows; a column is
  a positive of a row when the families agree and the indices differ, a negative when the families differ; the
  row maximum of the masked distances from minus infinity is the supremum over the columns, the row minimum from
  plus infinity the infimum; a row is kept when it has a positive and a negative; the two final sums are the
  initial zero plus the sum over the rows, and the quotient is the ideal division with the count floored at one.
  Every step is stated at one index of one array over variables; no reduction over the square arrays is opened.
-/
import proofs.«175049_j14310831030886_1_alg».proof.Proof.RefRun
import proofs.«175049_j14310831030886_1_alg».proof.Proof.Spec
import proofs.«175049_j14310831030886_1_alg».proof.Proof.Consts
import Idealize.ShloMosaic.Lib.IdealHost
import Idealize.ShloMosaic.Lib.StackMember
import Idealize.ShloMosaic.Lib.Affine
import Idealize.ShloMosaic.PureOps.Reduce

-- one declaration at a time: elaborated in parallel the module's resident memory is the sum of its declarations'
set_option Elab.async false

noncomputable section

open scoped BigOperators

namespace Cert.ReferenceIdeal.RefValue

open Cert.ReferenceIdeal Cert.ReferenceIdeal.Gen Idealize.ShloMosaic Idealize.ShloMosaic.ValueIdx

/-! ## Reading the layout operations at an index -/

section Index
variable {α : Type}

/-- A vector laid down the rows of the square: entry (i, j) is the vector's entry i. -/
theorem rows_apply (v : S8192.Idx → α) (i j : Fin 8192) :
    broadcastInDim S8192x8192 ![0, 1] bcast_S8192x1_S8192x8192_0_1
      (broadcastInDim S8192x1 ![0] bcast_S8192_S8192x1_0 v) (ix2 i j) = v (ix1 i) := by
  rw [broadcastInDim_apply ![0, 1] bcast_S8192x1_S8192x8192_0_1 _ (ix2 i j) (ix2 i (0 : Fin 1))
        (fun a => by match a with | ⟨0, _⟩ => rfl | ⟨1, _⟩ => rfl),
      broadcastInDim_apply ![0] bcast_S8192_S8192x1_0 v (ix2 i (0 : Fin 1)) (ix1 i)
        (fun a => by match a with | ⟨0, _⟩ => rfl)]

/-- A vector laid along the columns of the square: entry (i, j) is the vector's entry j. -/
theorem cols_apply (v : S8192.Idx → α) (i j : Fin 8192) :
    broadcastInDim S8192x8192 ![0, 1] bcast_S1x8192_S8192x8192_0_1
      (broadcastInDim S1x8192 ![1] bcast_S8192_S1x8192_1 v) (ix2 i j) = v (ix1 j) := by
  rw [broadcastInDim_apply ![0, 1] bcast_S1x8192_S8192x8192_0_1 _ (ix2 i j) (ix2 (0 : Fin 1) j)
        (fun a => by match a with | ⟨0, _⟩ => rfl | ⟨1, _⟩ => rfl),
      broadcastInDim_apply ![1] bcast_S8192_S1x8192_1 v (ix2 (0 : Fin 1) j) (ix1 j)
        (fun a => by match a with | ⟨0, _⟩ => rfl)]

/-- A rank-one index is its coordinate. -/
def idxEquiv1 {n : Nat} : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type} [AddCommMonoid M] {n : Nat} (f : (⟨1, ![n]⟩ : Shape).Idx → M) :
    ∑ i, f i = ∑ a : Fin n, f (ix1 a) :=
  (Equiv.sum_comp (idxEquiv1 (n := n)).symm f).symm

end Index

/-! ## Reading the row reductions at a row -/

/-- The square with its column axis dropped is the vector of rows. -/
theorem red1 : S8192x8192.Reduces [1] S8192 := by decide

/-- Row i with column coordinate k inserted is the index (i, k). -/
theorem lift_row (i k : Fin 8192) : red1.lift (ix1 i) k = ix2 i k := by
  funext c
  apply Fin.ext
  show Shape.Reduces.liftVal red1 (ix1 i) k.val c = ((ix2 i k) c).val
  match c with
  | ⟨0, _⟩ => rfl
  | ⟨1, _⟩ => rfl

/-- The row maximum from minus infinity is the supremum over the columns. -/
theorem rowMax_apply (A : FVec Ideal S8192x8192 .f32) (i : Fin 8192) :
    Host.reduce (FloatOps.maximumf (F := Ideal) (φ := .f32)) A (constant (F := Ideal) S_ .f32 0xFF800000#32)
        reducesTo_S8192x8192_S8192_d1 h_S_ (ix1 i)
      = Finset.univ.sup fun k : Fin 8192 => A (ix2 i k) := by
  rw [Host.reduce_eq_fold_single (FloatOps.maximumf (F := Ideal) (φ := .f32)) A _ reducesTo_S8192x8192_S8192_d1 red1 h_S_ (ix1 i)]
  show Finset.univ.fold max (Ideal.ofBits .f32 0xFF800000#32) (A ∘ red1.lift (ix1 i)) = _
  rw [Cert.Consts.ofBits_neg_inf]
  show Finset.univ.sup (A ∘ red1.lift (ix1 i)) = _
  exact congrArg Finset.univ.sup (funext fun k => congrArg A (lift_row i k))

/-- The row minimum from plus infinity is the infimum over the columns. -/
theorem rowMin_apply (A : FVec Ideal S8192x8192 .f32) (i : Fin 8192) :
    Host.reduce (FloatOps.minimumf (F := Ideal) (φ := .f32)) A (constant (F := Ideal) S_ .f32 0x7F800000#32)
        reducesTo_S8192x8192_S8192_d1 h_S_ (ix1 i)
      = Finset.univ.inf fun k : Fin 8192 => A (ix2 i k) := by
  rw [Host.reduce_eq_fold_single (FloatOps.minimumf (F := Ideal) (φ := .f32)) A _ reducesTo_S8192x8192_S8192_d1 red1 h_S_ (ix1 i)]
  show Finset.univ.fold min (Ideal.ofBits .f32 0x7F800000#32) (A ∘ red1.lift (ix1 i)) = _
  rw [Cert.Consts.ofBits_pos_inf]
  show Finset.univ.inf (A ∘ red1.lift (ix1 i)) = _
  exact congrArg Finset.univ.inf (funext fun k => congrArg A (lift_row i k))

/-- A disjunction folded from the clear bit is set exactly when some entry's bit is set. -/
theorem fold_ori_eq_one {ι : Type} (s : Finset ι) (f : ι → BitVec 1) :
    s.fold IntOp.ori 0#1 f = 1#1 ↔ ∃ k ∈ s, f k = 1#1 := by
  induction s using Finset.cons_induction with
  | empty => simp
  | cons a s ha ih =>
    rw [Finset.fold_cons, IntOp.ori_eq_one, ih]
    simp only [Finset.mem_cons, exists_eq_or_imp]

/-- The row disjunction from the clear bit is set exactly when some column's bit is set. -/
theorem rowAny_apply (M : IVec S8192x8192 1) (i : Fin 8192) :
    Host.reduce IntOp.ori M (constantI S_ 1 0#1) reducesTo_S8192x8192_S8192_d1 h_S_ (ix1 i) = 1#1
      ↔ ∃ k : Fin 8192, M (ix2 i k) = 1#1 := by
  rw [Host.reduce_eq_fold_single IntOp.ori M _ reducesTo_S8192x8192_S8192_d1 red1 h_S_ (ix1 i)]
  show Finset.univ.fold IntOp.ori 0#1 (M ∘ red1.lift (ix1 i)) = 1#1 ↔ _
  rw [fold_ori_eq_one]
  constructor
  · rintro ⟨k, -, hk⟩
    exact ⟨k, by rw [← lift_row i k]; exact hk⟩
  · rintro ⟨k, hk⟩
    refine ⟨k, Finset.mem_univ _, ?_⟩
    show M (red1.lift (ix1 i) k) = 1#1
    rw [lift_row]; exact hk

/-- The sum of a vector of rows from the zero word is that word's value plus the sum over the rows. -/
theorem sumAll_apply (v : FVec Ideal S8192 .f32) :
    Host.reduceAdd v (constant (F := Ideal) S_ .f32 0x00000000#32) reducesTo_S8192_S_d0 h_S_ ix0
      = Ideal.ofBits .f32 0x00000000#32 + ∑ i : Fin 8192, v (ix1 i) := by
  rw [hostReduceAdd_apply, Ideal.hostReduceAdd_total reducesTo_S8192_S_d0 (fun b => b.elim0)]
  show _ + ∑ i : S8192.Idx, v i = _
  rw [sum_idx1]
  rfl

/-- A bit read as a float is one or zero. -/
theorem uitofp_bit (b : BitVec 1) : (FloatOps.uitofp (F := Ideal) .f32 b : EReal) = if b = 1#1 then 1 else 0 := by
  rcases BitVec.eq_zero_or_eq_one b with rfl | rfl
  · show (((0#1 : BitVec 1).toNat : ℝ) : EReal) = _
    simp
  · show (((1#1 : BitVec 1).toNat : ℝ) : EReal) = _
    simp

/-! ## The stages of the reference at an index -/

variable (x : FVec Ideal S8192x64 .f32) (lab : IVec S8192 32)

/-- Row i's family. -/
abbrev famAt (i : Fin 8192) : BitVec 32 := RefRun.fam lab (ix1 i)
/-- Entry k of normalised row i. -/
abbrev enAt (i : Fin 8192) (k : Fin 64) : EReal := RefRun.enorm x (ix2 i k)
/-- The float words of the program as extended reals: one, the two fills, the margin, zero. -/
abbrev one : EReal := Ideal.ofBits .f32 0x3F800000#32
abbrev negFill : EReal := Ideal.ofBits .f32 0xCE6E6B28#32
abbrev posFill : EReal := Ideal.ofBits .f32 0x4E6E6B28#32
abbrev margin : EReal := Ideal.ofBits .f32 0x3E99999A#32
abbrev zero : EReal := Ideal.ofBits .f32 0x00000000#32

theorem famRows_apply (i j : Fin 8192) : RefRun.famRows lab (ix2 i j) = famAt lab i := by
  unfold RefRun.famRows; exact rows_apply _ i j

theorem famCols_apply (i j : Fin 8192) : RefRun.famCols lab (ix2 i j) = famAt lab j := by
  unfold RefRun.famCols; exact cols_apply _ i j

/-- Off the diagonal: the two indices, below 2^32, differ as words exactly when they differ. -/
theorem offDiag_apply (i j : Fin 8192) : RefRun.offDiag (ix2 i j) = 1#1 ↔ i ≠ j := by
  have e : RefRun.offDiag (ix2 i j)
      = ~~~(IntOp.cmpi .eq (IntOp.addi (BitVec.ofNat 32 i.val) (0#32)) (BitVec.ofNat 32 j.val)) := by
    unfold RefRun.offDiag
    show ~~~(IntOp.cmpi .eq (IntOp.addi (BitVec.ofNat 32 i.val)
      (broadcastInDim S8192x8192 ![] bcast_S_S8192x8192 (constantI S_ 32 0#32) (ix2 i j))) (BitVec.ofNat 32 j.val)) = _
    rw [broadcastInDim_scalar_apply]; rfl
  rw [e, IntOp.not_eq_one, IntOp.cmpi_eq]
  show ¬ (BitVec.ofNat 32 i.val + 0#32 = BitVec.ofNat 32 j.val) ↔ _
  rw [BitVec.add_zero]
  constructor
  · intro h hij; exact h (by rw [hij])
  · intro h e'
    apply h; apply Fin.ext
    have h2 := congrArg BitVec.toNat e'
    simp only [BitVec.toNat_ofNat] at h2
    have hi := i.isLt; have hj := j.isLt
    omega

/-- The positives' mask at (i, j): same family, off the diagonal. -/
theorem same_apply (i j : Fin 8192) :
    RefRun.same lab (ix2 i j) = 1#1 ↔ (famAt lab i = famAt lab j ∧ i ≠ j) := by
  unfold RefRun.same
  show IntOp.andi (IntOp.cmpi .eq (RefRun.famRows lab (ix2 i j)) (RefRun.famCols lab (ix2 i j))) (RefRun.offDiag (ix2 i j)) = 1#1 ↔ _
  rw [IntOp.andi_eq_one, IntOp.cmpi_eq, famRows_apply, famCols_apply, offDiag_apply]

/-- The negatives' mask at (i, j): different families. -/
theorem diff_apply (i j : Fin 8192) : RefRun.diff lab (ix2 i j) = 1#1 ↔ famAt lab i ≠ famAt lab j := by
  unfold RefRun.diff
  show IntOp.cmpi .ne (RefRun.famRows lab (ix2 i j)) (RefRun.famCols lab (ix2 i j)) = 1#1 ↔ _
  rw [IntOp.cmpi_ne, famRows_apply, famCols_apply]

/-- The Gram matrix at (i, j): the inner product of normalised rows i and j. -/
theorem gram_apply (i j : Fin 8192) : RefRun.gram x (ix2 i j) = ∑ k : Fin 64, enAt x i k * enAt x j k := by
  unfold RefRun.gram
  show Host.dotGeneral (DotDims.plain 8192 64 8192) none (RefRun.enorm x)
    (transpose S64x8192 [1, 0] (RefRun.enorm x) transposes_S8192x64_S64x8192_1_0) (ix2 i j) = _
  rw [StackMember.dotGeneral_plain_apply]
  refine Finset.sum_congr rfl fun k _ => ?_
  rw [transpose_apply [1, 0] (RefRun.enorm x) transposes_S8192x64_S64x8192_1_0 (ix2 k j) (ix2 j k)
    (fun b => by match b with | ⟨0, _⟩ => rfl | ⟨1, _⟩ => rfl)]

/-- The distance at (i, j). -/
theorem dist_apply (i j : Fin 8192) : RefRun.dist x (ix2 i j) = Cert.Spec.dist (enAt x) one i j := by
  unfold RefRun.dist Cert.Spec.dist
  show (broadcastInDim S8192x8192 ![] bcast_S_S8192x8192 (constant (F := Ideal) S_ .f32 0x3F800000#32)) (ix2 i j)
      - RefRun.gram x (ix2 i j) = _
  rw [broadcastInDim_scalar_apply, gram_apply]
  rfl

/-- The farthest positive of row i. -/
theorem dpos_apply (i : Fin 8192) :
    RefRun.dpos x lab (ix1 i) = Cert.Spec.dpos (famAt lab) (enAt x) one negFill i := by
  unfold RefRun.dpos Cert.Spec.dpos
  rw [rowMax_apply]
  refine congrArg Finset.univ.sup (funext fun k => ?_)
  show Scalar.select (RefRun.same lab (ix2 i k)) (RefRun.dist x (ix2 i k))
      ((broadcastInDim S8192x8192 ![] bcast_S_S8192x8192 (constant (F := Ideal) S_ .f32 0xCE6E6B28#32)) (ix2 i k))
    = Cert.Spec.wpos (famAt lab) (enAt x) one negFill i k
  rw [broadcastInDim_scalar_apply, dist_apply]
  unfold Cert.Spec.wpos Scalar.select
  exact if_congr (same_apply lab i k) rfl rfl

/-- The nearest negative of row i. -/
theorem dneg_apply (i : Fin 8192) :
    RefRun.dneg x lab (ix1 i) = Cert.Spec.dneg (famAt lab) (enAt x) one posFill i := by
  unfold RefRun.dneg Cert.Spec.dneg
  rw [rowMin_apply]
  refine congrArg Finset.univ.inf (funext fun k => ?_)
  show Scalar.select (RefRun.diff lab (ix2 i k)) (RefRun.dist x (ix2 i k))
      ((broadcastInDim S8192x8192 ![] bcast_S_S8192x8192 (constant (F := Ideal) S_ .f32 0x4E6E6B28#32)) (ix2 i k))
    = Cert.Spec.wneg (famAt lab) (enAt x) one posFill i k
  rw [broadcastInDim_scalar_apply, dist_apply]
  unfold Cert.Spec.wneg Scalar.select
  exact if_congr (diff_apply lab i k) rfl rfl

/-- Row i is kept exactly when it has a positive and a negative column. -/
theorem valid_apply (i : Fin 8192) : RefRun.valid lab (ix1 i) = 1#1 ↔ Cert.Spec.Counts (famAt lab) i := by
  unfold RefRun.valid Cert.Spec.Counts
  show IntOp.andi
      (Host.reduce IntOp.ori (RefRun.same lab) (constantI S_ 1 0#1) reducesTo_S8192x8192_S8192_d1 h_S_ (ix1 i))
      (Host.reduce IntOp.ori (RefRun.diff lab) (constantI S_ 1 0#1) reducesTo_S8192x8192_S8192_d1 h_S_ (ix1 i)) = 1#1 ↔ _
  rw [IntOp.andi_eq_one, rowAny_apply, rowAny_apply]
  exact and_congr (exists_congr fun k => same_apply lab i k) (exists_congr fun k => diff_apply lab i k)

/-- The hinge of row i. -/
theorem hinge_apply (i : Fin 8192) :
    RefRun.hinge x lab (ix1 i)
      = max (Cert.Spec.dpos (famAt lab) (enAt x) one negFill i - Cert.Spec.dneg (famAt lab) (enAt x) one posFill i + margin) zero := by
  unfold RefRun.hinge
  rw [maximumf_apply, addf_apply, subf_apply, broadcastInDim_scalar_apply, broadcastInDim_scalar_apply,
    constant_apply, constant_apply, dpos_apply, dneg_apply]

/-- Row i's term: its loss if it is kept, zero otherwise. -/
theorem perRow_apply (i : Fin 8192) :
    RefRun.perRow x lab (ix1 i)
      = Cert.Spec.rowLoss (famAt lab) (enAt x) one negFill posFill margin zero (Cert.Spec.Counts (famAt lab) i) i := by
  unfold RefRun.perRow Cert.Spec.rowLoss
  rw [select_apply, broadcastInDim_scalar_apply, constant_apply, hinge_apply]
  unfold Scalar.select
  exact if_congr (valid_apply lab i) rfl rfl

/-- The sum of the rows' terms. -/
theorem total_apply :
    RefRun.total x lab ix0
      = zero + ∑ i : Fin 8192,
          Cert.Spec.rowLoss (famAt lab) (enAt x) one negFill posFill margin zero (Cert.Spec.Counts (famAt lab) i) i := by
  unfold RefRun.total
  rw [sumAll_apply]
  exact congrArg (zero + ·) (Finset.sum_congr rfl fun i _ => perRow_apply x lab i)

/-- The number of rows kept. -/
theorem count_apply :
    RefRun.count (F := Ideal) lab ix0
      = zero + ∑ i : Fin 8192, (if Cert.Spec.Counts (famAt lab) i then (1 : EReal) else 0) := by
  unfold RefRun.count
  rw [sumAll_apply]
  refine congrArg (zero + ·) (Finset.sum_congr rfl fun i _ => ?_)
  show FloatOps.uitofp (F := Ideal) .f32 (RefRun.valid lab (ix1 i)) = _
  rw [uitofp_bit]
  exact if_congr (valid_apply lab i) rfl rfl

/-- THE REFERENCE'S VALUE: the sum of the kept rows' losses over the larger of their number and one. -/
theorem ref_value :
    RefRun.result (F := Ideal) x lab ix0
      = Ideal.div
          (zero + ∑ i : Fin 8192,
            Cert.Spec.rowLoss (famAt lab) (enAt x) one negFill posFill margin zero (Cert.Spec.Counts (famAt lab) i) i)
          (max (zero + ∑ i : Fin 8192, (if Cert.Spec.Counts (famAt lab) i then (1 : EReal) else 0)) one) := by
  unfold RefRun.result
  rw [hostDivf_apply, maximumf_apply, constant_apply, total_apply, count_apply]

end Cert.ReferenceIdeal.RefValue

end
-- ==== Proof.Same.lean ====
import proofs.«175049_j14310831030886_1_alg».proof.Proof.RefRun
import proofs.«175049_j14310831030886_1_alg».proof.Proof.KIHost

/-!
# The two programs prepare their arguments alike

Before anything else both programs look every row's family up in the same six-entry table (the
label wrapped by six when negative, the least integer where the wrapped label falls outside the
table) and divide every row of the embeddings by the larger of its Euclidean norm and the same
small constant.  Each program names these terms with its own shape and dimension records; the
records have the same data, so the terms are equal by unfolding the names on both sides.  Nothing
is computed: neither the lookup nor a sum is evaluated.
-/

noncomputable section

namespace Cert.Same

open Idealize.ShloMosaic

/-- The two family tables are the same six entries. -/
theorem table_eq : Cert.ReferenceIdeal.RefRun.table = Cert.KernelIdeal.Hand.famTab := rfl

/-- The wrapped labels agree. -/
theorem wrap_eq (lab : IVec Cert.KernelIdeal.S8192 32) :
    Cert.ReferenceIdeal.RefRun.wrap lab = Cert.KernelIdeal.Hand.famIdx lab := rfl

/-- The wrapped labels as a column agree. -/
theorem idx_eq (lab : IVec Cert.KernelIdeal.S8192 32) :
    Cert.ReferenceIdeal.RefRun.idx lab = Cert.KernelIdeal.Hand.famCol lab := by
  unfold Cert.ReferenceIdeal.RefRun.idx Cert.KernelIdeal.Hand.famCol
  rw [wrap_eq]

/-- The range tests agree. -/
theorem inTable_eq (lab : IVec Cert.KernelIdeal.S8192 32) :
    Cert.ReferenceIdeal.RefRun.inTable lab = Cert.KernelIdeal.Hand.famOk lab := by
  unfold Cert.ReferenceIdeal.RefRun.inTable Cert.KernelIdeal.Hand.famOk
  rw [idx_eq]

/-- The two lookups' dimension numbers are the same record. -/
theorem gatherDims_eq :
    Cert.ReferenceIdeal.gather_S6_S8192x1_S8192_n_0_n_n_0_1_1 = Cert.KernelIdeal.gather_S6_S8192x1_S8192_n_0_n_n_0_1_1 := rfl

/-- Both programs compute every row's family by the same lookup. -/
theorem fam_eq (lab : IVec Cert.KernelIdeal.S8192 32) :
    Cert.ReferenceIdeal.RefRun.fam lab = Cert.KernelIdeal.Hand.famOf lab := by
  unfold Cert.ReferenceIdeal.RefRun.fam Cert.KernelIdeal.Hand.famOf
  rw [inTable_eq, idx_eq, table_eq, gatherDims_eq]

/-- Both programs normalise the rows by the same term. -/
theorem enorm_eq (x : FVec Ideal Cert.KernelIdeal.S8192x64 .f32) :
    Cert.ReferenceIdeal.RefRun.enorm (F := Ideal) x = Cert.KernelIdeal.Hand.enOf x := by
  unfold Cert.ReferenceIdeal.RefRun.enorm Cert.ReferenceIdeal.RefRun.rnorm Cert.ReferenceIdeal.RefRun.sqnorm
    Cert.KernelIdeal.Hand.enOf
  rfl

end Cert.Same

end
-- ==== Proof.Algebraic.lean ====
/-
  The algebraic conjunct: at the ideal instance the kernel's program and the reference, run from memories that agree
  on the two arguments, both end, with the same result: the loss of the two arguments.

  The kernel's program ends with every unscoped buffer at the fold of the program's items from the launch memory; its
  result buffer there is the loss (`kernel_side`). The reference's run ends with its result buffer at the composed
  term of its operations, which read row by row is the same quotient of sums, over the same family lookup and the
  same normalisation of the embeddings as the kernel's program applies.
-/
import proofs.«175049_j14310831030886_1_alg».proof.Defs
import proofs.«175049_j14310831030886_1_alg».proof.Proof.Gen.KernelIdeal
import proofs.«175049_j14310831030886_1_alg».proof.Proof.Gen.ReferenceIdeal
import proofs.«175049_j14310831030886_1_alg».proof.Proof.Gen.Pre_finite_inputs
import proofs.«175049_j14310831030886_1_alg».proof.Proof.KILaunch
import proofs.«175049_j14310831030886_1_alg».proof.Proof.Loss
import proofs.«175049_j14310831030886_1_alg».proof.Proof.RefValue
import proofs.«175049_j14310831030886_1_alg».proof.Proof.Same

noncomputable section

namespace Cert.Proof.Claims

open Idealize.ShloMosaic Idealize.ShloMosaic.TcCoe Idealize.ShloMosaic.ValueIdx
open Idealize.SL Idealize.SL.Sem
open scoped BigOperators

/-- A scalar array has one index. -/
theorem idx_eq_ix0 (j : Cert.KernelIdeal.S_.Idx) : j = ix0 := funext fun d => d.elim0

/-- The reference's composed term, read at its one index, is the loss of its two arguments. -/
theorem ref_side (x : FVec Ideal Cert.KernelIdeal.S8192x64 .f32) (lab : IVec Cert.KernelIdeal.S8192 32) :
    (Cert.ReferenceIdeal.RefRun.result (F := Ideal) x lab : FVec Ideal Cert.KernelIdeal.S_ .f32) ix0 = lossOf x lab := by
  have hf : Cert.ReferenceIdeal.RefValue.famAt lab = famRow lab := funext fun i => congrFun (Cert.Same.fam_eq lab) (ix1 i)
  have he : Cert.ReferenceIdeal.RefValue.enAt x = enRow x :=
    funext fun i => funext fun k => congrFun (Cert.Same.enorm_eq x) (ix2 i k)
  rw [Cert.ReferenceIdeal.RefValue.ref_value, hf, he]
  rfl

theorem algebraic : Cert.algebraic_KernelIdeal_ReferenceIdeal := by
  intro m ρ m' ρ' hpre hagree
  refine ⟨fun c _ => lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact Cert.KernelIdeal.Hand.Launch.run_gen (F := Ideal) m ρ fun s h c =>
      ⟨(h c _ (Cert.KernelIdeal.Hand.Launch.mem_uc Cert.KernelIdeal.main_v12 (by decide))).trans
          (funext fun j => by rw [idx_eq_ix0 j]; exact kernel_side m hpre c),
        (h c _ (Cert.KernelIdeal.Hand.Launch.mem_uc Cert.KernelIdeal.main_arg0 (by decide))).trans (Cert.KernelIdeal.Hand.W6_main_arg0 m c),
        (h c _ (Cert.KernelIdeal.Hand.Launch.mem_uc Cert.KernelIdeal.main_arg1 (by decide))).trans (Cert.KernelIdeal.Hand.W6_main_arg1 m c)⟩
  · refine (θ_run Cert.ReferenceIdeal.defs _ _).mono (fun r h c => ⟨(h c).1.trans ?_, (h c).2.1, (h c).2.2⟩)
      (Cert.ReferenceIdeal.RefRun.run_result (F := Ideal) m' ρ')
    rw [(hagree c).1, (hagree c).2]
    exact funext fun j => by rw [idx_eq_ix0 j]; exact ref_side _ _

end Cert.Proof.Claims

end
-- ==== Proof.lean ====
/-
  The certificate's claim: a batch-hard triplet loss over 8192 normalised embeddings, computed by a kernel that walks
  the 8192 x 8192 matrix of cosine distances block by block (1024 rows by 512 columns) keeping, per row, a running
  hardest positive and hardest negative, against a reference that forms the whole matrix.

  The three frames. The kernel's program, at the word level and idealized, is one pipelined region between host
  operations; its frame is the run of that program through the region's body obligation (one whole-body run per
  control case of the body: the first column block of a row block resets the two running values, the last stores the
  two outputs) and the launch of the region with the one array that two of its windows share split between them. The
  reference is a straight line of host operations. The idealization rewrote nothing. The two idealized programs
  compute one function of the arguments: the kernel's running maximum and minimum over the sixteen column blocks are
  the reference's maximum and minimum over all columns, because the fill values they start from already occur on
  the diagonal; and the kernel's test of a row (its hardest positive above, its hardest negative below, a threshold
  half way to the fills) is the reference's (the row has a positive and a negative column), because every distance
  between normalised rows of finite entries is a real in [-63, 65].
-/
import proofs.«175049_j14310831030886_1_alg».proof.Defs
import proofs.«175049_j14310831030886_1_alg».proof.Proof.Gen.Kernel
import proofs.«175049_j14310831030886_1_alg».proof.Proof.Gen.KernelIdeal
import proofs.«175049_j14310831030886_1_alg».proof.Proof.Gen.ReferenceIdeal
import proofs.«175049_j14310831030886_1_alg».proof.Proof.Gen.Pre_finite_inputs
import proofs.«175049_j14310831030886_1_alg».proof.Proof.KLaunch
import proofs.«175049_j14310831030886_1_alg».proof.Proof.KILaunch
import proofs.«175049_j14310831030886_1_alg».proof.Proof.RefRun
import proofs.«175049_j14310831030886_1_alg».proof.Proof.Algebraic

noncomputable section

namespace Cert.Proof

open Idealize.ShloMosaic Idealize.SL.Sem

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Claims.algebraic⟩

end Cert.Proof

end
